-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v809) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x16 : Shape := ⟨4, ![64, 256, 256, 16]⟩
abbrev S65536x28 : Shape := ⟨2, ![65536, 28]⟩
abbrev S65536x8 : Shape := ⟨2, ![65536, 8]⟩
abbrev S_ : Shape := ⟨0, ![]⟩

class Facts : Prop where
  bcast_S_S64x256x256x16 : S_.BroadcastsInDim S64x256x256x16 (![] : Fin 0 → Fin S64x256x256x16.rank)
  reducesTo_S64x256x256x16_S_d0_1_2_3 : S64x256x256x16.ReducesTo [0, 1, 2, 3] S_
  h_S_ : 0 < S_.numel
  bcast_S_S65536x28 : S_.BroadcastsInDim S65536x28 (![] : Fin 0 → Fin S65536x28.rank)
  reducesTo_S65536x28_S_d0_1 : S65536x28.ReducesTo [0, 1] S_
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S64x256x256x16 .f32) (main_arg1 : FVec F S65536x28 .f32) (main_arg2 : FVec F S65536x8 .f32) : IVec S_ 1 :=
  let main_v0 : FVec F S64x256x256x16 .f32 := Host.absf main_arg0
  let main_cst : FVec F S_ .f32 := constant S_ .f32 0x7F800000#32
  let main_v1 : FVec F S64x256x256x16 .f32 := broadcastInDim S64x256x256x16 ![] bcast_S_S64x256x256x16 main_cst
  let main_v2 : IVec S64x256x256x16 1 := cmpf .olt main_v0 main_v1
  let main_c : IVec S_ 1 := constantI S_ 1 1#1
  let main_v3 : IVec S_ 1 := (fun x v => Host.reduce IntOp.andi x v reducesTo_S64x256x256x16_S_d0_1_2_3 h_S_) main_v2 main_c
  let main_v4 : FVec F S65536x28 .f32 := Host.absf main_arg1
  let main_cst_0 : FVec F S_ .f32 := constant S_ .f32 0x7F800000#32
  let main_v5 : FVec F S65536x28 .f32 := broadcastInDim S65536x28 ![] bcast_S_S65536x28 main_cst_0
  let main_v6 : IVec S65536x28 1 := cmpf .olt main_v4 main_v5
  let main_c_1 : IVec S_ 1 := constantI S_ 1 1#1
  let main_v7 : IVec S_ 1 := (fun x v => Host.reduce IntOp.andi x v reducesTo_S65536x28_S_d0_1 h_S_) main_v6 main_c_1
  let main_v8 : IVec S_ 1 := andi main_v3 main_v7
  let main_v9 : FVec F S65536x8 .f32 := Host.absf main_arg2
  let main_cst_2 : FVec F S_ .f32 := constant S_ .f32 0x7F800000#32
  let main_v10 : FVec F S65536x8 .f32 := broadcastInDim S65536x8 ![] bcast_S_S65536x8 main_cst_2
  let main_v11 : IVec S65536x8 1 := cmpf .olt main_v9 main_v10
  let main_c_3 : IVec S_ 1 := constantI S_ 1 1#1
  let main_v12 : IVec S_ 1 := (fun x v => Host.reduce IntOp.andi x v reducesTo_S65536x8_S_d0_1 h_S_) main_v11 main_c_3
  let main_v13 : IVec S_ 1 := andi main_v8 main_v12
  main_v13
-- ==== Kernel.lean ====
abbrev S64x256x256x16 : Shape := ⟨4, ![64, 256, 256, 16]⟩
abbrev S65536x28 : Shape := ⟨2, ![65536, 28]⟩
abbrev S65536x8 : Shape := ⟨2, ![65536, 8]⟩
abbrev S256x256x28 : Shape := ⟨3, ![256, 256, 28]⟩
abbrev S256x256x8 : Shape := ⟨3, ![256, 256, 8]⟩
abbrev S64x4x256x16 : Shape := ⟨4, ![64, 4, 256, 16]⟩
abbrev S4x256x28 : Shape := ⟨3, ![4, 256, 28]⟩
abbrev S4x256x8 : Shape := ⟨3, ![4, 256, 8]⟩
abbrev S64x4x256x8 : Shape := ⟨4, ![64, 4, 256, 8]⟩
abbrev S64x4x256x1 : Shape := ⟨4, ![64, 4, 256, 1]⟩
abbrev S64x4x256 : Shape := ⟨3, ![64, 4, 256]⟩
abbrev S4x256x1 : Shape := ⟨3, ![4, 256, 1]⟩
abbrev S4x256 : Shape := ⟨2, ![4, 256]⟩
abbrev S1x4x256 : Shape := ⟨3, ![1, 4, 256]⟩

abbrev nBuf : Space → Nat
  | .hbm => 6
  | .vmem => 8
  | .smem => 0
  | _ => 0

abbrev bufTy : (tb : Table) → Fin (tcTables nBuf tb) → BufTy
  | .hbm, ⟨0, _⟩ => ⟨S64x256x256x16, .f32⟩
  | .hbm, ⟨1, _⟩ => ⟨S65536x28, .f32⟩
  | .hbm, ⟨2, _⟩ => ⟨S65536x8, .f32⟩
  | .hbm, ⟨3, _⟩ => ⟨S256x256x28, .f32⟩
  | .hbm, ⟨4, _⟩ => ⟨S256x256x8, .f32⟩
  | .hbm, ⟨5, _⟩ => ⟨S64x256x256x16, .f32⟩
  | .local _ .vmem, ⟨0, _⟩ => ⟨S64x4x256x16, .f32⟩
  | .local _ .vmem, ⟨1, _⟩ => ⟨S64x4x256x16, .f32⟩
  | .local _ .vmem, ⟨2, _⟩ => ⟨S4x256x28, .f32⟩
  | .local _ .vmem, ⟨3, _⟩ => ⟨S4x256x28, .f32⟩
  | .local _ .vmem, ⟨4, _⟩ => ⟨S4x256x8, .f32⟩
  | .local _ .vmem, ⟨5, _⟩ => ⟨S4x256x8, .f32⟩
  | .local _ .vmem, ⟨6, _⟩ => ⟨S64x4x256x16, .f32⟩
  | .local _ .vmem, ⟨7, _⟩ => ⟨S64x4x256x16, .f32⟩
  | _, _ => ⟨S64x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x4x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536x28_S256x256x28 : S65536x28.ShapeCasts S256x256x28
  shapeCasts_S65536x8_S256x256x8 : S65536x8.ShapeCasts S256x256x8
  inb_S64x4x256x16_S64x4x256x8_0_0_0_0 : ∀ a, (![0, 0, 0, 0] : Fin 4 → Nat) a + S64x4x256x8.size a ≤ S64x4x256x16.size a
  h_S64x4x256x8 : 0 < S64x4x256x8.numel
  inb_S64x4x256x16_S64x4x256x1_0_0_0_8 : ∀ a, (![0, 0, 0, 8] : Fin 4 → Nat) a + S64x4x256x1.size a ≤ S64x4x256x16.size a
  h_S64x4x256x1 : 0 < S64x4x256x1.numel
  shapeCasts_S64x4x256x1_S64x4x256 : S64x4x256x1.ShapeCasts S64x4x256
  inb_S64x4x256x16_S64x4x256x1_0_0_0_9 : ∀ a, (![0, 0, 0, 9] : Fin 4 → Nat) a + S64x4x256x1.size a ≤ S64x4x256x16.size a
  inb_S64x4x256x16_S64x4x256x1_0_0_0_10 : ∀ a, (![0, 0, 0, 10] : Fin 4 → Nat) a + S64x4x256x1.size a ≤ S64x4x256x16.size a
  inb_S64x4x256x16_S64x4x256x1_0_0_0_11 : ∀ a, (![0, 0, 0, 11] : Fin 4 → Nat) a + S64x4x256x1.size a ≤ S64x4x256x16.size a
  inb_S64x4x256x16_S64x4x256x1_0_0_0_12 : ∀ a, (![0, 0, 0, 12] : Fin 4 → Nat) a + S64x4x256x1.size a ≤ S64x4x256x16.size a
  inb_S64x4x256x16_S64x4x256x1_0_0_0_13 : ∀ a, (![0, 0, 0, 13] : Fin 4 → Nat) a + S64x4x256x1.size a ≤ S64x4x256x16.size a
  inb_S64x4x256x16_S64x4x256x1_0_0_0_14 : ∀ a, (![0, 0, 0, 14] : Fin 4 → Nat) a + S64x4x256x1.size a ≤ S64x4x256x16.size a
  inb_S64x4x256x16_S64x4x256x1_0_0_0_15 : ∀ a, (![0, 0, 0, 15] : Fin 4 → Nat) a + S64x4x256x1.size a ≤ S64x4x256x16.size a
  inb_S4x256x8_S4x256x1_0_0_0 : ∀ a, (![0, 0, 0] : Fin 3 → Nat) a + S4x256x1.size a ≤ S4x256x8.size a
  h_S4x256x1 : 0 < S4x256x1.numel
  shapeCasts_S4x256x1_S4x256 : S4x256x1.ShapeCasts S4x256
  shapeCasts_S4x256_S1x4x256 : S4x256.ShapeCasts S1x4x256
  inb_S4x256x8_S4x256x1_0_0_1 : ∀ a, (![0, 0, 1] : Fin 3 → Nat) a + S4x256x1.size a ≤ S4x256x8.size a
  inb_S4x256x8_S4x256x1_0_0_2 : ∀ a, (![0, 0, 2] : Fin 3 → Nat) a + S4x256x1.size a ≤ S4x256x8.size a
  inb_S4x256x8_S4x256x1_0_0_3 : ∀ a, (![0, 0, 3] : Fin 3 → Nat) a + S4x256x1.size a ≤ S4x256x8.size a
  inb_S4x256x8_S4x256x1_0_0_4 : ∀ a, (![0, 0, 4] : Fin 3 → Nat) a + S4x256x1.size a ≤ S4x256x8.size a
  inb_S4x256x8_S4x256x1_0_0_5 : ∀ a, (![0, 0, 5] : Fin 3 → Nat) a + S4x256x1.size a ≤ S4x256x8.size a
  inb_S4x256x8_S4x256x1_0_0_6 : ∀ a, (![0, 0, 6] : Fin 3 → Nat) a + S4x256x1.size a ≤ S4x256x8.size a
  inb_S4x256x8_S4x256x1_0_0_7 : ∀ a, (![0, 0, 7] : Fin 3 → Nat) a + S4x256x1.size a ≤ S4x256x8.size a
  broadcasts_S1x4x256_S64x4x256 : S1x4x256.Broadcasts S64x4x256
  inb_S4x256x28_S4x256x1_0_0_27 : ∀ a, (![0, 0, 27] : Fin 3 → Nat) a + S4x256x1.size a ≤ S4x256x28.size a
  inb_S4x256x28_S4x256x1_0_0_26 : ∀ a, (![0, 0, 26] : Fin 3 → Nat) a + S4x256x1.size a ≤ S4x256x28.size a
  inb_S4x256x28_S4x256x1_0_0_25 : ∀ a, (![0, 0, 25] : Fin 3 → Nat) a + S4x256x1.size a ≤ S4x256x28.size a
  inb_S4x256x28_S4x256x1_0_0_24 : ∀ a, (![0, 0, 24] : Fin 3 → Nat) a + S4x256x1.size a ≤ S4x256x28.size a
  inb_S4x256x28_S4x256x1_0_0_23 : ∀ a, (![0, 0, 23] : Fin 3 → Nat) a + S4x256x1.size a ≤ S4x256x28.size a
  inb_S4x256x28_S4x256x1_0_0_22 : ∀ a, (![0, 0, 22] : Fin 3 → Nat) a + S4x256x1.size a ≤ S4x256x28.size a
  inb_S4x256x28_S4x256x1_0_0_21 : ∀ a, (![0, 0, 21] : Fin 3 → Nat) a + S4x256x1.size a ≤ S4x256x28.size a
  inb_S4x256x28_S4x256x1_0_0_20 : ∀ a, (![0, 0, 20] : Fin 3 → Nat) a + S4x256x1.size a ≤ S4x256x28.size a
  inb_S4x256x28_S4x256x1_0_0_19 : ∀ a, (![0, 0, 19] : Fin 3 → Nat) a + S4x256x1.size a ≤ S4x256x28.size a
  inb_S4x256x28_S4x256x1_0_0_18 : ∀ a, (![0, 0, 18] : Fin 3 → Nat) a + S4x256x1.size a ≤ S4x256x28.size a
  inb_S4x256x28_S4x256x1_0_0_17 : ∀ a, (![0, 0, 17] : Fin 3 → Nat) a + S4x256x1.size a ≤ S4x256x28.size a
  inb_S4x256x28_S4x256x1_0_0_16 : ∀ a, (![0, 0, 16] : Fin 3 → Nat) a + S4x256x1.size a ≤ S4x256x28.size a
  inb_S4x256x28_S4x256x1_0_0_15 : ∀ a, (![0, 0, 15] : Fin 3 → Nat) a + S4x256x1.size a ≤ S4x256x28.size a
  inb_S4x256x28_S4x256x1_0_0_14 : ∀ a, (![0, 0, 14] : Fin 3 → Nat) a + S4x256x1.size a ≤ S4x256x28.size a
  inb_S4x256x28_S4x256x1_0_0_13 : ∀ a, (![0, 0, 13] : Fin 3 → Nat) a + S4x256x1.size a ≤ S4x256x28.size a
  inb_S4x256x28_S4x256x1_0_0_12 : ∀ a, (![0, 0, 12] : Fin 3 → Nat) a + S4x256x1.size a ≤ S4x256x28.size a
  inb_S4x256x28_S4x256x1_0_0_11 : ∀ a, (![0, 0, 11] : Fin 3 → Nat) a + S4x256x1.size a ≤ S4x256x28.size a
  inb_S4x256x28_S4x256x1_0_0_10 : ∀ a, (![0, 0, 10] : Fin 3 → Nat) a + S4x256x1.size a ≤ S4x256x28.size a
  inb_S4x256x28_S4x256x1_0_0_9 : ∀ a, (![0, 0, 9] : Fin 3 → Nat) a + S4x256x1.size a ≤ S4x256x28.size a
  inb_S4x256x28_S4x256x1_0_0_8 : ∀ a, (![0, 0, 8] : Fin 3 → Nat) a + S4x256x1.size a ≤ S4x256x28.size a
  inb_S4x256x28_S4x256x1_0_0_7 : ∀ a, (![0, 0, 7] : Fin 3 → Nat) a + S4x256x1.size a ≤ S4x256x28.size a
  inb_S4x256x28_S4x256x1_0_0_6 : ∀ a, (![0, 0, 6] : Fin 3 → Nat) a + S4x256x1.size a ≤ S4x256x28.size a
  inb_S4x256x28_S4x256x1_0_0_5 : ∀ a, (![0, 0, 5] : Fin 3 → Nat) a + S4x256x1.size a ≤ S4x256x28.size a
  inb_S4x256x28_S4x256x1_0_0_4 : ∀ a, (![0, 0, 4] : Fin 3 → Nat) a + S4x256x1.size a ≤ S4x256x28.size a
  inb_S4x256x28_S4x256x1_0_0_3 : ∀ a, (![0, 0, 3] : Fin 3 → Nat) a + S4x256x1.size a ≤ S4x256x28.size a
  inb_S4x256x28_S4x256x1_0_0_2 : ∀ a, (![0, 0, 2] : Fin 3 → Nat) a + S4x256x1.size a ≤ S4x256x28.size a
  inb_S4x256x28_S4x256x1_0_0_1 : ∀ a, (![0, 0, 1] : Fin 3 → Nat) a + S4x256x1.size a ≤ S4x256x28.size a
  inb_S4x256x28_S4x256x1_0_0_0 : ∀ a, (![0, 0, 0] : Fin 3 → Nat) a + S4x256x1.size a ≤ S4x256x28.size a
  shapeCasts_S64x4x256_S64x4x256x1 : S64x4x256.ShapeCasts S64x4x256x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x256x16.size a ≤ S64x256x256x16.size a
  hwx0_0 : ∀ i : grid0.Coords, EltTy.bits .f32 = 32 ∨ (Rect.block (s := S64x256x256x16) S64x4x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x28.size a ≤ S256x256x28.size a
  hwx0_1 : ∀ i : grid0.Coords, EltTy.bits .f32 = 32 ∨ (Rect.block (s := S256x256x28) S4x256x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x8.size a ≤ S256x256x8.size a
  hwx0_2 : ∀ i : grid0.Coords, EltTy.bits .f32 = 32 ∨ (Rect.block (s := S256x256x8) S4x256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4x256x16.size a ≤ S64x256x256x16.size a
  hwx0_3 : ∀ i : grid0.Coords, EltTy.bits .f32 = 32 ∨ (Rect.block (s := S64x256x256x16) S64x4x256x16.size (cc0_transform_3 i) (hinb0_3 i)).WholeWords (EltTy.packing .f32)

variable [Facts₀]

abbrev win0_0 : Pipeline.Window sig grid0 :=
  Pipeline.Window.ofSpec (Memref.whole main_arg0) S64x4x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4x256x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x256x16 : Shape := ⟨4, ![64, 256, 256, 16]⟩
abbrev S65536x28 : Shape := ⟨2, ![65536, 28]⟩
abbrev S65536x8 : Shape := ⟨2, ![65536, 8]⟩
abbrev S256x256x16x64 : Shape := ⟨4, ![256, 256, 16, 64]⟩
abbrev S65536x16x64 : Shape := ⟨3, ![65536, 16, 64]⟩
abbrev S65536x8x64 : Shape := ⟨3, ![65536, 8, 64]⟩
abbrev S8x8 : Shape := ⟨2, ![8, 8]⟩
abbrev S_ : Shape := ⟨0, ![]⟩
abbrev S65536x1 : Shape := ⟨2, ![65536, 1]⟩
abbrev S65536 : Shape := ⟨1, ![65536]⟩
abbrev S1x8 : Shape := ⟨2, ![1, 8]⟩
abbrev S8 : Shape := ⟨1, ![8]⟩
abbrev S1 : Shape := ⟨1, ![1]⟩
abbrev S65536x8x8 : Shape := ⟨3, ![65536, 8, 8]⟩
abbrev S65536x1x8 : Shape := ⟨3, ![65536, 1, 8]⟩
abbrev S65536x8x1 : Shape := ⟨3, ![65536, 8, 1]⟩

abbrev nBuf : Space → Nat
  | .hbm => 870
  | .vmem => 0
  | .smem => 0
  | _ => 0

abbrev hbmTy0_0 (i : Nat) : BufTy := match i % 128 with
  | 0 => ⟨S64x256x256x16, .f32⟩
  | 1 => ⟨S65536x28, .f32⟩
  | 2 => ⟨S65536x8, .f32⟩
  | 3 => ⟨S256x256x16x64, .f32⟩
  | 4 => ⟨S65536x16x64, .f32⟩
  | 5 => ⟨S65536x8x64, .f32⟩
  | 6 => ⟨S8x8, .i32⟩
  | 7 => ⟨S8x8, .i32⟩
  | 8 => ⟨S_, .i32⟩
  | 9 => ⟨S8x8, .i32⟩
  | 10 => ⟨S8x8, .i32⟩
  | 11 => ⟨S8x8, .i1⟩
  | 12 => ⟨S8x8, .f32⟩
  | 13 => ⟨S65536x1, .f32⟩
  | 14 => ⟨S65536, .f32⟩
  | 15 => ⟨S65536, .f32⟩
  | 16 => ⟨S65536x1, .f32⟩
  | 17 => ⟨S65536, .f32⟩
  | 18 => ⟨S65536, .f32⟩
  | 19 => ⟨S1x8, .f32⟩
  | 20 => ⟨S8, .f32⟩
  | 21 => ⟨S1x8, .f32⟩
  | 22 => ⟨S8, .f32⟩
  | 23 => ⟨S1x8, .f32⟩
  | 24 => ⟨S65536x1, .f32⟩
  | 25 => ⟨S65536x8, .f32⟩
  | 26 => ⟨S65536x8, .f32⟩
  | 27 => ⟨S65536x8, .f32⟩
  | 28 => ⟨S1x8, .f32⟩
  | 29 => ⟨S65536x1, .f32⟩
  | 30 => ⟨S65536x8, .f32⟩
  | 31 => ⟨S65536x8, .f32⟩
  | 32 => ⟨S65536x8, .f32⟩
  | 33 => ⟨S65536x8, .f32⟩
  | 34 => ⟨S_, .i32⟩
  | 35 => ⟨S1, .i32⟩
  | 36 => ⟨S65536x8x8, .f32⟩
  | 37 => ⟨S65536x8x8, .f32⟩
  | 38 => ⟨S1x8, .f32⟩
  | 39 => ⟨S65536x1, .f32⟩
  | 40 => ⟨S65536x8, .f32⟩
  | 41 => ⟨S65536x8, .f32⟩
  | 42 => ⟨S65536x8, .f32⟩
  | 43 => ⟨S1x8, .f32⟩
  | 44 => ⟨S65536x1, .f32⟩
  | 45 => ⟨S65536x8, .f32⟩
  | 46 => ⟨S65536x8, .f32⟩
  | 47 => ⟨S65536x8, .f32⟩
  | 48 => ⟨S65536x8, .f32⟩
  | 49 => ⟨S_, .i32⟩
  | 50 => ⟨S1, .i32⟩
  | 51 => ⟨S65536x8x8, .f32⟩
  | 52 => ⟨S65536x1, .f32⟩
  | 53 => ⟨S65536, .f32⟩
  | 54 => ⟨S65536, .f32⟩
  | 55 => ⟨S65536x1, .f32⟩
  | 56 => ⟨S65536, .f32⟩
  | 57 => ⟨S65536, .f32⟩
  | 58 => ⟨S65536x1x8, .f32⟩
  | 59 => ⟨S65536x8, .f32⟩
  | 60 => ⟨S65536x1x8, .f32⟩
  | 61 => ⟨S65536x8, .f32⟩
  | 62 => ⟨S65536x1, .f32⟩
  | 63 => ⟨S65536x8, .f32⟩
  | 64 => ⟨S65536x8, .f32⟩
  | 65 => ⟨S65536x1, .f32⟩
  | 66 => ⟨S65536x8, .f32⟩
  | 67 => ⟨S65536x8, .f32⟩
  | 68 => ⟨S65536x8, .f32⟩
  | 69 => ⟨S_, .i32⟩
  | 70 => ⟨S1, .i32⟩
  | 71 => ⟨S65536x8x8, .f32⟩
  | 72 => ⟨S65536x1, .f32⟩
  | 73 => ⟨S65536x8, .f32⟩
  | 74 => ⟨S65536x8, .f32⟩
  | 75 => ⟨S65536x1, .f32⟩
  | 76 => ⟨S65536x8, .f32⟩
  | 77 => ⟨S65536x8, .f32⟩
  | 78 => ⟨S65536x8, .f32⟩
  | 79 => ⟨S_, .i32⟩
  | 80 => ⟨S1, .i32⟩
  | 81 => ⟨S65536x8x8, .f32⟩
  | 82 => ⟨S65536x1, .f32⟩
  | 83 => ⟨S65536, .f32⟩
  | 84 => ⟨S65536, .f32⟩
  | 85 => ⟨S65536x1, .f32⟩
  | 86 => ⟨S65536, .f32⟩
  | 87 => ⟨S65536, .f32⟩
  | 88 => ⟨S65536x1x8, .f32⟩
  | 89 => ⟨S65536x8, .f32⟩
  | 90 => ⟨S65536x1x8, .f32⟩
  | 91 => ⟨S65536x8, .f32⟩
  | 92 => ⟨S65536x1, .f32⟩
  | 93 => ⟨S65536x8, .f32⟩
  | 94 => ⟨S65536x8, .f32⟩
  | 95 => ⟨S65536x1, .f32⟩
  | 96 => ⟨S65536x8, .f32⟩
  | 97 => ⟨S65536x8, .f32⟩
  | 98 => ⟨S65536x8, .f32⟩
  | 99 => ⟨S_, .i32⟩
  | 100 => ⟨S1, .i32⟩
  | 101 => ⟨S65536x8x8, .f32⟩
  | 102 => ⟨S65536x1, .f32⟩
  | 103 => ⟨S65536x8, .f32⟩
  | 104 => ⟨S65536x8, .f32⟩
  | 105 => ⟨S65536x1, .f32⟩
  | 106 => ⟨S65536x8, .f32⟩
  | 107 => ⟨S65536x8, .f32⟩
  | 108 => ⟨S65536x8, .f32⟩
  | 109 => ⟨S_, .i32⟩
  | 110 => ⟨S1, .i32⟩
  | 111 => ⟨S65536x8x8, .f32⟩
  | 112 => ⟨S65536x1, .f32⟩
  | 113 => ⟨S65536, .f32⟩
  | 114 => ⟨S65536, .f32⟩
  | 115 => ⟨S65536x1, .f32⟩
  | 116 => ⟨S65536, .f32⟩
  | 117 => ⟨S65536, .f32⟩
  | 118 => ⟨S65536x1x8, .f32⟩
  | 119 => ⟨S65536x8, .f32⟩
  | 120 => ⟨S65536x1x8, .f32⟩
  | 121 => ⟨S65536x8, .f32⟩
  | 122 => ⟨S65536x1, .f32⟩
  | 123 => ⟨S65536x8, .f32⟩
  | 124 => ⟨S65536x8, .f32⟩
  | 125 => ⟨S65536x1, .f32⟩
  | 126 => ⟨S65536x8, .f32⟩
  | 127 => ⟨S65536x8, .f32⟩
  | _ => ⟨S64x256x256x16, .f32⟩

abbrev hbmTy0_1 (i : Nat) : BufTy := match i % 128 with
  | 0 => ⟨S65536x8, .f32⟩
  | 1 => ⟨S_, .i32⟩
  | 2 => ⟨S1, .i32⟩
  | 3 => ⟨S65536x8x8, .f32⟩
  | 4 => ⟨S65536x1, .f32⟩
  | 5 => ⟨S65536x8, .f32⟩
  | 6 => ⟨S65536x8, .f32⟩
  | 7 => ⟨S65536x1, .f32⟩
  | 8 => ⟨S65536x8, .f32⟩
  | 9 => ⟨S65536x8, .f32⟩
  | 10 => ⟨S65536x8, .f32⟩
  | 11 => ⟨S_, .i32⟩
  | 12 => ⟨S1, .i32⟩
  | 13 => ⟨S65536x8x8, .f32⟩
  | 14 => ⟨S65536x1, .f32⟩
  | 15 => ⟨S65536, .f32⟩
  | 16 => ⟨S65536, .f32⟩
  | 17 => ⟨S65536x1, .f32⟩
  | 18 => ⟨S65536, .f32⟩
  | 19 => ⟨S65536, .f32⟩
  | 20 => ⟨S65536x1x8, .f32⟩
  | 21 => ⟨S65536x8, .f32⟩
  | 22 => ⟨S65536x1x8, .f32⟩
  | 23 => ⟨S65536x8, .f32⟩
  | 24 => ⟨S65536x1, .f32⟩
  | 25 => ⟨S65536x8, .f32⟩
  | 26 => ⟨S65536x8, .f32⟩
  | 27 => ⟨S65536x1, .f32⟩
  | 28 => ⟨S65536x8, .f32⟩
  | 29 => ⟨S65536x8, .f32⟩
  | 30 => ⟨S65536x8, .f32⟩
  | 31 => ⟨S_, .i32⟩
  | 32 => ⟨S1, .i32⟩
  | 33 => ⟨S65536x8x8, .f32⟩
  | 34 => ⟨S65536x1, .f32⟩
  | 35 => ⟨S65536x8, .f32⟩
  | 36 => ⟨S65536x8, .f32⟩
  | 37 => ⟨S65536x1, .f32⟩
  | 38 => ⟨S65536x8, .f32⟩
  | 39 => ⟨S65536x8, .f32⟩
  | 40 => ⟨S65536x8, .f32⟩
  | 41 => ⟨S_, .i32⟩
  | 42 => ⟨S1, .i32⟩
  | 43 => ⟨S65536x8x8, .f32⟩
  | 44 => ⟨S65536x1, .f32⟩
  | 45 => ⟨S65536, .f32⟩
  | 46 => ⟨S65536, .f32⟩
  | 47 => ⟨S65536x1, .f32⟩
  | 48 => ⟨S65536, .f32⟩
  | 49 => ⟨S65536, .f32⟩
  | 50 => ⟨S65536x1x8, .f32⟩
  | 51 => ⟨S65536x8, .f32⟩
  | 52 => ⟨S65536x1x8, .f32⟩
  | 53 => ⟨S65536x8, .f32⟩
  | 54 => ⟨S65536x1, .f32⟩
  | 55 => ⟨S65536x8, .f32⟩
  | 56 => ⟨S65536x8, .f32⟩
  | 57 => ⟨S65536x1, .f32⟩
  | 58 => ⟨S65536x8, .f32⟩
  | 59 => ⟨S65536x8, .f32⟩
  | 60 => ⟨S65536x8, .f32⟩
  | 61 => ⟨S_, .i32⟩
  | 62 => ⟨S1, .i32⟩
  | 63 => ⟨S65536x8x8, .f32⟩
  | 64 => ⟨S65536x1, .f32⟩
  | 65 => ⟨S65536x8, .f32⟩
  | 66 => ⟨S65536x8, .f32⟩
  | 67 => ⟨S65536x1, .f32⟩
  | 68 => ⟨S65536x8, .f32⟩
  | 69 => ⟨S65536x8, .f32⟩
  | 70 => ⟨S65536x8, .f32⟩
  | 71 => ⟨S_, .i32⟩
  | 72 => ⟨S1, .i32⟩
  | 73 => ⟨S65536x8x8, .f32⟩
  | 74 => ⟨S65536x1, .f32⟩
  | 75 => ⟨S65536, .f32⟩
  | 76 => ⟨S65536, .f32⟩
  | 77 => ⟨S65536x1, .f32⟩
  | 78 => ⟨S65536, .f32⟩
  | 79 => ⟨S65536, .f32⟩
  | 80 => ⟨S65536x1x8, .f32⟩
  | 81 => ⟨S65536x8, .f32⟩
  | 82 => ⟨S65536x1x8, .f32⟩
  | 83 => ⟨S65536x8, .f32⟩
  | 84 => ⟨S65536x1, .f32⟩
  | 85 => ⟨S65536x8, .f32⟩
  | 86 => ⟨S65536x8, .f32⟩
  | 87 => ⟨S65536x1, .f32⟩
  | 88 => ⟨S65536x8, .f32⟩
  | 89 => ⟨S65536x8, .f32⟩
  | 90 => ⟨S65536x8, .f32⟩
  | 91 => ⟨S_, .i32⟩
  | 92 => ⟨S1, .i32⟩
  | 93 => ⟨S65536x8x8, .f32⟩
  | 94 => ⟨S65536x1, .f32⟩
  | 95 => ⟨S65536x8, .f32⟩
  | 96 => ⟨S65536x8, .f32⟩
  | 97 => ⟨S65536x1, .f32⟩
  | 98 => ⟨S65536x8, .f32⟩
  | 99 => ⟨S65536x8, .f32⟩
  | 100 => ⟨S65536x8, .f32⟩
  | 101 => ⟨S_, .i32⟩
  | 102 => ⟨S1, .i32⟩
  | 103 => ⟨S65536x8x8, .f32⟩
  | 104 => ⟨S65536x1, .f32⟩
  | 105 => ⟨S65536, .f32⟩
  | 106 => ⟨S65536, .f32⟩
  | 107 => ⟨S65536x1, .f32⟩
  | 108 => ⟨S65536, .f32⟩
  | 109 => ⟨S65536, .f32⟩
  | 110 => ⟨S65536x1x8, .f32⟩
  | 111 => ⟨S65536x8, .f32⟩
  | 112 => ⟨S65536x1x8, .f32⟩
  | 113 => ⟨S65536x8, .f32⟩
  | 114 => ⟨S65536x1, .f32⟩
  | 115 => ⟨S65536x8, .f32⟩
  | 116 => ⟨S65536x8, .f32⟩
  | 117 => ⟨S65536x1, .f32⟩
  | 118 => ⟨S65536x8, .f32⟩
  | 119 => ⟨S65536x8, .f32⟩
  | 120 => ⟨S65536x8, .f32⟩
  | 121 => ⟨S_, .i32⟩
  | 122 => ⟨S1, .i32⟩
  | 123 => ⟨S65536x8x8, .f32⟩
  | 124 => ⟨S65536x1, .f32⟩
  | 125 => ⟨S65536x8, .f32⟩
  | 126 => ⟨S65536x8, .f32⟩
  | 127 => ⟨S65536x1, .f32⟩
  | _ => ⟨S64x256x256x16, .f32⟩

abbrev hbmTy0_2 (i : Nat) : BufTy := match i % 128 with
  | 0 => ⟨S65536x8, .f32⟩
  | 1 => ⟨S65536x8, .f32⟩
  | 2 => ⟨S65536x8, .f32⟩
  | 3 => ⟨S_, .i32⟩
  | 4 => ⟨S1, .i32⟩
  | 5 => ⟨S65536x8x8, .f32⟩
  | 6 => ⟨S65536x1, .f32⟩
  | 7 => ⟨S65536, .f32⟩
  | 8 => ⟨S65536, .f32⟩
  | 9 => ⟨S65536x1, .f32⟩
  | 10 => ⟨S65536, .f32⟩
  | 11 => ⟨S65536, .f32⟩
  | 12 => ⟨S65536x1x8, .f32⟩
  | 13 => ⟨S65536x8, .f32⟩
  | 14 => ⟨S65536x1x8, .f32⟩
  | 15 => ⟨S65536x8, .f32⟩
  | 16 => ⟨S65536x1, .f32⟩
  | 17 => ⟨S65536x8, .f32⟩
  | 18 => ⟨S65536x8, .f32⟩
  | 19 => ⟨S65536x1, .f32⟩
  | 20 => ⟨S65536x8, .f32⟩
  | 21 => ⟨S65536x8, .f32⟩
  | 22 => ⟨S65536x8, .f32⟩
  | 23 => ⟨S_, .i32⟩
  | 24 => ⟨S1, .i32⟩
  | 25 => ⟨S65536x8x8, .f32⟩
  | 26 => ⟨S65536x1, .f32⟩
  | 27 => ⟨S65536x8, .f32⟩
  | 28 => ⟨S65536x8, .f32⟩
  | 29 => ⟨S65536x1, .f32⟩
  | 30 => ⟨S65536x8, .f32⟩
  | 31 => ⟨S65536x8, .f32⟩
  | 32 => ⟨S65536x8, .f32⟩
  | 33 => ⟨S_, .i32⟩
  | 34 => ⟨S1, .i32⟩
  | 35 => ⟨S65536x8x8, .f32⟩
  | 36 => ⟨S65536x1, .f32⟩
  | 37 => ⟨S65536, .f32⟩
  | 38 => ⟨S65536, .f32⟩
  | 39 => ⟨S65536x1, .f32⟩
  | 40 => ⟨S65536, .f32⟩
  | 41 => ⟨S65536, .f32⟩
  | 42 => ⟨S65536x1x8, .f32⟩
  | 43 => ⟨S65536x8, .f32⟩
  | 44 => ⟨S65536x1x8, .f32⟩
  | 45 => ⟨S65536x8, .f32⟩
  | 46 => ⟨S65536x1, .f32⟩
  | 47 => ⟨S65536x8, .f32⟩
  | 48 => ⟨S65536x8, .f32⟩
  | 49 => ⟨S65536x1, .f32⟩
  | 50 => ⟨S65536x8, .f32⟩
  | 51 => ⟨S65536x8, .f32⟩
  | 52 => ⟨S65536x8, .f32⟩
  | 53 => ⟨S_, .i32⟩
  | 54 => ⟨S1, .i32⟩
  | 55 => ⟨S65536x8x8, .f32⟩
  | 56 => ⟨S65536x1, .f32⟩
  | 57 => ⟨S65536x8, .f32⟩
  | 58 => ⟨S65536x8, .f32⟩
  | 59 => ⟨S65536x1, .f32⟩
  | 60 => ⟨S65536x8, .f32⟩
  | 61 => ⟨S65536x8, .f32⟩
  | 62 => ⟨S65536x8, .f32⟩
  | 63 => ⟨S_, .i32⟩
  | 64 => ⟨S1, .i32⟩
  | 65 => ⟨S65536x8x8, .f32⟩
  | 66 => ⟨S65536x1, .f32⟩
  | 67 => ⟨S65536, .f32⟩
  | 68 => ⟨S65536, .f32⟩
  | 69 => ⟨S65536x1, .f32⟩
  | 70 => ⟨S65536, .f32⟩
  | 71 => ⟨S65536, .f32⟩
  | 72 => ⟨S65536x1x8, .f32⟩
  | 73 => ⟨S65536x8, .f32⟩
  | 74 => ⟨S65536x1x8, .f32⟩
  | 75 => ⟨S65536x8, .f32⟩
  | 76 => ⟨S65536x1, .f32⟩
  | 77 => ⟨S65536x8, .f32⟩
  | 78 => ⟨S65536x8, .f32⟩
  | 79 => ⟨S65536x1, .f32⟩
  | 80 => ⟨S65536x8, .f32⟩
  | 81 => ⟨S65536x8, .f32⟩
  | 82 => ⟨S65536x8, .f32⟩
  | 83 => ⟨S_, .i32⟩
  | 84 => ⟨S1, .i32⟩
  | 85 => ⟨S65536x8x8, .f32⟩
  | 86 => ⟨S65536x1, .f32⟩
  | 87 => ⟨S65536x8, .f32⟩
  | 88 => ⟨S65536x8, .f32⟩
  | 89 => ⟨S65536x1, .f32⟩
  | 90 => ⟨S65536x8, .f32⟩
  | 91 => ⟨S65536x8, .f32⟩
  | 92 => ⟨S65536x8, .f32⟩
  | 93 => ⟨S_, .i32⟩
  | 94 => ⟨S1, .i32⟩
  | 95 => ⟨S65536x8x8, .f32⟩
  | 96 => ⟨S65536x1, .f32⟩
  | 97 => ⟨S65536, .f32⟩
  | 98 => ⟨S65536, .f32⟩
  | 99 => ⟨S65536x1, .f32⟩
  | 100 => ⟨S65536, .f32⟩
  | 101 => ⟨S65536, .f32⟩
  | 102 => ⟨S65536x1x8, .f32⟩
  | 103 => ⟨S65536x8, .f32⟩
  | 104 => ⟨S65536x1x8, .f32⟩
  | 105 => ⟨S65536x8, .f32⟩
  | 106 => ⟨S65536x1, .f32⟩
  | 107 => ⟨S65536x8, .f32⟩
  | 108 => ⟨S65536x8, .f32⟩
  | 109 => ⟨S65536x1, .f32⟩
  | 110 => ⟨S65536x8, .f32⟩
  | 111 => ⟨S65536x8, .f32⟩
  | 112 => ⟨S65536x8, .f32⟩
  | 113 => ⟨S_, .i32⟩
  | 114 => ⟨S1, .i32⟩
  | 115 => ⟨S65536x8x8, .f32⟩
  | 116 => ⟨S65536x1, .f32⟩
  | 117 => ⟨S65536x8, .f32⟩
  | 118 => ⟨S65536x8, .f32⟩
  | 119 => ⟨S65536x1, .f32⟩
  | 120 => ⟨S65536x8, .f32⟩
  | 121 => ⟨S65536x8, .f32⟩
  | 122 => ⟨S65536x8, .f32⟩
  | 123 => ⟨S_, .i32⟩
  | 124 => ⟨S1, .i32⟩
  | 125 => ⟨S65536x8x8, .f32⟩
  | 126 => ⟨S65536x1, .f32⟩
  | 127 => ⟨S65536, .f32⟩
  | _ => ⟨S64x256x256x16, .f32⟩

abbrev hbmTy0_3 (i : Nat) : BufTy := match i % 128 with
  | 0 => ⟨S65536, .f32⟩
  | 1 => ⟨S65536x1, .f32⟩
  | 2 => ⟨S65536, .f32⟩
  | 3 => ⟨S65536, .f32⟩
  | 4 => ⟨S65536x1x8, .f32⟩
  | 5 => ⟨S65536x8, .f32⟩
  | 6 => ⟨S65536x1x8, .f32⟩
  | 7 => ⟨S65536x8, .f32⟩
  | 8 => ⟨S65536x1, .f32⟩
  | 9 => ⟨S65536x8, .f32⟩
  | 10 => ⟨S65536x8, .f32⟩
  | 11 => ⟨S65536x1, .f32⟩
  | 12 => ⟨S65536x8, .f32⟩
  | 13 => ⟨S65536x8, .f32⟩
  | 14 => ⟨S65536x8, .f32⟩
  | 15 => ⟨S_, .i32⟩
  | 16 => ⟨S1, .i32⟩
  | 17 => ⟨S65536x8x8, .f32⟩
  | 18 => ⟨S65536x1, .f32⟩
  | 19 => ⟨S65536x8, .f32⟩
  | 20 => ⟨S65536x8, .f32⟩
  | 21 => ⟨S65536x1, .f32⟩
  | 22 => ⟨S65536x8, .f32⟩
  | 23 => ⟨S65536x8, .f32⟩
  | 24 => ⟨S65536x8, .f32⟩
  | 25 => ⟨S_, .i32⟩
  | 26 => ⟨S1, .i32⟩
  | 27 => ⟨S65536x8x8, .f32⟩
  | 28 => ⟨S65536x1, .f32⟩
  | 29 => ⟨S65536, .f32⟩
  | 30 => ⟨S65536, .f32⟩
  | 31 => ⟨S65536x1, .f32⟩
  | 32 => ⟨S65536, .f32⟩
  | 33 => ⟨S65536, .f32⟩
  | 34 => ⟨S65536x1x8, .f32⟩
  | 35 => ⟨S65536x8, .f32⟩
  | 36 => ⟨S65536x1x8, .f32⟩
  | 37 => ⟨S65536x8, .f32⟩
  | 38 => ⟨S65536x1, .f32⟩
  | 39 => ⟨S65536x8, .f32⟩
  | 40 => ⟨S65536x8, .f32⟩
  | 41 => ⟨S65536x1, .f32⟩
  | 42 => ⟨S65536x8, .f32⟩
  | 43 => ⟨S65536x8, .f32⟩
  | 44 => ⟨S65536x8, .f32⟩
  | 45 => ⟨S_, .i32⟩
  | 46 => ⟨S1, .i32⟩
  | 47 => ⟨S65536x8x8, .f32⟩
  | 48 => ⟨S65536x1, .f32⟩
  | 49 => ⟨S65536x8, .f32⟩
  | 50 => ⟨S65536x8, .f32⟩
  | 51 => ⟨S65536x1, .f32⟩
  | 52 => ⟨S65536x8, .f32⟩
  | 53 => ⟨S65536x8, .f32⟩
  | 54 => ⟨S65536x8, .f32⟩
  | 55 => ⟨S_, .i32⟩
  | 56 => ⟨S1, .i32⟩
  | 57 => ⟨S65536x8x8, .f32⟩
  | 58 => ⟨S65536x1, .f32⟩
  | 59 => ⟨S65536, .f32⟩
  | 60 => ⟨S65536, .f32⟩
  | 61 => ⟨S65536x1, .f32⟩
  | 62 => ⟨S65536, .f32⟩
  | 63 => ⟨S65536, .f32⟩
  | 64 => ⟨S65536x1x8, .f32⟩
  | 65 => ⟨S65536x8, .f32⟩
  | 66 => ⟨S65536x1x8, .f32⟩
  | 67 => ⟨S65536x8, .f32⟩
  | 68 => ⟨S65536x1, .f32⟩
  | 69 => ⟨S65536x8, .f32⟩
  | 70 => ⟨S65536x8, .f32⟩
  | 71 => ⟨S65536x1, .f32⟩
  | 72 => ⟨S65536x8, .f32⟩
  | 73 => ⟨S65536x8, .f32⟩
  | 74 => ⟨S65536x8, .f32⟩
  | 75 => ⟨S_, .i32⟩
  | 76 => ⟨S1, .i32⟩
  | 77 => ⟨S65536x8x8, .f32⟩
  | 78 => ⟨S65536x1, .f32⟩
  | 79 => ⟨S65536x8, .f32⟩
  | 80 => ⟨S65536x8, .f32⟩
  | 81 => ⟨S65536x1, .f32⟩
  | 82 => ⟨S65536x8, .f32⟩
  | 83 => ⟨S65536x8, .f32⟩
  | 84 => ⟨S65536x8, .f32⟩
  | 85 => ⟨S_, .i32⟩
  | 86 => ⟨S1, .i32⟩
  | 87 => ⟨S65536x8x8, .f32⟩
  | 88 => ⟨S65536x1, .f32⟩
  | 89 => ⟨S65536, .f32⟩
  | 90 => ⟨S65536, .f32⟩
  | 91 => ⟨S65536x1, .f32⟩
  | 92 => ⟨S65536, .f32⟩
  | 93 => ⟨S65536, .f32⟩
  | 94 => ⟨S65536x1x8, .f32⟩
  | 95 => ⟨S65536x8, .f32⟩
  | 96 => ⟨S65536x1x8, .f32⟩
  | 97 => ⟨S65536x8, .f32⟩
  | 98 => ⟨S65536x1, .f32⟩
  | 99 => ⟨S65536x8, .f32⟩
  | 100 => ⟨S65536x8, .f32⟩
  | 101 => ⟨S65536x1, .f32⟩
  | 102 => ⟨S65536x8, .f32⟩
  | 103 => ⟨S65536x8, .f32⟩
  | 104 => ⟨S65536x8, .f32⟩
  | 105 => ⟨S_, .i32⟩
  | 106 => ⟨S1, .i32⟩
  | 107 => ⟨S65536x8x8, .f32⟩
  | 108 => ⟨S65536x1, .f32⟩
  | 109 => ⟨S65536x8, .f32⟩
  | 110 => ⟨S65536x8, .f32⟩
  | 111 => ⟨S65536x1, .f32⟩
  | 112 => ⟨S65536x8, .f32⟩
  | 113 => ⟨S65536x8, .f32⟩
  | 114 => ⟨S65536x8, .f32⟩
  | 115 => ⟨S_, .i32⟩
  | 116 => ⟨S1, .i32⟩
  | 117 => ⟨S65536x8x8, .f32⟩
  | 118 => ⟨S65536x1, .f32⟩
  | 119 => ⟨S65536, .f32⟩
  | 120 => ⟨S65536, .f32⟩
  | 121 => ⟨S65536x1, .f32⟩
  | 122 => ⟨S65536, .f32⟩
  | 123 => ⟨S65536, .f32⟩
  | 124 => ⟨S65536x1x8, .f32⟩
  | 125 => ⟨S65536x8, .f32⟩
  | 126 => ⟨S65536x1x8, .f32⟩
  | 127 => ⟨S65536x8, .f32⟩
  | _ => ⟨S64x256x256x16, .f32⟩

abbrev hbmTy0_4 (i : Nat) : BufTy := match i % 128 with
  | 0 => ⟨S65536x1, .f32⟩
  | 1 => ⟨S65536x8, .f32⟩
  | 2 => ⟨S65536x8, .f32⟩
  | 3 => ⟨S65536x1, .f32⟩
  | 4 => ⟨S65536x8, .f32⟩
  | 5 => ⟨S65536x8, .f32⟩
  | 6 => ⟨S65536x8, .f32⟩
  | 7 => ⟨S_, .i32⟩
  | 8 => ⟨S1, .i32⟩
  | 9 => ⟨S65536x8x8, .f32⟩
  | 10 => ⟨S65536x1, .f32⟩
  | 11 => ⟨S65536x8, .f32⟩
  | 12 => ⟨S65536x8, .f32⟩
  | 13 => ⟨S65536x1, .f32⟩
  | 14 => ⟨S65536x8, .f32⟩
  | 15 => ⟨S65536x8, .f32⟩
  | 16 => ⟨S65536x8, .f32⟩
  | 17 => ⟨S_, .i32⟩
  | 18 => ⟨S1, .i32⟩
  | 19 => ⟨S65536x8x8, .f32⟩
  | 20 => ⟨S65536x1, .f32⟩
  | 21 => ⟨S65536, .f32⟩
  | 22 => ⟨S65536, .f32⟩
  | 23 => ⟨S65536x1, .f32⟩
  | 24 => ⟨S65536, .f32⟩
  | 25 => ⟨S65536, .f32⟩
  | 26 => ⟨S65536x1x8, .f32⟩
  | 27 => ⟨S65536x8, .f32⟩
  | 28 => ⟨S65536x1x8, .f32⟩
  | 29 => ⟨S65536x8, .f32⟩
  | 30 => ⟨S65536x1, .f32⟩
  | 31 => ⟨S65536x8, .f32⟩
  | 32 => ⟨S65536x8, .f32⟩
  | 33 => ⟨S65536x1, .f32⟩
  | 34 => ⟨S65536x8, .f32⟩
  | 35 => ⟨S65536x8, .f32⟩
  | 36 => ⟨S65536x8, .f32⟩
  | 37 => ⟨S_, .i32⟩
  | 38 => ⟨S1, .i32⟩
  | 39 => ⟨S65536x8x8, .f32⟩
  | 40 => ⟨S65536x1, .f32⟩
  | 41 => ⟨S65536x8, .f32⟩
  | 42 => ⟨S65536x8, .f32⟩
  | 43 => ⟨S65536x1, .f32⟩
  | 44 => ⟨S65536x8, .f32⟩
  | 45 => ⟨S65536x8, .f32⟩
  | 46 => ⟨S65536x8, .f32⟩
  | 47 => ⟨S_, .i32⟩
  | 48 => ⟨S1, .i32⟩
  | 49 => ⟨S65536x8x8, .f32⟩
  | 50 => ⟨S65536x1, .f32⟩
  | 51 => ⟨S65536, .f32⟩
  | 52 => ⟨S65536, .f32⟩
  | 53 => ⟨S65536x1, .f32⟩
  | 54 => ⟨S65536, .f32⟩
  | 55 => ⟨S65536, .f32⟩
  | 56 => ⟨S65536x1x8, .f32⟩
  | 57 => ⟨S65536x8, .f32⟩
  | 58 => ⟨S65536x1x8, .f32⟩
  | 59 => ⟨S65536x8, .f32⟩
  | 60 => ⟨S65536x1, .f32⟩
  | 61 => ⟨S65536x8, .f32⟩
  | 62 => ⟨S65536x8, .f32⟩
  | 63 => ⟨S65536x1, .f32⟩
  | 64 => ⟨S65536x8, .f32⟩
  | 65 => ⟨S65536x8, .f32⟩
  | 66 => ⟨S65536x8, .f32⟩
  | 67 => ⟨S_, .i32⟩
  | 68 => ⟨S1, .i32⟩
  | 69 => ⟨S65536x8x8, .f32⟩
  | 70 => ⟨S65536x1, .f32⟩
  | 71 => ⟨S65536x8, .f32⟩
  | 72 => ⟨S65536x8, .f32⟩
  | 73 => ⟨S65536x1, .f32⟩
  | 74 => ⟨S65536x8, .f32⟩
  | 75 => ⟨S65536x8, .f32⟩
  | 76 => ⟨S65536x8, .f32⟩
  | 77 => ⟨S_, .i32⟩
  | 78 => ⟨S1, .i32⟩
  | 79 => ⟨S65536x8x8, .f32⟩
  | 80 => ⟨S65536x1, .f32⟩
  | 81 => ⟨S65536, .f32⟩
  | 82 => ⟨S65536, .f32⟩
  | 83 => ⟨S65536x1, .f32⟩
  | 84 => ⟨S65536, .f32⟩
  | 85 => ⟨S65536, .f32⟩
  | 86 => ⟨S65536x1x8, .f32⟩
  | 87 => ⟨S65536x8, .f32⟩
  | 88 => ⟨S65536x1x8, .f32⟩
  | 89 => ⟨S65536x8, .f32⟩
  | 90 => ⟨S65536x1, .f32⟩
  | 91 => ⟨S65536x8, .f32⟩
  | 92 => ⟨S65536x8, .f32⟩
  | 93 => ⟨S65536x1, .f32⟩
  | 94 => ⟨S65536x8, .f32⟩
  | 95 => ⟨S65536x8, .f32⟩
  | 96 => ⟨S65536x8, .f32⟩
  | 97 => ⟨S_, .i32⟩
  | 98 => ⟨S1, .i32⟩
  | 99 => ⟨S65536x8x8, .f32⟩
  | 100 => ⟨S65536x1, .f32⟩
  | 101 => ⟨S65536x8, .f32⟩
  | 102 => ⟨S65536x8, .f32⟩
  | 103 => ⟨S65536x1, .f32⟩
  | 104 => ⟨S65536x8, .f32⟩
  | 105 => ⟨S65536x8, .f32⟩
  | 106 => ⟨S65536x8, .f32⟩
  | 107 => ⟨S_, .i32⟩
  | 108 => ⟨S1, .i32⟩
  | 109 => ⟨S65536x8x8, .f32⟩
  | 110 => ⟨S65536x1, .f32⟩
  | 111 => ⟨S65536, .f32⟩
  | 112 => ⟨S65536, .f32⟩
  | 113 => ⟨S65536x1, .f32⟩
  | 114 => ⟨S65536, .f32⟩
  | 115 => ⟨S65536, .f32⟩
  | 116 => ⟨S65536x1x8, .f32⟩
  | 117 => ⟨S65536x8, .f32⟩
  | 118 => ⟨S65536x1x8, .f32⟩
  | 119 => ⟨S65536x8, .f32⟩
  | 120 => ⟨S65536x1, .f32⟩
  | 121 => ⟨S65536x8, .f32⟩
  | 122 => ⟨S65536x8, .f32⟩
  | 123 => ⟨S65536x1, .f32⟩
  | 124 => ⟨S65536x8, .f32⟩
  | 125 => ⟨S65536x8, .f32⟩
  | 126 => ⟨S65536x8, .f32⟩
  | 127 => ⟨S_, .i32⟩
  | _ => ⟨S64x256x256x16, .f32⟩

abbrev hbmTy0_5 (i : Nat) : BufTy := match i % 128 with
  | 0 => ⟨S1, .i32⟩
  | 1 => ⟨S65536x8x8, .f32⟩
  | 2 => ⟨S65536x1, .f32⟩
  | 3 => ⟨S65536x8, .f32⟩
  | 4 => ⟨S65536x8, .f32⟩
  | 5 => ⟨S65536x1, .f32⟩
  | 6 => ⟨S65536x8, .f32⟩
  | 7 => ⟨S65536x8, .f32⟩
  | 8 => ⟨S65536x8, .f32⟩
  | 9 => ⟨S_, .i32⟩
  | 10 => ⟨S1, .i32⟩
  | 11 => ⟨S65536x8x8, .f32⟩
  | 12 => ⟨S65536x1, .f32⟩
  | 13 => ⟨S65536, .f32⟩
  | 14 => ⟨S65536, .f32⟩
  | 15 => ⟨S65536x1, .f32⟩
  | 16 => ⟨S65536, .f32⟩
  | 17 => ⟨S65536, .f32⟩
  | 18 => ⟨S65536x1x8, .f32⟩
  | 19 => ⟨S65536x8, .f32⟩
  | 20 => ⟨S65536x1x8, .f32⟩
  | 21 => ⟨S65536x8, .f32⟩
  | 22 => ⟨S65536x1, .f32⟩
  | 23 => ⟨S65536x8, .f32⟩
  | 24 => ⟨S65536x8, .f32⟩
  | 25 => ⟨S65536x1, .f32⟩
  | 26 => ⟨S65536x8, .f32⟩
  | 27 => ⟨S65536x8, .f32⟩
  | 28 => ⟨S65536x8, .f32⟩
  | 29 => ⟨S_, .i32⟩
  | 30 => ⟨S1, .i32⟩
  | 31 => ⟨S65536x8x8, .f32⟩
  | 32 => ⟨S65536x1, .f32⟩
  | 33 => ⟨S65536x8, .f32⟩
  | 34 => ⟨S65536x8, .f32⟩
  | 35 => ⟨S65536x1, .f32⟩
  | 36 => ⟨S65536x8, .f32⟩
  | 37 => ⟨S65536x8, .f32⟩
  | 38 => ⟨S65536x8, .f32⟩
  | 39 => ⟨S_, .i32⟩
  | 40 => ⟨S1, .i32⟩
  | 41 => ⟨S65536x8x8, .f32⟩
  | 42 => ⟨S65536x1, .f32⟩
  | 43 => ⟨S65536, .f32⟩
  | 44 => ⟨S65536, .f32⟩
  | 45 => ⟨S65536x1, .f32⟩
  | 46 => ⟨S65536, .f32⟩
  | 47 => ⟨S65536, .f32⟩
  | 48 => ⟨S65536x1x8, .f32⟩
  | 49 => ⟨S65536x8, .f32⟩
  | 50 => ⟨S65536x1x8, .f32⟩
  | 51 => ⟨S65536x8, .f32⟩
  | 52 => ⟨S65536x1, .f32⟩
  | 53 => ⟨S65536x8, .f32⟩
  | 54 => ⟨S65536x8, .f32⟩
  | 55 => ⟨S65536x1, .f32⟩
  | 56 => ⟨S65536x8, .f32⟩
  | 57 => ⟨S65536x8, .f32⟩
  | 58 => ⟨S65536x8, .f32⟩
  | 59 => ⟨S_, .i32⟩
  | 60 => ⟨S1, .i32⟩
  | 61 => ⟨S65536x8x8, .f32⟩
  | 62 => ⟨S65536x1, .f32⟩
  | 63 => ⟨S65536x8, .f32⟩
  | 64 => ⟨S65536x8, .f32⟩
  | 65 => ⟨S65536x1, .f32⟩
  | 66 => ⟨S65536x8, .f32⟩
  | 67 => ⟨S65536x8, .f32⟩
  | 68 => ⟨S65536x8, .f32⟩
  | 69 => ⟨S_, .i32⟩
  | 70 => ⟨S1, .i32⟩
  | 71 => ⟨S65536x8x8, .f32⟩
  | 72 => ⟨S65536x1, .f32⟩
  | 73 => ⟨S65536, .f32⟩
  | 74 => ⟨S65536, .f32⟩
  | 75 => ⟨S65536x1, .f32⟩
  | 76 => ⟨S65536, .f32⟩
  | 77 => ⟨S65536, .f32⟩
  | 78 => ⟨S65536x1x8, .f32⟩
  | 79 => ⟨S65536x8, .f32⟩
  | 80 => ⟨S65536x1x8, .f32⟩
  | 81 => ⟨S65536x8, .f32⟩
  | 82 => ⟨S65536x1, .f32⟩
  | 83 => ⟨S65536x8, .f32⟩
  | 84 => ⟨S65536x8, .f32⟩
  | 85 => ⟨S65536x1, .f32⟩
  | 86 => ⟨S65536x8, .f32⟩
  | 87 => ⟨S65536x8, .f32⟩
  | 88 => ⟨S65536x8, .f32⟩
  | 89 => ⟨S_, .i32⟩
  | 90 => ⟨S1, .i32⟩
  | 91 => ⟨S65536x8x8, .f32⟩
  | 92 => ⟨S65536x1, .f32⟩
  | 93 => ⟨S65536x8, .f32⟩
  | 94 => ⟨S65536x8, .f32⟩
  | 95 => ⟨S65536x1, .f32⟩
  | 96 => ⟨S65536x8, .f32⟩
  | 97 => ⟨S65536x8, .f32⟩
  | 98 => ⟨S65536x8, .f32⟩
  | 99 => ⟨S_, .i32⟩
  | 100 => ⟨S1, .i32⟩
  | 101 => ⟨S65536x8x8, .f32⟩
  | 102 => ⟨S65536x1, .f32⟩
  | 103 => ⟨S65536, .f32⟩
  | 104 => ⟨S65536, .f32⟩
  | 105 => ⟨S65536x1, .f32⟩
  | 106 => ⟨S65536, .f32⟩
  | 107 => ⟨S65536, .f32⟩
  | 108 => ⟨S65536x1x8, .f32⟩
  | 109 => ⟨S65536x8, .f32⟩
  | 110 => ⟨S65536x1x8, .f32⟩
  | 111 => ⟨S65536x8, .f32⟩
  | 112 => ⟨S65536x1, .f32⟩
  | 113 => ⟨S65536x8, .f32⟩
  | 114 => ⟨S65536x8, .f32⟩
  | 115 => ⟨S65536x1, .f32⟩
  | 116 => ⟨S65536x8, .f32⟩
  | 117 => ⟨S65536x8, .f32⟩
  | 118 => ⟨S65536x8, .f32⟩
  | 119 => ⟨S_, .i32⟩
  | 120 => ⟨S1, .i32⟩
  | 121 => ⟨S65536x8x8, .f32⟩
  | 122 => ⟨S65536x1, .f32⟩
  | 123 => ⟨S65536x8, .f32⟩
  | 124 => ⟨S65536x8, .f32⟩
  | 125 => ⟨S65536x1, .f32⟩
  | 126 => ⟨S65536x8, .f32⟩
  | 127 => ⟨S65536x8, .f32⟩
  | _ => ⟨S64x256x256x16, .f32⟩

abbrev hbmTy0_6 (i : Nat) : BufTy := match i % 128 with
  | 0 => ⟨S65536x8, .f32⟩
  | 1 => ⟨S_, .i32⟩
  | 2 => ⟨S1, .i32⟩
  | 3 => ⟨S65536x8x8, .f32⟩
  | 4 => ⟨S65536x1, .f32⟩
  | 5 => ⟨S65536, .f32⟩
  | 6 => ⟨S65536, .f32⟩
  | 7 => ⟨S65536x1, .f32⟩
  | 8 => ⟨S65536, .f32⟩
  | 9 => ⟨S65536, .f32⟩
  | 10 => ⟨S65536x1x8, .f32⟩
  | 11 => ⟨S65536x8, .f32⟩
  | 12 => ⟨S65536x1x8, .f32⟩
  | 13 => ⟨S65536x8, .f32⟩
  | 14 => ⟨S65536x1, .f32⟩
  | 15 => ⟨S65536x8, .f32⟩
  | 16 => ⟨S65536x8, .f32⟩
  | 17 => ⟨S65536x1, .f32⟩
  | 18 => ⟨S65536x8, .f32⟩
  | 19 => ⟨S65536x8, .f32⟩
  | 20 => ⟨S65536x8, .f32⟩
  | 21 => ⟨S_, .i32⟩
  | 22 => ⟨S1, .i32⟩
  | 23 => ⟨S65536x8x8, .f32⟩
  | 24 => ⟨S65536x1, .f32⟩
  | 25 => ⟨S65536x8, .f32⟩
  | 26 => ⟨S65536x8, .f32⟩
  | 27 => ⟨S65536x1, .f32⟩
  | 28 => ⟨S65536x8, .f32⟩
  | 29 => ⟨S65536x8, .f32⟩
  | 30 => ⟨S65536x8, .f32⟩
  | 31 => ⟨S_, .i32⟩
  | 32 => ⟨S1, .i32⟩
  | 33 => ⟨S65536x8x8, .f32⟩
  | 34 => ⟨S65536x1, .f32⟩
  | 35 => ⟨S65536, .f32⟩
  | 36 => ⟨S65536, .f32⟩
  | 37 => ⟨S65536x1, .f32⟩
  | 38 => ⟨S65536, .f32⟩
  | 39 => ⟨S65536, .f32⟩
  | 40 => ⟨S65536x1x8, .f32⟩
  | 41 => ⟨S65536x8, .f32⟩
  | 42 => ⟨S65536x1x8, .f32⟩
  | 43 => ⟨S65536x8, .f32⟩
  | 44 => ⟨S65536x1, .f32⟩
  | 45 => ⟨S65536x8, .f32⟩
  | 46 => ⟨S65536x8, .f32⟩
  | 47 => ⟨S65536x1, .f32⟩
  | 48 => ⟨S65536x8, .f32⟩
  | 49 => ⟨S65536x8, .f32⟩
  | 50 => ⟨S65536x8, .f32⟩
  | 51 => ⟨S_, .i32⟩
  | 52 => ⟨S1, .i32⟩
  | 53 => ⟨S65536x8x8, .f32⟩
  | 54 => ⟨S65536x1, .f32⟩
  | 55 => ⟨S65536x8, .f32⟩
  | 56 => ⟨S65536x8, .f32⟩
  | 57 => ⟨S65536x1, .f32⟩
  | 58 => ⟨S65536x8, .f32⟩
  | 59 => ⟨S65536x8, .f32⟩
  | 60 => ⟨S65536x8, .f32⟩
  | 61 => ⟨S_, .i32⟩
  | 62 => ⟨S1, .i32⟩
  | 63 => ⟨S65536x8x8, .f32⟩
  | 64 => ⟨S65536x1, .f32⟩
  | 65 => ⟨S65536, .f32⟩
  | 66 => ⟨S65536, .f32⟩
  | 67 => ⟨S65536x1, .f32⟩
  | 68 => ⟨S65536, .f32⟩
  | 69 => ⟨S65536, .f32⟩
  | 70 => ⟨S65536x1x8, .f32⟩
  | 71 => ⟨S65536x8, .f32⟩
  | 72 => ⟨S65536x1x8, .f32⟩
  | 73 => ⟨S65536x8, .f32⟩
  | 74 => ⟨S65536x1, .f32⟩
  | 75 => ⟨S65536x8, .f32⟩
  | 76 => ⟨S65536x8, .f32⟩
  | 77 => ⟨S65536x1, .f32⟩
  | 78 => ⟨S65536x8, .f32⟩
  | 79 => ⟨S65536x8, .f32⟩
  | 80 => ⟨S65536x8, .f32⟩
  | 81 => ⟨S_, .i32⟩
  | 82 => ⟨S1, .i32⟩
  | 83 => ⟨S65536x8x8, .f32⟩
  | 84 => ⟨S65536x1, .f32⟩
  | 85 => ⟨S65536x8, .f32⟩
  | 86 => ⟨S65536x8, .f32⟩
  | 87 => ⟨S65536x1, .f32⟩
  | 88 => ⟨S65536x8, .f32⟩
  | 89 => ⟨S65536x8, .f32⟩
  | 90 => ⟨S65536x8, .f32⟩
  | 91 => ⟨S_, .i32⟩
  | 92 => ⟨S1, .i32⟩
  | 93 => ⟨S65536x8x8, .f32⟩
  | 94 => ⟨S65536x8x1, .f32⟩
  | 95 => ⟨S65536x8x8, .f32⟩
  | 96 => ⟨S65536x8x8, .f32⟩
  | 97 => ⟨S65536x8x64, .f32⟩
  | 98 => ⟨S65536x8x64, .f32⟩
  | 99 => ⟨S65536x16x64, .f32⟩
  | 100 => ⟨S256x256x16x64, .f32⟩
  | 101 => ⟨S64x256x256x16, .f32⟩
  | _ => ⟨S64x256x256x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S64x256x256x16, .f32⟩

abbrev bufTy : (tb : Table) → Fin (tcTables nBuf tb) → BufTy
  | .hbm, ⟨i, _⟩ => hbmTy i
  | _, _ => ⟨S64x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_c_0 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_c_1 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_c_2 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_c_3 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_c_4 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_c_5 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_c_6 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_c_7 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_c_8 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_c_9 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_c_10 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_c_11 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_c_12 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_c_13 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_c_14 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_c_15 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_c_16 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_c_17 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_c_18 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_v294 : Ref sig .tc := ⟨.hbm, 317, rfl⟩
abbrev main_v295 : Ref sig .tc := ⟨.hbm, 318, rfl⟩
abbrev main_c_19 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_c_20 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_c_21 : Ref sig .tc := ⟨.hbm, 349, rfl⟩
abbrev main_v324 : Ref sig .tc := ⟨.hbm, 350, rfl⟩
abbrev main_v325 : Ref sig .tc := ⟨.hbm, 351, rfl⟩
abbrev main_v326 : Ref sig .tc := ⟨.hbm, 352, rfl⟩
abbrev main_v327 : Ref sig .tc := ⟨.hbm, 353, rfl⟩
abbrev main_v328 : Ref sig .tc := ⟨.hbm, 354, rfl⟩
abbrev main_v329 : Ref sig .tc := ⟨.hbm, 355, rfl⟩
abbrev main_v330 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_v334 : Ref sig .tc := ⟨.hbm, 360, rfl⟩
abbrev main_v335 : Ref sig .tc := ⟨.hbm, 361, rfl⟩
abbrev main_v336 : Ref sig .tc := ⟨.hbm, 362, rfl⟩
abbrev main_v337 : Ref sig .tc := ⟨.hbm, 363, rfl⟩
abbrev main_v338 : Ref sig .tc := ⟨.hbm, 364, rfl⟩
abbrev main_v339 : Ref sig .tc := ⟨.hbm, 365, rfl⟩
abbrev main_v340 : Ref sig .tc := ⟨.hbm, 366, rfl⟩
abbrev main_v341 : Ref sig .tc := ⟨.hbm, 367, rfl⟩
abbrev main_v342 : Ref sig .tc := ⟨.hbm, 368, rfl⟩
abbrev main_c_22 : Ref sig .tc := ⟨.hbm, 369, rfl⟩
abbrev main_v343 : Ref sig .tc := ⟨.hbm, 370, rfl⟩
abbrev main_v344 : Ref sig .tc := ⟨.hbm, 371, rfl⟩
abbrev main_v345 : Ref sig .tc := ⟨.hbm, 372, rfl⟩
abbrev main_v346 : Ref sig .tc := ⟨.hbm, 373, rfl⟩
abbrev main_v347 : Ref sig .tc := ⟨.hbm, 374, rfl⟩
abbrev main_v348 : Ref sig .tc := ⟨.hbm, 375, rfl⟩
abbrev main_v349 : Ref sig .tc := ⟨.hbm, 376, rfl⟩
abbrev main_v350 : Ref sig .tc := ⟨.hbm, 377, rfl⟩
abbrev main_v351 : Ref sig .tc := ⟨.hbm, 378, rfl⟩
abbrev main_c_23 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_c_24 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_v377 : Ref sig .tc := ⟨.hbm, 406, rfl⟩
abbrev main_v378 : Ref sig .tc := ⟨.hbm, 407, rfl⟩
abbrev main_v379 : Ref sig .tc := ⟨.hbm, 408, rfl⟩
abbrev main_c_25 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_c_26 : Ref sig .tc := ⟨.hbm, 429, rfl⟩
abbrev main_v399 : Ref sig .tc := ⟨.hbm, 430, rfl⟩
abbrev main_v400 : Ref sig .tc := ⟨.hbm, 431, rfl⟩
abbrev main_v401 : Ref sig .tc := ⟨.hbm, 432, rfl⟩
abbrev main_v402 : Ref sig .tc := ⟨.hbm, 433, rfl⟩
abbrev main_v403 : Ref sig .tc := ⟨.hbm, 434, rfl⟩
abbrev main_v404 : Ref sig .tc := ⟨.hbm, 435, rfl⟩
abbrev main_v405 : Ref sig .tc := ⟨.hbm, 436, rfl⟩
abbrev main_v406 : Ref sig .tc := ⟨.hbm, 437, rfl⟩
abbrev main_v407 : Ref sig .tc := ⟨.hbm, 438, rfl⟩
abbrev main_c_27 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_v414 : Ref sig .tc := ⟨.hbm, 446, rfl⟩
abbrev main_v415 : Ref sig .tc := ⟨.hbm, 447, rfl⟩
abbrev main_v416 : Ref sig .tc := ⟨.hbm, 448, rfl⟩
abbrev main_v417 : Ref sig .tc := ⟨.hbm, 449, rfl⟩
abbrev main_v418 : Ref sig .tc := ⟨.hbm, 450, rfl⟩
abbrev main_v419 : Ref sig .tc := ⟨.hbm, 451, rfl⟩
abbrev main_v420 : Ref sig .tc := ⟨.hbm, 452, rfl⟩
abbrev main_v421 : Ref sig .tc := ⟨.hbm, 453, rfl⟩
abbrev main_v422 : Ref sig .tc := ⟨.hbm, 454, rfl⟩
abbrev main_v423 : Ref sig .tc := ⟨.hbm, 455, rfl⟩
abbrev main_v424 : Ref sig .tc := ⟨.hbm, 456, rfl⟩
abbrev main_v425 : Ref sig .tc := ⟨.hbm, 457, rfl⟩
abbrev main_v426 : Ref sig .tc := ⟨.hbm, 458, rfl⟩
abbrev main_c_28 : Ref sig .tc := ⟨.hbm, 459, rfl⟩
abbrev main_v427 : Ref sig .tc := ⟨.hbm, 460, rfl⟩
abbrev main_v428 : Ref sig .tc := ⟨.hbm, 461, rfl⟩
abbrev main_v429 : Ref sig .tc := ⟨.hbm, 462, rfl⟩
abbrev main_v430 : Ref sig .tc := ⟨.hbm, 463, rfl⟩
abbrev main_v431 : Ref sig .tc := ⟨.hbm, 464, rfl⟩
abbrev main_v432 : Ref sig .tc := ⟨.hbm, 465, rfl⟩
abbrev main_v433 : Ref sig .tc := ⟨.hbm, 466, rfl⟩
abbrev main_v434 : Ref sig .tc := ⟨.hbm, 467, rfl⟩
abbrev main_v435 : Ref sig .tc := ⟨.hbm, 468, rfl⟩
abbrev main_c_29 : Ref sig .tc := ⟨.hbm, 469, rfl⟩
abbrev main_v436 : Ref sig .tc := ⟨.hbm, 470, rfl⟩
abbrev main_v437 : Ref sig .tc := ⟨.hbm, 471, rfl⟩
abbrev main_v438 : Ref sig .tc := ⟨.hbm, 472, rfl⟩
abbrev main_v439 : Ref sig .tc := ⟨.hbm, 473, rfl⟩
abbrev main_v440 : Ref sig .tc := ⟨.hbm, 474, rfl⟩
abbrev main_v441 : Ref sig .tc := ⟨.hbm, 475, rfl⟩
abbrev main_v442 : Ref sig .tc := ⟨.hbm, 476, rfl⟩
abbrev main_v443 : Ref sig .tc := ⟨.hbm, 477, rfl⟩
abbrev main_v444 : Ref sig .tc := ⟨.hbm, 478, rfl⟩
abbrev main_v445 : Ref sig .tc := ⟨.hbm, 479, rfl⟩
abbrev main_v446 : Ref sig .tc := ⟨.hbm, 480, rfl⟩
abbrev main_v447 : Ref sig .tc := ⟨.hbm, 481, rfl⟩
abbrev main_v448 : Ref sig .tc := ⟨.hbm, 482, rfl⟩
abbrev main_v449 : Ref sig .tc := ⟨.hbm, 483, rfl⟩
abbrev main_v450 : Ref sig .tc := ⟨.hbm, 484, rfl⟩
abbrev main_v451 : Ref sig .tc := ⟨.hbm, 485, rfl⟩
abbrev main_v452 : Ref sig .tc := ⟨.hbm, 486, rfl⟩
abbrev main_v453 : Ref sig .tc := ⟨.hbm, 487, rfl⟩
abbrev main_v454 : Ref sig .tc := ⟨.hbm, 488, rfl⟩
abbrev main_c_30 : Ref sig .tc := ⟨.hbm, 489, rfl⟩
abbrev main_v455 : Ref sig .tc := ⟨.hbm, 490, rfl⟩
abbrev main_v456 : Ref sig .tc := ⟨.hbm, 491, rfl⟩
abbrev main_v457 : Ref sig .tc := ⟨.hbm, 492, rfl⟩
abbrev main_v458 : Ref sig .tc := ⟨.hbm, 493, rfl⟩
abbrev main_v459 : Ref sig .tc := ⟨.hbm, 494, rfl⟩
abbrev main_v460 : Ref sig .tc := ⟨.hbm, 495, rfl⟩
abbrev main_v461 : Ref sig .tc := ⟨.hbm, 496, rfl⟩
abbrev main_v462 : Ref sig .tc := ⟨.hbm, 497, rfl⟩
abbrev main_v463 : Ref sig .tc := ⟨.hbm, 498, rfl⟩
abbrev main_c_31 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_v471 : Ref sig .tc := ⟨.hbm, 507, rfl⟩
abbrev main_v472 : Ref sig .tc := ⟨.hbm, 508, rfl⟩
abbrev main_v473 : Ref sig .tc := ⟨.hbm, 509, rfl⟩
abbrev main_v474 : Ref sig .tc := ⟨.hbm, 510, rfl⟩
abbrev main_v475 : Ref sig .tc := ⟨.hbm, 511, rfl⟩
abbrev main_v476 : Ref sig .tc := ⟨.hbm, 512, rfl⟩
abbrev main_v477 : Ref sig .tc := ⟨.hbm, 513, rfl⟩
abbrev main_v478 : Ref sig .tc := ⟨.hbm, 514, rfl⟩
abbrev main_v479 : Ref sig .tc := ⟨.hbm, 515, rfl⟩
abbrev main_v480 : Ref sig .tc := ⟨.hbm, 516, rfl⟩
abbrev main_v481 : Ref sig .tc := ⟨.hbm, 517, rfl⟩
abbrev main_v482 : Ref sig .tc := ⟨.hbm, 518, rfl⟩
abbrev main_c_32 : Ref sig .tc := ⟨.hbm, 519, rfl⟩
abbrev main_v483 : Ref sig .tc := ⟨.hbm, 520, rfl⟩
abbrev main_v484 : Ref sig .tc := ⟨.hbm, 521, rfl⟩
abbrev main_v485 : Ref sig .tc := ⟨.hbm, 522, rfl⟩
abbrev main_v486 : Ref sig .tc := ⟨.hbm, 523, rfl⟩
abbrev main_v487 : Ref sig .tc := ⟨.hbm, 524, rfl⟩
abbrev main_v488 : Ref sig .tc := ⟨.hbm, 525, rfl⟩
abbrev main_v489 : Ref sig .tc := ⟨.hbm, 526, rfl⟩
abbrev main_v490 : Ref sig .tc := ⟨.hbm, 527, rfl⟩
abbrev main_v491 : Ref sig .tc := ⟨.hbm, 528, rfl⟩
abbrev main_c_33 : Ref sig .tc := ⟨.hbm, 529, rfl⟩
abbrev main_v492 : Ref sig .tc := ⟨.hbm, 530, rfl⟩
abbrev main_v493 : Ref sig .tc := ⟨.hbm, 531, rfl⟩
abbrev main_v494 : Ref sig .tc := ⟨.hbm, 532, rfl⟩
abbrev main_v495 : Ref sig .tc := ⟨.hbm, 533, rfl⟩
abbrev main_v496 : Ref sig .tc := ⟨.hbm, 534, rfl⟩
abbrev main_v497 : Ref sig .tc := ⟨.hbm, 535, rfl⟩
abbrev main_v498 : Ref sig .tc := ⟨.hbm, 536, rfl⟩
abbrev main_v499 : Ref sig .tc := ⟨.hbm, 537, rfl⟩
abbrev main_v500 : Ref sig .tc := ⟨.hbm, 538, rfl⟩
abbrev main_v501 : Ref sig .tc := ⟨.hbm, 539, rfl⟩
abbrev main_v502 : Ref sig .tc := ⟨.hbm, 540, rfl⟩
abbrev main_v503 : Ref sig .tc := ⟨.hbm, 541, rfl⟩
abbrev main_v504 : Ref sig .tc := ⟨.hbm, 542, rfl⟩
abbrev main_v505 : Ref sig .tc := ⟨.hbm, 543, rfl⟩
abbrev main_v506 : Ref sig .tc := ⟨.hbm, 544, rfl⟩
abbrev main_v507 : Ref sig .tc := ⟨.hbm, 545, rfl⟩
abbrev main_v508 : Ref sig .tc := ⟨.hbm, 546, rfl⟩
abbrev main_v509 : Ref sig .tc := ⟨.hbm, 547, rfl⟩
abbrev main_v510 : Ref sig .tc := ⟨.hbm, 548, rfl⟩
abbrev main_c_34 : Ref sig .tc := ⟨.hbm, 549, rfl⟩
abbrev main_v511 : Ref sig .tc := ⟨.hbm, 550, rfl⟩
abbrev main_v512 : Ref sig .tc := ⟨.hbm, 551, rfl⟩
abbrev main_v513 : Ref sig .tc := ⟨.hbm, 552, rfl⟩
abbrev main_v514 : Ref sig .tc := ⟨.hbm, 553, rfl⟩
abbrev main_v515 : Ref sig .tc := ⟨.hbm, 554, rfl⟩
abbrev main_v516 : Ref sig .tc := ⟨.hbm, 555, rfl⟩
abbrev main_v517 : Ref sig .tc := ⟨.hbm, 556, rfl⟩
abbrev main_v518 : Ref sig .tc := ⟨.hbm, 557, rfl⟩
abbrev main_v519 : Ref sig .tc := ⟨.hbm, 558, rfl⟩
abbrev main_c_35 : Ref sig .tc := ⟨.hbm, 559, rfl⟩
abbrev main_v520 : Ref sig .tc := ⟨.hbm, 560, rfl⟩
abbrev main_v521 : Ref sig .tc := ⟨.hbm, 561, rfl⟩
abbrev main_v522 : Ref sig .tc := ⟨.hbm, 562, rfl⟩
abbrev main_v523 : Ref sig .tc := ⟨.hbm, 563, rfl⟩
abbrev main_v524 : Ref sig .tc := ⟨.hbm, 564, rfl⟩
abbrev main_v525 : Ref sig .tc := ⟨.hbm, 565, rfl⟩
abbrev main_v526 : Ref sig .tc := ⟨.hbm, 566, rfl⟩
abbrev main_v527 : Ref sig .tc := ⟨.hbm, 567, rfl⟩
abbrev main_v528 : Ref sig .tc := ⟨.hbm, 568, rfl⟩
abbrev main_v529 : Ref sig .tc := ⟨.hbm, 569, rfl⟩
abbrev main_v530 : Ref sig .tc := ⟨.hbm, 570, rfl⟩
abbrev main_v531 : Ref sig .tc := ⟨.hbm, 571, rfl⟩
abbrev main_v532 : Ref sig .tc := ⟨.hbm, 572, rfl⟩
abbrev main_v533 : Ref sig .tc := ⟨.hbm, 573, rfl⟩
abbrev main_v534 : Ref sig .tc := ⟨.hbm, 574, rfl⟩
abbrev main_v535 : Ref sig .tc := ⟨.hbm, 575, rfl⟩
abbrev main_v536 : Ref sig .tc := ⟨.hbm, 576, rfl⟩
abbrev main_v537 : Ref sig .tc := ⟨.hbm, 577, rfl⟩
abbrev main_v538 : Ref sig .tc := ⟨.hbm, 578, rfl⟩
abbrev main_c_36 : Ref sig .tc := ⟨.hbm, 579, rfl⟩
abbrev main_v539 : Ref sig .tc := ⟨.hbm, 580, rfl⟩
abbrev main_v540 : Ref sig .tc := ⟨.hbm, 581, rfl⟩
abbrev main_v541 : Ref sig .tc := ⟨.hbm, 582, rfl⟩
abbrev main_v542 : Ref sig .tc := ⟨.hbm, 583, rfl⟩
abbrev main_v543 : Ref sig .tc := ⟨.hbm, 584, rfl⟩
abbrev main_v544 : Ref sig .tc := ⟨.hbm, 585, rfl⟩
abbrev main_v545 : Ref sig .tc := ⟨.hbm, 586, rfl⟩
abbrev main_v546 : Ref sig .tc := ⟨.hbm, 587, rfl⟩
abbrev main_v547 : Ref sig .tc := ⟨.hbm, 588, rfl⟩
abbrev main_c_37 : Ref sig .tc := ⟨.hbm, 589, rfl⟩
abbrev main_v548 : Ref sig .tc := ⟨.hbm, 590, rfl⟩
abbrev main_v549 : Ref sig .tc := ⟨.hbm, 591, rfl⟩
abbrev main_v550 : Ref sig .tc := ⟨.hbm, 592, rfl⟩
abbrev main_v551 : Ref sig .tc := ⟨.hbm, 593, rfl⟩
abbrev main_v552 : Ref sig .tc := ⟨.hbm, 594, rfl⟩
abbrev main_v553 : Ref sig .tc := ⟨.hbm, 595, rfl⟩
abbrev main_v554 : Ref sig .tc := ⟨.hbm, 596, rfl⟩
abbrev main_v555 : Ref sig .tc := ⟨.hbm, 597, rfl⟩
abbrev main_v556 : Ref sig .tc := ⟨.hbm, 598, rfl⟩
abbrev main_v557 : Ref sig .tc := ⟨.hbm, 599, rfl⟩
abbrev main_v558 : Ref sig .tc := ⟨.hbm, 600, rfl⟩
abbrev main_v559 : Ref sig .tc := ⟨.hbm, 601, rfl⟩
abbrev main_v560 : Ref sig .tc := ⟨.hbm, 602, rfl⟩
abbrev main_v561 : Ref sig .tc := ⟨.hbm, 603, rfl⟩
abbrev main_v562 : Ref sig .tc := ⟨.hbm, 604, rfl⟩
abbrev main_v563 : Ref sig .tc := ⟨.hbm, 605, rfl⟩
abbrev main_v564 : Ref sig .tc := ⟨.hbm, 606, rfl⟩
abbrev main_v565 : Ref sig .tc := ⟨.hbm, 607, rfl⟩
abbrev main_v566 : Ref sig .tc := ⟨.hbm, 608, rfl⟩
abbrev main_c_38 : Ref sig .tc := ⟨.hbm, 609, rfl⟩
abbrev main_v567 : Ref sig .tc := ⟨.hbm, 610, rfl⟩
abbrev main_v568 : Ref sig .tc := ⟨.hbm, 611, rfl⟩
abbrev main_v569 : Ref sig .tc := ⟨.hbm, 612, rfl⟩
abbrev main_v570 : Ref sig .tc := ⟨.hbm, 613, rfl⟩
abbrev main_v571 : Ref sig .tc := ⟨.hbm, 614, rfl⟩
abbrev main_v572 : Ref sig .tc := ⟨.hbm, 615, rfl⟩
abbrev main_v573 : Ref sig .tc := ⟨.hbm, 616, rfl⟩
abbrev main_v574 : Ref sig .tc := ⟨.hbm, 617, rfl⟩
abbrev main_v575 : Ref sig .tc := ⟨.hbm, 618, rfl⟩
abbrev main_c_39 : Ref sig .tc := ⟨.hbm, 619, rfl⟩
abbrev main_v576 : Ref sig .tc := ⟨.hbm, 620, rfl⟩
abbrev main_v577 : Ref sig .tc := ⟨.hbm, 621, rfl⟩
abbrev main_v578 : Ref sig .tc := ⟨.hbm, 622, rfl⟩
abbrev main_v579 : Ref sig .tc := ⟨.hbm, 623, rfl⟩
abbrev main_v580 : Ref sig .tc := ⟨.hbm, 624, rfl⟩
abbrev main_v581 : Ref sig .tc := ⟨.hbm, 625, rfl⟩
abbrev main_v582 : Ref sig .tc := ⟨.hbm, 626, rfl⟩
abbrev main_v583 : Ref sig .tc := ⟨.hbm, 627, rfl⟩
abbrev main_v584 : Ref sig .tc := ⟨.hbm, 628, rfl⟩
abbrev main_v585 : Ref sig .tc := ⟨.hbm, 629, rfl⟩
abbrev main_v586 : Ref sig .tc := ⟨.hbm, 630, rfl⟩
abbrev main_v587 : Ref sig .tc := ⟨.hbm, 631, rfl⟩
abbrev main_v588 : Ref sig .tc := ⟨.hbm, 632, rfl⟩
abbrev main_v589 : Ref sig .tc := ⟨.hbm, 633, rfl⟩
abbrev main_v590 : Ref sig .tc := ⟨.hbm, 634, rfl⟩
abbrev main_v591 : Ref sig .tc := ⟨.hbm, 635, rfl⟩
abbrev main_v592 : Ref sig .tc := ⟨.hbm, 636, rfl⟩
abbrev main_v593 : Ref sig .tc := ⟨.hbm, 637, rfl⟩
abbrev main_v594 : Ref sig .tc := ⟨.hbm, 638, rfl⟩
abbrev main_c_40 : Ref sig .tc := ⟨.hbm, 639, rfl⟩
abbrev main_v595 : Ref sig .tc := ⟨.hbm, 640, rfl⟩
abbrev main_v596 : Ref sig .tc := ⟨.hbm, 641, rfl⟩
abbrev main_v597 : Ref sig .tc := ⟨.hbm, 642, rfl⟩
abbrev main_v598 : Ref sig .tc := ⟨.hbm, 643, rfl⟩
abbrev main_v599 : Ref sig .tc := ⟨.hbm, 644, rfl⟩
abbrev main_v600 : Ref sig .tc := ⟨.hbm, 645, rfl⟩
abbrev main_v601 : Ref sig .tc := ⟨.hbm, 646, rfl⟩
abbrev main_v602 : Ref sig .tc := ⟨.hbm, 647, rfl⟩
abbrev main_v603 : Ref sig .tc := ⟨.hbm, 648, rfl⟩
abbrev main_c_41 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩
abbrev main_v607 : Ref sig .tc := ⟨.hbm, 653, rfl⟩
abbrev main_v608 : Ref sig .tc := ⟨.hbm, 654, rfl⟩
abbrev main_v609 : Ref sig .tc := ⟨.hbm, 655, rfl⟩
abbrev main_v610 : Ref sig .tc := ⟨.hbm, 656, rfl⟩
abbrev main_v611 : Ref sig .tc := ⟨.hbm, 657, rfl⟩
abbrev main_v612 : Ref sig .tc := ⟨.hbm, 658, rfl⟩
abbrev main_v613 : Ref sig .tc := ⟨.hbm, 659, rfl⟩
abbrev main_v614 : Ref sig .tc := ⟨.hbm, 660, rfl⟩
abbrev main_v615 : Ref sig .tc := ⟨.hbm, 661, rfl⟩
abbrev main_v616 : Ref sig .tc := ⟨.hbm, 662, rfl⟩
abbrev main_v617 : Ref sig .tc := ⟨.hbm, 663, rfl⟩
abbrev main_v618 : Ref sig .tc := ⟨.hbm, 664, rfl⟩
abbrev main_v619 : Ref sig .tc := ⟨.hbm, 665, rfl⟩
abbrev main_v620 : Ref sig .tc := ⟨.hbm, 666, rfl⟩
abbrev main_v621 : Ref sig .tc := ⟨.hbm, 667, rfl⟩
abbrev main_v622 : Ref sig .tc := ⟨.hbm, 668, rfl⟩
abbrev main_c_42 : Ref sig .tc := ⟨.hbm, 669, rfl⟩
abbrev main_v623 : Ref sig .tc := ⟨.hbm, 670, rfl⟩
abbrev main_v624 : Ref sig .tc := ⟨.hbm, 671, rfl⟩
abbrev main_v625 : Ref sig .tc := ⟨.hbm, 672, rfl⟩
abbrev main_v626 : Ref sig .tc := ⟨.hbm, 673, rfl⟩
abbrev main_v627 : Ref sig .tc := ⟨.hbm, 674, rfl⟩
abbrev main_v628 : Ref sig .tc := ⟨.hbm, 675, rfl⟩
abbrev main_v629 : Ref sig .tc := ⟨.hbm, 676, rfl⟩
abbrev main_v630 : Ref sig .tc := ⟨.hbm, 677, rfl⟩
abbrev main_v631 : Ref sig .tc := ⟨.hbm, 678, rfl⟩
abbrev main_c_43 : Ref sig .tc := ⟨.hbm, 679, rfl⟩
abbrev main_v632 : Ref sig .tc := ⟨.hbm, 680, rfl⟩
abbrev main_v633 : Ref sig .tc := ⟨.hbm, 681, rfl⟩
abbrev main_v634 : Ref sig .tc := ⟨.hbm, 682, rfl⟩
abbrev main_v635 : Ref sig .tc := ⟨.hbm, 683, rfl⟩
abbrev main_v636 : Ref sig .tc := ⟨.hbm, 684, rfl⟩
abbrev main_v637 : Ref sig .tc := ⟨.hbm, 685, rfl⟩
abbrev main_v638 : Ref sig .tc := ⟨.hbm, 686, rfl⟩
abbrev main_v639 : Ref sig .tc := ⟨.hbm, 687, rfl⟩
abbrev main_v640 : Ref sig .tc := ⟨.hbm, 688, rfl⟩
abbrev main_v641 : Ref sig .tc := ⟨.hbm, 689, rfl⟩
abbrev main_v642 : Ref sig .tc := ⟨.hbm, 690, rfl⟩
abbrev main_v643 : Ref sig .tc := ⟨.hbm, 691, rfl⟩
abbrev main_v644 : Ref sig .tc := ⟨.hbm, 692, rfl⟩
abbrev main_v645 : Ref sig .tc := ⟨.hbm, 693, rfl⟩
abbrev main_v646 : Ref sig .tc := ⟨.hbm, 694, rfl⟩
abbrev main_v647 : Ref sig .tc := ⟨.hbm, 695, rfl⟩
abbrev main_v648 : Ref sig .tc := ⟨.hbm, 696, rfl⟩
abbrev main_v649 : Ref sig .tc := ⟨.hbm, 697, rfl⟩
abbrev main_v650 : Ref sig .tc := ⟨.hbm, 698, rfl⟩
abbrev main_c_44 : Ref sig .tc := ⟨.hbm, 699, rfl⟩
abbrev main_v651 : Ref sig .tc := ⟨.hbm, 700, rfl⟩
abbrev main_v652 : Ref sig .tc := ⟨.hbm, 701, rfl⟩
abbrev main_v653 : Ref sig .tc := ⟨.hbm, 702, rfl⟩
abbrev main_v654 : Ref sig .tc := ⟨.hbm, 703, rfl⟩
abbrev main_v655 : Ref sig .tc := ⟨.hbm, 704, rfl⟩
abbrev main_v656 : Ref sig .tc := ⟨.hbm, 705, rfl⟩
abbrev main_v657 : Ref sig .tc := ⟨.hbm, 706, rfl⟩
abbrev main_v658 : Ref sig .tc := ⟨.hbm, 707, rfl⟩
abbrev main_v659 : Ref sig .tc := ⟨.hbm, 708, rfl⟩
abbrev main_c_45 : Ref sig .tc := ⟨.hbm, 709, rfl⟩
abbrev main_v660 : Ref sig .tc := ⟨.hbm, 710, rfl⟩
abbrev main_v661 : Ref sig .tc := ⟨.hbm, 711, rfl⟩
abbrev main_v662 : Ref sig .tc := ⟨.hbm, 712, rfl⟩
abbrev main_v663 : Ref sig .tc := ⟨.hbm, 713, rfl⟩
abbrev main_v664 : Ref sig .tc := ⟨.hbm, 714, rfl⟩
abbrev main_v665 : Ref sig .tc := ⟨.hbm, 715, rfl⟩
abbrev main_v666 : Ref sig .tc := ⟨.hbm, 716, rfl⟩
abbrev main_v667 : Ref sig .tc := ⟨.hbm, 717, rfl⟩
abbrev main_v668 : Ref sig .tc := ⟨.hbm, 718, rfl⟩
abbrev main_v669 : Ref sig .tc := ⟨.hbm, 719, rfl⟩
abbrev main_v670 : Ref sig .tc := ⟨.hbm, 720, rfl⟩
abbrev main_v671 : Ref sig .tc := ⟨.hbm, 721, rfl⟩
abbrev main_v672 : Ref sig .tc := ⟨.hbm, 722, rfl⟩
abbrev main_v673 : Ref sig .tc := ⟨.hbm, 723, rfl⟩
abbrev main_v674 : Ref sig .tc := ⟨.hbm, 724, rfl⟩
abbrev main_v675 : Ref sig .tc := ⟨.hbm, 725, rfl⟩
abbrev main_v676 : Ref sig .tc := ⟨.hbm, 726, rfl⟩
abbrev main_v677 : Ref sig .tc := ⟨.hbm, 727, rfl⟩
abbrev main_v678 : Ref sig .tc := ⟨.hbm, 728, rfl⟩
abbrev main_c_46 : Ref sig .tc := ⟨.hbm, 729, rfl⟩
abbrev main_v679 : Ref sig .tc := ⟨.hbm, 730, rfl⟩
abbrev main_v680 : Ref sig .tc := ⟨.hbm, 731, rfl⟩
abbrev main_v681 : Ref sig .tc := ⟨.hbm, 732, rfl⟩
abbrev main_v682 : Ref sig .tc := ⟨.hbm, 733, rfl⟩
abbrev main_v683 : Ref sig .tc := ⟨.hbm, 734, rfl⟩
abbrev main_v684 : Ref sig .tc := ⟨.hbm, 735, rfl⟩
abbrev main_v685 : Ref sig .tc := ⟨.hbm, 736, rfl⟩
abbrev main_v686 : Ref sig .tc := ⟨.hbm, 737, rfl⟩
abbrev main_v687 : Ref sig .tc := ⟨.hbm, 738, rfl⟩
abbrev main_c_47 : Ref sig .tc := ⟨.hbm, 739, rfl⟩
abbrev main_v688 : Ref sig .tc := ⟨.hbm, 740, rfl⟩
abbrev main_v689 : Ref sig .tc := ⟨.hbm, 741, rfl⟩
abbrev main_v690 : Ref sig .tc := ⟨.hbm, 742, rfl⟩
abbrev main_v691 : Ref sig .tc := ⟨.hbm, 743, rfl⟩
abbrev main_v692 : Ref sig .tc := ⟨.hbm, 744, rfl⟩
abbrev main_v693 : Ref sig .tc := ⟨.hbm, 745, rfl⟩
abbrev main_v694 : Ref sig .tc := ⟨.hbm, 746, rfl⟩
abbrev main_v695 : Ref sig .tc := ⟨.hbm, 747, rfl⟩
abbrev main_v696 : Ref sig .tc := ⟨.hbm, 748, rfl⟩
abbrev main_v697 : Ref sig .tc := ⟨.hbm, 749, rfl⟩
abbrev main_v698 : Ref sig .tc := ⟨.hbm, 750, rfl⟩
abbrev main_v699 : Ref sig .tc := ⟨.hbm, 751, rfl⟩
abbrev main_v700 : Ref sig .tc := ⟨.hbm, 752, rfl⟩
abbrev main_v701 : Ref sig .tc := ⟨.hbm, 753, rfl⟩
abbrev main_v702 : Ref sig .tc := ⟨.hbm, 754, rfl⟩
abbrev main_v703 : Ref sig .tc := ⟨.hbm, 755, rfl⟩
abbrev main_v704 : Ref sig .tc := ⟨.hbm, 756, rfl⟩
abbrev main_v705 : Ref sig .tc := ⟨.hbm, 757, rfl⟩
abbrev main_v706 : Ref sig .tc := ⟨.hbm, 758, rfl⟩
abbrev main_c_48 : Ref sig .tc := ⟨.hbm, 759, rfl⟩
abbrev main_v707 : Ref sig .tc := ⟨.hbm, 760, rfl⟩
abbrev main_v708 : Ref sig .tc := ⟨.hbm, 761, rfl⟩
abbrev main_v709 : Ref sig .tc := ⟨.hbm, 762, rfl⟩
abbrev main_v710 : Ref sig .tc := ⟨.hbm, 763, rfl⟩
abbrev main_v711 : Ref sig .tc := ⟨.hbm, 764, rfl⟩
abbrev main_v712 : Ref sig .tc := ⟨.hbm, 765, rfl⟩
abbrev main_v713 : Ref sig .tc := ⟨.hbm, 766, rfl⟩
abbrev main_v714 : Ref sig .tc := ⟨.hbm, 767, rfl⟩
abbrev main_v715 : Ref sig .tc := ⟨.hbm, 768, rfl⟩
abbrev main_c_49 : Ref sig .tc := ⟨.hbm, 769, rfl⟩
abbrev main_v716 : Ref sig .tc := ⟨.hbm, 770, rfl⟩
abbrev main_v717 : Ref sig .tc := ⟨.hbm, 771, rfl⟩
abbrev main_v718 : Ref sig .tc := ⟨.hbm, 772, rfl⟩
abbrev main_v719 : Ref sig .tc := ⟨.hbm, 773, rfl⟩
abbrev main_v720 : Ref sig .tc := ⟨.hbm, 774, rfl⟩
abbrev main_v721 : Ref sig .tc := ⟨.hbm, 775, rfl⟩
abbrev main_v722 : Ref sig .tc := ⟨.hbm, 776, rfl⟩
abbrev main_v723 : Ref sig .tc := ⟨.hbm, 777, rfl⟩
abbrev main_v724 : Ref sig .tc := ⟨.hbm, 778, rfl⟩
abbrev main_v725 : Ref sig .tc := ⟨.hbm, 779, rfl⟩
abbrev main_v726 : Ref sig .tc := ⟨.hbm, 780, rfl⟩
abbrev main_v727 : Ref sig .tc := ⟨.hbm, 781, rfl⟩
abbrev main_v728 : Ref sig .tc := ⟨.hbm, 782, rfl⟩
abbrev main_v729 : Ref sig .tc := ⟨.hbm, 783, rfl⟩
abbrev main_v730 : Ref sig .tc := ⟨.hbm, 784, rfl⟩
abbrev main_v731 : Ref sig .tc := ⟨.hbm, 785, rfl⟩
abbrev main_v732 : Ref sig .tc := ⟨.hbm, 786, rfl⟩
abbrev main_v733 : Ref sig .tc := ⟨.hbm, 787, rfl⟩
abbrev main_v734 : Ref sig .tc := ⟨.hbm, 788, rfl⟩
abbrev main_c_50 : Ref sig .tc := ⟨.hbm, 789, rfl⟩
abbrev main_v735 : Ref sig .tc := ⟨.hbm, 790, rfl⟩
abbrev main_v736 : Ref sig .tc := ⟨.hbm, 791, rfl⟩
abbrev main_v737 : Ref sig .tc := ⟨.hbm, 792, rfl⟩
abbrev main_v738 : Ref sig .tc := ⟨.hbm, 793, rfl⟩
abbrev main_v739 : Ref sig .tc := ⟨.hbm, 794, rfl⟩
abbrev main_v740 : Ref sig .tc := ⟨.hbm, 795, rfl⟩
abbrev main_v741 : Ref sig .tc := ⟨.hbm, 796, rfl⟩
abbrev main_v742 : Ref sig .tc := ⟨.hbm, 797, rfl⟩
abbrev main_v743 : Ref sig .tc := ⟨.hbm, 798, rfl⟩
abbrev main_c_51 : Ref sig .tc := ⟨.hbm, 799, rfl⟩
abbrev main_v744 : Ref sig .tc := ⟨.hbm, 800, rfl⟩
abbrev main_v745 : Ref sig .tc := ⟨.hbm, 801, rfl⟩
abbrev main_v746 : Ref sig .tc := ⟨.hbm, 802, rfl⟩
abbrev main_v747 : Ref sig .tc := ⟨.hbm, 803, rfl⟩
abbrev main_v748 : Ref sig .tc := ⟨.hbm, 804, rfl⟩
abbrev main_v749 : Ref sig .tc := ⟨.hbm, 805, rfl⟩
abbrev main_v750 : Ref sig .tc := ⟨.hbm, 806, rfl⟩
abbrev main_v751 : Ref sig .tc := ⟨.hbm, 807, rfl⟩
abbrev main_v752 : Ref sig .tc := ⟨.hbm, 808, rfl⟩
abbrev main_v753 : Ref sig .tc := ⟨.hbm, 809, rfl⟩
abbrev main_v754 : Ref sig .tc := ⟨.hbm, 810, rfl⟩
abbrev main_v755 : Ref sig .tc := ⟨.hbm, 811, rfl⟩
abbrev main_v756 : Ref sig .tc := ⟨.hbm, 812, rfl⟩
abbrev main_v757 : Ref sig .tc := ⟨.hbm, 813, rfl⟩
abbrev main_v758 : Ref sig .tc := ⟨.hbm, 814, rfl⟩
abbrev main_v759 : Ref sig .tc := ⟨.hbm, 815, rfl⟩
abbrev main_v760 : Ref sig .tc := ⟨.hbm, 816, rfl⟩
abbrev main_v761 : Ref sig .tc := ⟨.hbm, 817, rfl⟩
abbrev main_v762 : Ref sig .tc := ⟨.hbm, 818, rfl⟩
abbrev main_c_52 : Ref sig .tc := ⟨.hbm, 819, rfl⟩
abbrev main_v763 : Ref sig .tc := ⟨.hbm, 820, rfl⟩
abbrev main_v764 : Ref sig .tc := ⟨.hbm, 821, rfl⟩
abbrev main_v765 : Ref sig .tc := ⟨.hbm, 822, rfl⟩
abbrev main_v766 : Ref sig .tc := ⟨.hbm, 823, rfl⟩
abbrev main_v767 : Ref sig .tc := ⟨.hbm, 824, rfl⟩
abbrev main_v768 : Ref sig .tc := ⟨.hbm, 825, rfl⟩
abbrev main_v769 : Ref sig .tc := ⟨.hbm, 826, rfl⟩
abbrev main_v770 : Ref sig .tc := ⟨.hbm, 827, rfl⟩
abbrev main_v771 : Ref sig .tc := ⟨.hbm, 828, rfl⟩
abbrev main_c_53 : Ref sig .tc := ⟨.hbm, 829, rfl⟩
abbrev main_v772 : Ref sig .tc := ⟨.hbm, 830, rfl⟩
abbrev main_v773 : Ref sig .tc := ⟨.hbm, 831, rfl⟩
abbrev main_v774 : Ref sig .tc := ⟨.hbm, 832, rfl⟩
abbrev main_v775 : Ref sig .tc := ⟨.hbm, 833, rfl⟩
abbrev main_v776 : Ref sig .tc := ⟨.hbm, 834, rfl⟩
abbrev main_v777 : Ref sig .tc := ⟨.hbm, 835, rfl⟩
abbrev main_v778 : Ref sig .tc := ⟨.hbm, 836, rfl⟩
abbrev main_v779 : Ref sig .tc := ⟨.hbm, 837, rfl⟩
abbrev main_v780 : Ref sig .tc := ⟨.hbm, 838, rfl⟩
abbrev main_v781 : Ref sig .tc := ⟨.hbm, 839, rfl⟩
abbrev main_v782 : Ref sig .tc := ⟨.hbm, 840, rfl⟩
abbrev main_v783 : Ref sig .tc := ⟨.hbm, 841, rfl⟩
abbrev main_v784 : Ref sig .tc := ⟨.hbm, 842, rfl⟩
abbrev main_v785 : Ref sig .tc := ⟨.hbm, 843, rfl⟩
abbrev main_v786 : Ref sig .tc := ⟨.hbm, 844, rfl⟩
abbrev main_v787 : Ref sig .tc := ⟨.hbm, 845, rfl⟩
abbrev main_v788 : Ref sig .tc := ⟨.hbm, 846, rfl⟩
abbrev main_v789 : Ref sig .tc := ⟨.hbm, 847, rfl⟩
abbrev main_v790 : Ref sig .tc := ⟨.hbm, 848, rfl⟩
abbrev main_c_54 : Ref sig .tc := ⟨.hbm, 849, rfl⟩
abbrev main_v791 : Ref sig .tc := ⟨.hbm, 850, rfl⟩
abbrev main_v792 : Ref sig .tc := ⟨.hbm, 851, rfl⟩
abbrev main_v793 : Ref sig .tc := ⟨.hbm, 852, rfl⟩
abbrev main_v794 : Ref sig .tc := ⟨.hbm, 853, rfl⟩
abbrev main_v795 : Ref sig .tc := ⟨.hbm, 854, rfl⟩
abbrev main_v796 : Ref sig .tc := ⟨.hbm, 855, rfl⟩
abbrev main_v797 : Ref sig .tc := ⟨.hbm, 856, rfl⟩
abbrev main_v798 : Ref sig .tc := ⟨.hbm, 857, rfl⟩
abbrev main_v799 : Ref sig .tc := ⟨.hbm, 858, rfl⟩
abbrev main_c_55 : Ref sig .tc := ⟨.hbm, 859, rfl⟩
abbrev main_v800 : Ref sig .tc := ⟨.hbm, 860, rfl⟩
abbrev main_v801 : Ref sig .tc := ⟨.hbm, 861, rfl⟩
abbrev main_v802 : Ref sig .tc := ⟨.hbm, 862, rfl⟩
abbrev main_v803 : Ref sig .tc := ⟨.hbm, 863, rfl⟩
abbrev main_v804 : Ref sig .tc := ⟨.hbm, 864, rfl⟩
abbrev main_v805 : Ref sig .tc := ⟨.hbm, 865, rfl⟩
abbrev main_v806 : Ref sig .tc := ⟨.hbm, 866, rfl⟩
abbrev main_v807 : Ref sig .tc := ⟨.hbm, 867, rfl⟩
abbrev main_v808 : Ref sig .tc := ⟨.hbm, 868, rfl⟩
abbrev main_v809 : Ref sig .tc := ⟨.hbm, 869, rfl⟩

abbrev nD : Nat := 1
abbrev τ : Topo := Topo.v7x

variable {F : FTy → Type} [FloatOps F]

class Facts₀ : Prop where
  transposes_S64x256x256x16_S256x256x16x64_1_2_3_0 : S64x256x256x16.Transposes [1, 2, 3, 0] S256x256x16x64
  shapeCasts_S256x256x16x64_S65536x16x64 : S256x256x16x64.ShapeCasts S65536x16x64
  slices_S65536x16x64_S65536x8x64_0_0_0 : S65536x16x64.Slices ![0, 0, 0] S65536x8x64
  bcast_S_S8x8 : S_.BroadcastsInDim S8x8 (![] : Fin 0 → Fin S8x8.rank)
  slices_S65536x28_S65536x1_0_0 : S65536x28.Slices ![0, 0] S65536x1
  shapeCasts_S65536x1_S65536 : S65536x1.ShapeCasts S65536
  slices_S8x8_S1x8_0_0 : S8x8.Slices ![0, 0] S1x8
  shapeCasts_S1x8_S8 : S1x8.ShapeCasts S8
  slices_S8x8_S1x8_1_0 : S8x8.Slices ![1, 0] S1x8
  bcast_S8_S1x8_1 : S8.BroadcastsInDim S1x8 (![1] : Fin 1 → Fin S1x8.rank)
  bcast_S65536_S65536x1_0 : S65536.BroadcastsInDim S65536x1 (![0] : Fin 1 → Fin S65536x1.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  bcast_S_S1 : S_.BroadcastsInDim S1 (![] : Fin 0 → Fin S1.rank)
  bcast_S8x8_S65536x8x8_1_2 : S8x8.BroadcastsInDim S65536x8x8 (![1, 2] : Fin 2 → Fin S65536x8x8.rank)
  slices_S65536x28_S65536x1_0_1 : S65536x28.Slices ![0, 1] S65536x1
  slices_S65536x8x8_S65536x1x8_0_0_0 : S65536x8x8.Slices ![0, 0, 0] S65536x1x8
  shapeCasts_S65536x1x8_S65536x8 : S65536x1x8.ShapeCasts S65536x8
  slices_S65536x8x8_S65536x1x8_0_2_0 : S65536x8x8.Slices ![0, 2, 0] S65536x1x8
  slices_S65536x28_S65536x1_0_2 : S65536x28.Slices ![0, 2] S65536x1
  slices_S65536x8x8_S65536x1x8_0_3_0 : S65536x8x8.Slices ![0, 3, 0] S65536x1x8
  slices_S65536x28_S65536x1_0_3 : S65536x28.Slices ![0, 3] S65536x1
  slices_S65536x8x8_S65536x1x8_0_4_0 : S65536x8x8.Slices ![0, 4, 0] S65536x1x8
  slices_S65536x28_S65536x1_0_4 : S65536x28.Slices ![0, 4] S65536x1
  slices_S65536x8x8_S65536x1x8_0_5_0 : S65536x8x8.Slices ![0, 5, 0] S65536x1x8
  slices_S65536x28_S65536x1_0_5 : S65536x28.Slices ![0, 5] S65536x1
  slices_S65536x8x8_S65536x1x8_0_6_0 : S65536x8x8.Slices ![0, 6, 0] S65536x1x8
  slices_S65536x28_S65536x1_0_6 : S65536x28.Slices ![0, 6] S65536x1
  slices_S65536x8x8_S65536x1x8_0_7_0 : S65536x8x8.Slices ![0, 7, 0] S65536x1x8
  slices_S65536x28_S65536x1_0_7 : S65536x28.Slices ![0, 7] S65536x1
  slices_S65536x8x8_S65536x1x8_0_1_0 : S65536x8x8.Slices ![0, 1, 0] S65536x1x8
  slices_S65536x28_S65536x1_0_8 : S65536x28.Slices ![0, 8] S65536x1
  slices_S65536x28_S65536x1_0_9 : S65536x28.Slices ![0, 9] S65536x1
  slices_S65536x28_S65536x1_0_10 : S65536x28.Slices ![0, 10] S65536x1
  slices_S65536x28_S65536x1_0_11 : S65536x28.Slices ![0, 11] S65536x1
  slices_S65536x28_S65536x1_0_12 : S65536x28.Slices ![0, 12] S65536x1
  slices_S65536x28_S65536x1_0_13 : S65536x28.Slices ![0, 13] S65536x1
  slices_S65536x28_S65536x1_0_14 : S65536x28.Slices ![0, 14] S65536x1
  slices_S65536x28_S65536x1_0_15 : S65536x28.Slices ![0, 15] S65536x1
  slices_S65536x28_S65536x1_0_16 : S65536x28.Slices ![0, 16] S65536x1
  slices_S65536x28_S65536x1_0_17 : S65536x28.Slices ![0, 17] S65536x1
  slices_S65536x28_S65536x1_0_18 : S65536x28.Slices ![0, 18] S65536x1
  slices_S65536x28_S65536x1_0_19 : S65536x28.Slices ![0, 19] S65536x1
  slices_S65536x28_S65536x1_0_20 : S65536x28.Slices ![0, 20] S65536x1
  slices_S65536x28_S65536x1_0_21 : S65536x28.Slices ![0, 21] S65536x1
  slices_S65536x28_S65536x1_0_22 : S65536x28.Slices ![0, 22] S65536x1
  slices_S65536x28_S65536x1_0_23 : S65536x28.Slices ![0, 23] S65536x1
  slices_S65536x28_S65536x1_0_24 : S65536x28.Slices ![0, 24] S65536x1
  slices_S65536x28_S65536x1_0_25 : S65536x28.Slices ![0, 25] S65536x1
  slices_S65536x28_S65536x1_0_26 : S65536x28.Slices ![0, 26] S65536x1
  slices_S65536x28_S65536x1_0_27 : S65536x28.Slices ![0, 27] S65536x1
  bcast_S65536x8_S65536x8x1_0_1 : S65536x8.BroadcastsInDim S65536x8x1 (![0, 1] : Fin 2 → Fin S65536x8x1.rank)
  bcast_S65536x8x1_S65536x8x8_0_1_2 : S65536x8x1.BroadcastsInDim S65536x8x8 (![0, 1, 2] : Fin 3 → Fin S65536x8x8.rank)
  slices_S65536x16x64_S65536x8x64_0_8_0 : S65536x16x64.Slices ![0, 8, 0] S65536x8x64
  concatenates_S65536x8x64_S65536x8x64_S65536x16x64_d1 : Shape.Concatenates [S65536x8x64, S65536x8x64] S65536x16x64 1
  shapeCasts_S65536x16x64_S256x256x16x64 : S65536x16x64.ShapeCasts S256x256x16x64
  transposes_S256x256x16x64_S64x256x256x16_3_0_1_2 : S256x256x16x64.Transposes [3, 0, 1, 2] S64x256x256x16
  scatter_S65536x8x8_S1_S65536x8_01_1_1_0_wf : ScatterDims.WF S65536x8x8 S1 S65536x8 [0, 1] [1] [1] 0
  dot_S65536x8x8_S65536x8x64_S65536x8x64_1_1_2_2_0_0_wf : DotDims.WF S65536x8x8 S65536x8x64 S65536x8x64 [1] [1] [2] [2] [0] [0]

variable [Facts₀]

def scatter_S65536x8x8_S1_S65536x8_01_1_1_0 : ScatterDims S65536x8x8 S1 S65536x8 where
  updateWindowDims := [0, 1]
  insertedWindowDims := [1]
  scatterDimsToOperandDims := [1]
  indexVectorDim := 0
  wf := scatter_S65536x8x8_S1_S65536x8_01_1_1_0_wf
def dot_S65536x8x8_S65536x8x64_S65536x8x64_1_1_2_2_0_0 : DotDims S65536x8x8 S65536x8x64 S65536x8x64 where
  lhsContracting := [1]
  rhsContracting := [1]
  lhsNonContracting := [2]
  rhsNonContracting := [2]
  lhsBatch := [0]
  rhsBatch := [0]
  wf := dot_S65536x8x8_S65536x8x64_S65536x8x64_1_1_2_2_0_0_wf

class Facts : Prop extends Facts₀ where

variable [Facts]
-- ==== Proof.Rot.lean ====
/-
  Plane rotations of an 8-vector and of the rows of an 8×8 matrix, composed over the 28 index pairs (t, b), t < b.
  A step with cosine `c`, sine `s` on the pair (t, b) is the matrix `G` that is the identity except for
  rows t and b: row t = c·e_t − s·e_b, row b = s·e_t + c·e_b.  `rotRows` is `R ↦ G R`, `rotVec` is `w ↦ Gᵀ w`.
  The one fact proved here: with `R₂₈ = G₂₇ ⋯ G₀`, the product `(diag μ · R₂₈)ᵀ v` is `G₀ᵀ ⋯ G₂₇ᵀ (μ ⊙ v)`,
  over the reals and (for real entries) over the extended reals.
-/
import Mathlib.Data.EReal.Operations
import Mathlib.Algebra.BigOperators.Fin
import Mathlib.Tactic.Ring
import Mathlib.Tactic.FinCases
import Mathlib.Tactic.IntervalCases
import Mathlib.Data.List.GetD

namespace Cert.Rot

/-- The index pairs (t, b), t < b, in the order the rotations are composed. -/
def pairs : List (Fin 8 × Fin 8) :=
  [(0, 1), (0, 2), (0, 3), (0, 4), (0, 5), (0, 6), (0, 7),
   (1, 2), (1, 3), (1, 4), (1, 5), (1, 6), (1, 7),
   (2, 3), (2, 4), (2, 5), (2, 6), (2, 7),
   (3, 4), (3, 5), (3, 6), (3, 7),
   (4, 5), (4, 6), (4, 7),
   (5, 6), (5, 7),
   (6, 7)]

/-- The first index of pair `k`. -/
def pT (k : ℕ) : Fin 8 := (pairs.getD k (0, 1)).1
/-- The second index of pair `k`. -/
def pB (k : ℕ) : Fin 8 := (pairs.getD k (0, 1)).2

theorem pT_ne_pB (k : ℕ) : pT k ≠ pB k := by
  rcases Nat.lt_or_ge k 28 with h | h
  · interval_cases k <;> decide
  · have hl : pairs.length ≤ k := by
      have : pairs.length = 28 := rfl
      omega
    have hd : pairs.getD k (0, 1) = (0, 1) := List.getD_eq_default _ _ hl
    simp only [pT, pB, hd]
    decide

section Defs
variable {α : Type} [Mul α] [Add α] [Sub α] [Zero α] [One α]

/-- `G R`: rows t and b of `R` replaced by `c·R_t − s·R_b` and `s·R_t + c·R_b`. -/
def rotRows (c s : α) (t b : Fin 8) (R : Fin 8 → Fin 8 → α) : Fin 8 → Fin 8 → α :=
  fun j i => if j = t then c * R t i - s * R b i else if j = b then s * R t i + c * R b i else R j i

/-- `Gᵀ w`: entries t and b of `w` replaced by `c·w_t + s·w_b` and `(0 − s)·w_t + c·w_b`. -/
def rotVec (c s : α) (t b : Fin 8) (w : Fin 8 → α) : Fin 8 → α :=
  fun j => if j = t then c * w t + s * w b else if j = b then (0 - s) * w t + c * w b else w j

/-- The identity matrix. -/
def idm : Fin 8 → Fin 8 → α := fun j i => if j = i then 1 else 0

/-- `G_{k-1} ⋯ G_0`. -/
def Rk (c s : ℕ → α) : ℕ → Fin 8 → Fin 8 → α
  | 0 => idm
  | k + 1 => rotRows (c k) (s k) (pT k) (pB k) (Rk c s k)

/-- `G_{28-n}ᵀ ⋯ G_27ᵀ w`: the steps 27, 26, …, 28 − n applied to `w` in that order. -/
def Wd (c s : ℕ → α) (w : Fin 8 → α) : ℕ → Fin 8 → α
  | 0 => w
  | n + 1 => rotVec (c (27 - n)) (s (27 - n)) (pT (27 - n)) (pB (27 - n)) (Wd c s w n)

end Defs

/-- A sum whose summand is overridden at two distinct indices. -/
private theorem sum_two (t b : Fin 8) (h : t ≠ b) (x y g : Fin 8 → ℝ) :
    ∑ j, (if j = t then x j else if j = b then y j else g j)
      = x t + y b + (∑ j, g j - g t - g b) := by
  have key : ∀ j, (if j = t then x j else if j = b then y j else g j)
      = g j + (if j = t then x j - g j else 0) + (if j = b then y j - g j else 0) := by
    intro j
    by_cases h1 : j = t
    · subst h1
      simp [h]
    · by_cases h2 : j = b
      · subst h2
        simp [h1]
      · simp [h1, h2]
  simp_rw [key, Finset.sum_add_distrib, Finset.sum_ite_eq', Finset.mem_univ, if_true]
  ring

/-- One step: `⟨R e_i, Gᵀ w⟩ = ⟨G R e_i, w⟩`. -/
private theorem step (c s : ℝ) (t b : Fin 8) (h : t ≠ b) (R : Fin 8 → Fin 8 → ℝ) (w : Fin 8 → ℝ)
    (i : Fin 8) :
    ∑ j, R j i * rotVec c s t b w j = ∑ j, rotRows c s t b R j i * w j := by
  simp only [rotVec, rotRows, mul_ite, ite_mul]
  rw [sum_two t b h (fun j => R j i * (c * w t + s * w b)) (fun j => R j i * ((0 - s) * w t + c * w b))
        (fun j => R j i * w j),
      sum_two t b h (fun j => (c * R t i - s * R b i) * w j) (fun j => (s * R t i + c * R b i) * w j)
        (fun j => R j i * w j)]
  ring

/-- The pairing `∑ⱼ R_{28-n}[j,i] · (Wd n)ⱼ` does not depend on `n`. -/
private theorem invariant (c s : ℕ → ℝ) (w : Fin 8 → ℝ) (i : Fin 8) :
    ∀ n, n ≤ 28 → ∑ j, Rk c s (28 - n) j i * Wd c s w n j = ∑ j, Rk c s 28 j i * w j := by
  intro n
  induction n with
  | zero => intro _; rfl
  | succ n ih =>
    intro hn
    have hn' : n ≤ 28 := by omega
    rw [← ih hn']
    have e1 : 28 - (n + 1) = 27 - n := by omega
    have e2 : 28 - n = (27 - n) + 1 := by omega
    rw [e1, e2]
    show ∑ j, Rk c s (27 - n) j i *
          rotVec (c (27 - n)) (s (27 - n)) (pT (27 - n)) (pB (27 - n)) (Wd c s w n) j
        = ∑ j, rotRows (c (27 - n)) (s (27 - n)) (pT (27 - n)) (pB (27 - n)) (Rk c s (27 - n)) j i *
          Wd c s w n j
    exact step _ _ _ _ (pT_ne_pB _) _ _ _

/-- `(diag μ · R₂₈)ᵀ v = G₀ᵀ ⋯ G₂₇ᵀ (μ ⊙ v)`, entry `i`, over the reals. -/
theorem real_identity (c s : ℕ → ℝ) (mu v : Fin 8 → ℝ) (i : Fin 8) :
    ∑ j, (mu j * Rk c s 28 j i) * v j = Wd c s (fun j => mu j * v j) 28 i := by
  have h := invariant c s (fun j => mu j * v j) i 28 (le_refl _)
  have h0 : ∑ j, Rk c s (28 - 28) j i * Wd c s (fun j => mu j * v j) 28 j
      = Wd c s (fun j => mu j * v j) 28 i := by
    show ∑ j, (idm j i : ℝ) * Wd c s (fun j => mu j * v j) 28 j = _
    simp only [idm, ite_mul, one_mul, zero_mul, Finset.sum_ite_eq', Finset.mem_univ, if_true]
  rw [← h0, h]
  refine Finset.sum_congr rfl (fun j _ => ?_)
  ring

/-- The matrix of real cosines and sines, read in the extended reals, is the coercion of the real matrix. -/
theorem Rk_coe (c s : ℕ → ℝ) (k : ℕ) (j i : Fin 8) :
    Rk (fun n => (c n : EReal)) (fun n => (s n : EReal)) k j i = ((Rk c s k j i : ℝ) : EReal) := by
  induction k generalizing j i with
  | zero =>
    simp only [Rk, idm]
    split_ifs
    · exact EReal.coe_one.symm
    · exact EReal.coe_zero.symm
  | succ k ih =>
    simp only [Rk, rotRows, ih]
    split_ifs
    · rw [EReal.coe_sub, EReal.coe_mul, EReal.coe_mul]
    · rw [EReal.coe_add, EReal.coe_mul, EReal.coe_mul]
    · rfl

/-- The rotated vector of real data, read in the extended reals, is the coercion of the real vector. -/
theorem Wd_coe (c s : ℕ → ℝ) (w : Fin 8 → ℝ) (n : ℕ) (j : Fin 8) :
    Wd (fun n => (c n : EReal)) (fun n => (s n : EReal)) (fun j => (w j : EReal)) n j = ((Wd c s w n j : ℝ) : EReal) := by
  induction n generalizing j with
  | zero => rfl
  | succ n ih =>
    simp only [Wd, rotVec, ih]
    split_ifs
    · rw [EReal.coe_add, EReal.coe_mul, EReal.coe_mul]
    · rw [EReal.coe_add, EReal.coe_mul, EReal.coe_mul, EReal.coe_sub, EReal.coe_zero]
    · rfl

/-- The coercion of a finite real sum is the sum of the coercions. -/
private theorem coe_sum8 (f : Fin 8 → ℝ) : ((∑ j, f j : ℝ) : EReal) = ∑ j, (f j : EReal) := by
  simp only [Fin.sum_univ_eight, EReal.coe_add]

/-- The same identity over the extended reals, for real cosines, sines, signs and data. -/
theorem ereal_identity (c s : ℕ → ℝ) (mu v : Fin 8 → ℝ) (i : Fin 8) :
    ∑ j, ((mu j : EReal) * Rk (fun n => (c n : EReal)) (fun n => (s n : EReal)) 28 j i) * (v j : EReal)
      = Wd (fun n => (c n : EReal)) (fun n => (s n : EReal)) (fun j => (mu j : EReal) * (v j : EReal)) 28 i := by
  have hw : (fun j => (mu j : EReal) * (v j : EReal)) = fun j => ((mu j * v j : ℝ) : EReal) := by
    funext j
    rw [EReal.coe_mul]
  rw [hw, Wd_coe, ← real_identity, coe_sum8]
  refine Finset.sum_congr rfl (fun j _ => ?_)
  rw [Rk_coe, EReal.coe_mul, EReal.coe_mul]

end Cert.Rot
-- ==== Proof.Spec.lean ====
/-
  What both programs compute, as one function of the three argument arrays.
  `X : [64, 256, 256, 16]` (sample, row, column, channel), `A : [65536, 28]` (one row of 28 angles per spatial
  position `256·row + column`), `M : [65536, 8]` (one row of 8 sign factors per position).  At every sample and
  position the first 8 channels pass through; the last 8 channels `v` are replaced by
  `G₀ᵀ ⋯ G₂₇ᵀ (μ ⊙ v)`, the plane rotations of Rot.lean with the cosines and sines of that position's angles.
-/
import proofs.«109475_j41601053229316_1_alg».proof.Proof.Rot
import Idealize.ShloMosaic.PureOps.Ideal
import Idealize.ShloMosaic.Lib.ValueIdx

noncomputable section

namespace Cert.Spec

open Idealize.ShloMosaic Idealize.ShloMosaic.ValueIdx Cert.Rot

/-- Channel `8 + j`. -/
def up (j : Fin 8) : Fin 16 := ⟨8 + j.val, by omega⟩

/-- The spatial position of row `r`, column `c`. -/
def blkOf (r c : Fin 256) : Fin 65536 := ⟨r.val * 256 + c.val, by omega⟩

/-- One sample at one position: channels below 8 unchanged, channel `8 + i` the `i`-th entry of the rotated vector. -/
def cell (xs : Fin 16 → EReal) (ang : ℕ → EReal) (mu : Fin 8 → EReal) (ch : Fin 16) : EReal :=
  if h : ch.val < 8 then xs ch
  else Wd (fun k => Ideal.cos (ang k)) (fun k => Ideal.sin (ang k)) (fun j => mu j * xs (up j)) 28 ⟨ch.val - 8, by omega⟩

/-- Angle `k` of position `b` (zero past the 28th). -/
def angAt (A : (⟨2, ![65536, 28]⟩ : Shape).Idx → EReal) (b : Fin 65536) (k : ℕ) : EReal :=
  if h : k < 28 then A (ix2 b ⟨k, h⟩) else 0

/-- The result at sample `n`, row `r`, column `c`, channel `ch`. -/
def Gat (X : (⟨4, ![64, 256, 256, 16]⟩ : Shape).Idx → EReal) (A : (⟨2, ![65536, 28]⟩ : Shape).Idx → EReal)
    (M : (⟨2, ![65536, 8]⟩ : Shape).Idx → EReal) (n : Fin 64) (r c : Fin 256) (ch : Fin 16) : EReal :=
  cell (fun ch' => X (ix4 n r c ch')) (angAt A (blkOf r c)) (fun j => M (ix2 (blkOf r c) j)) ch

/-- The result array. -/
def G (X : (⟨4, ![64, 256, 256, 16]⟩ : Shape).Idx → EReal) (A : (⟨2, ![65536, 28]⟩ : Shape).Idx → EReal)
    (M : (⟨2, ![65536, 8]⟩ : Shape).Idx → EReal) : (⟨4, ![64, 256, 256, 16]⟩ : Shape).Idx → EReal :=
  fun i => Gat X A M (i 0) (i 1) (i 2) (i 3)

/-- Angle `k` at row `r`, column `c` of a block of 4 rows (zero past the 28th). -/
def angB (x1 : (⟨3, ![4, 256, 28]⟩ : Shape).Idx → EReal) (r : Fin 4) (c : Fin 256) (k : ℕ) : EReal :=
  if h : k < 28 then x1 (ix3 r c ⟨k, h⟩) else 0

/-- The same function on one block of 4 rows: `x0` the block of `X`, `x1` of the angles, `x2` of the sign factors. -/
def Bat (x0 : (⟨4, ![64, 4, 256, 16]⟩ : Shape).Idx → EReal) (x1 : (⟨3, ![4, 256, 28]⟩ : Shape).Idx → EReal)
    (x2 : (⟨3, ![4, 256, 8]⟩ : Shape).Idx → EReal) (n : Fin 64) (r : Fin 4) (c : Fin 256) (ch : Fin 16) : EReal :=
  cell (fun ch' => x0 (ix4 n r c ch')) (angB x1 r c) (fun j => x2 (ix3 r c j)) ch

end Cert.Spec

end
-- ==== Proof.KernelBlock.lean ====
/-
  What one grid point of the kernel leaves in its output block, read at one index: on a block of 4 rows the body copies the
  first 8 channels and writes, into channel 8 + i, entry i of the vector obtained from (μ ⊙ v) by the 28 plane rotations
  applied last pair first — the function `Cert.Spec.Bat` of the three input blocks.
  The body's arithmetic on whole `[64, 4, 256]` values is read at one sample, row and column: a lane of the angle or sign
  block is a `[1, 4, 256]` plane repeated over the samples, a channel of the data block a `[64, 4, 256]` slab; each stored
  value then is a nest of `c·a + s·b` and `(0 − s)·a + c·b` that unfolds, pair by pair, to the rotated vector's entry.
-/
import proofs.«109475_j41601053229316_1_alg».proof.Proof.Gen.KernelIdeal.Frame
import proofs.«109475_j41601053229316_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Blk

open Cert.KernelIdeal Cert.KernelIdeal.Gen Idealize.ShloMosaic Idealize.ShloMosaic.TcCoe Idealize.ShloMosaic.ValueIdx Cert.Spec Cert.Rot
open Idealize.ShloMosaic.Tactic

/-! ## Loads and layout changes at one index -/

/-- A load of lane `k` of the angle block, as a `[4, 256, 1]` plane. -/
theorem ld_ang {κ : Kind} (arg2 : Memref sig κ .vmem S4x256x28 .f32) (harg2 : arg2.IsWhole) (x1 : Vec Ideal S4x256x28 .f32)
    (k : Nat) (hk : k < 28) (inb : ∀ a, (![0, 0, k] : Fin 3 → Nat) a + S4x256x1.size a ≤ S4x256x28.size a) (r : Fin 4) (col : Fin 256) :
    View.readAt (Elt Ideal) arg2.view (Rect.unit (s := S4x256x28) ![0, 0, k] S4x256x1.size inb).toLoadRect (harg2.unread x1) (ix3 r col 0)
      = x1 (ix3 r col ⟨k, hk⟩) := by
  rw [View.readAt_eq_ld, harg2.read_unread]
  show x1 _ = x1 _
  congr 1
  funext a
  apply Fin.ext
  match a with
  | ⟨0, _⟩ => show 0 + 1 * r.val = r.val; omega
  | ⟨1, _⟩ => show 0 + 1 * col.val = col.val; omega
  | ⟨2, _⟩ => show k + 1 * 0 = k; omega

/-- A load of lane `k` of the sign-factor block, as a `[4, 256, 1]` plane. -/
theorem ld_mu {κ : Kind} (arg3 : Memref sig κ .vmem S4x256x8 .f32) (harg3 : arg3.IsWhole) (x2 : Vec Ideal S4x256x8 .f32)
    (k : Nat) (hk : k < 8) (inb : ∀ a, (![0, 0, k] : Fin 3 → Nat) a + S4x256x1.size a ≤ S4x256x8.size a) (r : Fin 4) (col : Fin 256) :
    View.readAt (Elt Ideal) arg3.view (Rect.unit (s := S4x256x8) ![0, 0, k] S4x256x1.size inb).toLoadRect (harg3.unread x2) (ix3 r col 0)
      = x2 (ix3 r col ⟨k, hk⟩) := by
  rw [View.readAt_eq_ld, harg3.read_unread]
  show x2 _ = x2 _
  congr 1
  funext a
  apply Fin.ext
  match a with
  | ⟨0, _⟩ => show 0 + 1 * r.val = r.val; omega
  | ⟨1, _⟩ => show 0 + 1 * col.val = col.val; omega
  | ⟨2, _⟩ => show k + 1 * 0 = k; omega

/-- A load of channel `k` of the data block, as a `[64, 4, 256, 1]` slab. -/
theorem ld_x {κ : Kind} (arg1 : Memref sig κ .vmem S64x4x256x16 .f32) (harg1 : arg1.IsWhole) (x0 : Vec Ideal S64x4x256x16 .f32)
    (k : Nat) (hk : k < 16) (inb : ∀ a, (![0, 0, 0, k] : Fin 4 → Nat) a + S64x4x256x1.size a ≤ S64x4x256x16.size a)
    (n : Fin 64) (r : Fin 4) (col : Fin 256) :
    View.readAt (Elt Ideal) arg1.view (Rect.unit (s := S64x4x256x16) ![0, 0, 0, k] S64x4x256x1.size inb).toLoadRect (harg1.unread x0) (ix4 n r col 0)
      = x0 (ix4 n r col ⟨k, hk⟩) := by
  rw [View.readAt_eq_ld, harg1.read_unread]
  show x0 _ = x0 _
  congr 1
  funext a
  apply Fin.ext
  match a with
  | ⟨0, _⟩ => show 0 + 1 * n.val = n.val; omega
  | ⟨1, _⟩ => show 0 + 1 * r.val = r.val; omega
  | ⟨2, _⟩ => show 0 + 1 * col.val = col.val; omega
  | ⟨3, _⟩ => show k + 1 * 0 = k; omega

/-- Dropping the unit lane axis of a `[64, 4, 256, 1]` slab. -/
theorem sc_drop (v : Vec Ideal S64x4x256x1 .f32) (h : S64x4x256x1.ShapeCasts S64x4x256) (n : Fin 64) (r : Fin 4) (col : Fin 256) :
    shapeCast S64x4x256 v h (ix3 n r col) = v (ix4 n r col 0) :=
  shapeCast_apply _ _ _ _ (by rw [Shape.rowMajor_val_four, Shape.rowMajor_val_three]; show ((n.val * 4 + r.val) * 256 + col.val) * 1 + 0 = (n.val * 4 + r.val) * 256 + col.val; omega)

/-- Adding a unit lane axis to a `[64, 4, 256]` value. -/
theorem sc_add (v : FVec Ideal S64x4x256 .f32) (h : S64x4x256.ShapeCasts S64x4x256x1) (n : Fin 64) (r : Fin 4) (col : Fin 256) :
    shapeCast S64x4x256x1 v h (ix4 n r col 0) = v (ix3 n r col) :=
  shapeCast_apply _ _ _ _ (by rw [Shape.rowMajor_val_four, Shape.rowMajor_val_three]; show (n.val * 4 + r.val) * 256 + col.val = ((n.val * 4 + r.val) * 256 + col.val) * 1 + 0; omega)

/-- A `[4, 256, 1]` plane seen as `[1, 4, 256]`. -/
theorem sc_plane (v : Vec Ideal S4x256x1 .f32) (h1 : S4x256x1.ShapeCasts S4x256) (h2 : S4x256.ShapeCasts S1x4x256) (r : Fin 4) (col : Fin 256) :
    shapeCast S1x4x256 (shapeCast S4x256 v h1) h2 (ix3 0 r col) = v (ix3 r col 0) := by
  rw [shapeCast_apply _ h2 (ix3 0 r col) (ix2 r col) (by rw [Shape.rowMajor_val_two, Shape.rowMajor_val_three]; show r.val * 256 + col.val = (0 * 4 + r.val) * 256 + col.val; omega),
    shapeCast_apply _ h1 (ix2 r col) (ix3 r col 0) (by rw [Shape.rowMajor_val_two, Shape.rowMajor_val_three]; show (r.val * 256 + col.val) * 1 + 0 = r.val * 256 + col.val; omega)]

/-- A `[1, 4, 256]` plane repeated over the 64 samples. -/
theorem bc_plane (v : FVec Ideal S1x4x256 .f32) (h : S1x4x256.Broadcasts S64x4x256) (n : Fin 64) (r : Fin 4) (col : Fin 256) :
    broadcastTo S64x4x256 v h (ix3 n r col) = v (ix3 0 r col) :=
  broadcastTo_apply _ _ _ _ (fun a => by
    match a with
    | ⟨0, _⟩ => first | rfl | (simp; done)
    | ⟨1, _⟩ => first | rfl | (simp; done)
    | ⟨2, _⟩ => first | rfl | (simp; done))

theorem cos_apply' {s : Shape} (v : FVec Ideal s .f32) (i : s.Idx) : cos v i = Ideal.cos (v i) := rfl
theorem sin_apply' {s : Shape} (v : FVec Ideal s .f32) (i : s.Idx) : sin v i = Ideal.sin (v i) := rfl

/-- Lane `k` of a sign-factor block (zero past the 8th). -/
def muB (x2 : (⟨3, ![4, 256, 8]⟩ : Shape).Idx → EReal) (r : Fin 4) (c : Fin 256) (k : ℕ) : EReal :=
  if h : k < 8 then x2 (ix3 r c ⟨k, h⟩) else 0

/-- Channel `k` of a data block (zero past the 16th). -/
def xB (x0 : (⟨4, ![64, 4, 256, 16]⟩ : Shape).Idx → EReal) (n : Fin 64) (r : Fin 4) (c : Fin 256) (k : ℕ) : EReal :=
  if h : k < 16 then x0 (ix4 n r c ⟨k, h⟩) else 0

/-- Lane `k` of the angle block, loaded as a plane and seen as `[1, 4, 256]`, at row `r`, column `col`. -/
theorem ang_plane {κ : Kind} (arg2 : Memref sig κ .vmem S4x256x28 .f32) (harg2 : arg2.IsWhole) (x1 : Vec Ideal S4x256x28 .f32)
    (k : Nat) (inb : ∀ a, (![0, 0, k] : Fin 3 → Nat) a + S4x256x1.size a ≤ S4x256x28.size a)
    (h1 : S4x256x1.ShapeCasts S4x256) (h2 : S4x256.ShapeCasts S1x4x256) (r : Fin 4) (col : Fin 256) :
    shapeCast (s := S4x256) (α := Ideal .f32) S1x4x256 (shapeCast (s := S4x256x1) (α := Ideal .f32) S4x256
        (View.readAt (Elt Ideal) arg2.view (Rect.unit (s := S4x256x28) ![0, 0, k] S4x256x1.size inb).toLoadRect (harg2.unread x1)) h1) h2 (ix3 0 r col)
      = angB x1 r col k := by
  have hk : k < 28 := by have := inb 2; show k < 28; change k + 1 ≤ 28 at this; omega
  rw [angB, dif_pos hk]
  exact (sc_plane _ h1 h2 r col).trans (ld_ang arg2 harg2 x1 k hk inb r col)

/-- Lane `k` of the sign-factor block, loaded as a plane and seen as `[1, 4, 256]`, at row `r`, column `col`. -/
theorem mu_plane {κ : Kind} (arg3 : Memref sig κ .vmem S4x256x8 .f32) (harg3 : arg3.IsWhole) (x2 : Vec Ideal S4x256x8 .f32)
    (k : Nat) (inb : ∀ a, (![0, 0, k] : Fin 3 → Nat) a + S4x256x1.size a ≤ S4x256x8.size a)
    (h1 : S4x256x1.ShapeCasts S4x256) (h2 : S4x256.ShapeCasts S1x4x256) (r : Fin 4) (col : Fin 256) :
    shapeCast (s := S4x256) (α := Ideal .f32) S1x4x256 (shapeCast (s := S4x256x1) (α := Ideal .f32) S4x256
        (View.readAt (Elt Ideal) arg3.view (Rect.unit (s := S4x256x8) ![0, 0, k] S4x256x1.size inb).toLoadRect (harg3.unread x2)) h1) h2 (ix3 0 r col)
      = muB x2 r col k := by
  have hk : k < 8 := by have := inb 2; show k < 8; change k + 1 ≤ 8 at this; omega
  rw [muB, dif_pos hk]
  exact (sc_plane _ h1 h2 r col).trans (ld_mu arg3 harg3 x2 k hk inb r col)

/-- Channel `k` of the data block, loaded as a slab with its unit lane axis dropped, at `(n, r, col)`. -/
theorem x_slab {κ : Kind} (arg1 : Memref sig κ .vmem S64x4x256x16 .f32) (harg1 : arg1.IsWhole) (x0 : Vec Ideal S64x4x256x16 .f32)
    (k : Nat) (inb : ∀ a, (![0, 0, 0, k] : Fin 4 → Nat) a + S64x4x256x1.size a ≤ S64x4x256x16.size a)
    (h : S64x4x256x1.ShapeCasts S64x4x256) (n : Fin 64) (r : Fin 4) (col : Fin 256) :
    shapeCast (s := S64x4x256x1) (α := Ideal .f32) S64x4x256
        (View.readAt (Elt Ideal) arg1.view (Rect.unit (s := S64x4x256x16) ![0, 0, 0, k] S64x4x256x1.size inb).toLoadRect (harg1.unread x0)) h (ix3 n r col)
      = xB x0 n r col k := by
  have hk : k < 16 := by have := inb 3; show k < 16; change k + 1 ≤ 16 at this; omega
  rw [xB, dif_pos hk]
  exact (sc_drop _ h n r col).trans (ld_x arg1 harg1 x0 k hk inb n r col)

/-! ## The eight stored values -/

/-- The value stored into channel 15: entry 7 of the rotated vector. -/
theorem pay_ch15 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay1 (kernelRun0_A.sl.r_55 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 7 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 14: entry 6 of the rotated vector. -/
theorem pay_ch14 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay173 (kernelRun0_A.sl.r_59 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 6 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 13: entry 5 of the rotated vector. -/
theorem pay_ch13 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay172 (kernelRun0_A.sl.r_60 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 5 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 12: entry 4 of the rotated vector. -/
theorem pay_ch12 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay171 (kernelRun0_A.sl.r_62 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 4 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 11: entry 3 of the rotated vector. -/
theorem pay_ch11 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay170 (kernelRun0_A.sl.r_67 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 3 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 10: entry 2 of the rotated vector. -/
theorem pay_ch10 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay169 (kernelRun0_A.sl.r_68 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 2 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 9: entry 1 of the rotated vector. -/
theorem pay_ch9 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay168 (kernelRun0_A.sl.r_69 c arg1 harg1 arg2 harg2 arg3 harg3 x0 x1 x2) (ix4 n r col 0)
      = Wd (fun k => Ideal.cos (angB x1 r col k)) (fun k => Ideal.sin (angB x1 r col k)) (fun j => muB x2 r col j.val * xB x0 n r col (8 + j.val)) 28 1 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-- The value stored into channel 8: entry 0 of the rotated vector. -/
theorem pay_ch8 (c : Dev nD) (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole)
    (x0 : Vec Ideal S64x4x256x16 .f32) (x1 : Vec Ideal S4x256x28 .f32) (x2 : Vec Ideal S4x256x8 .f32)
    (n : Fin 64) (r : Fin 4) (col : Fin 256) :
    k0_pay167 (kernelRun0_A.sl.r_51 c arg1 harg1 arg2 harg2 arg3 harg3 x0 x1 x2)
        (kernelRun0_A.sl.r_52 c arg1 harg1 arg2 harg2 arg3 harg3 x0 x1 x2)
        (kernelRun0_A.sl.r_53 c arg1 harg1 arg2 harg2 arg3 harg3 x0 x1 x2)
        (kernelRun0_A.sl.r_65 c arg1 harg1 arg2 harg2 arg3 harg3 x0 x1 x2) (kernelRun0_A.sl.r_66 c arg2 harg2 x1)
        (View.readAt (Elt Ideal) arg2.view (Rect.unit (s := S4x256x28) ![0, 0, 1] S4x256x1.size inb_S4x256x28_S4x256x1_0_0_1).toLoadRect (harg2.unread x1))
        (View.readAt (Elt Ideal) arg2.view (Rect.unit (s := S4x256x28) ![0, 0, 0] S4x256x1.size inb_S4x256x28_S4x256x1_0_0_0).toLoadRect (harg2.unread x1)) (ix4 n r col 0)
      = Wd (fun k => Ideal.cos (angB x1 r col k)) (fun k => Ideal.sin (angB x1 r col k)) (fun j => muB x2 r col j.val * xB x0 n r col (8 + j.val)) 28 0 := by
  sl_unfold_run_names
  have ea0 := ang_plane arg2 harg2 x1 0 inb_S4x256x28_S4x256x1_0_0_0 shapeCasts_S4x256x1_S4x256 shapeCasts_S4x256_S1x4x256 r col
  have ea1 := ang_plane arg2 harg2 x1 1 inb_S4x256x28_S4x256x1_0_0_1 shapeCasts_S4x256x1_S4x256 shapeCasts_S4x256_S1x4x256 r col
  have ea2 := ang_plane arg2 harg2 x1 2 inb_S4x256x28_S4x256x1_0_0_2 shapeCasts_S4x256x1_S4x256 shapeCasts_S4x256_S1x4x256 r col
  have ea3 := ang_plane arg2 harg2 x1 3 inb_S4x256x28_S4x256x1_0_0_3 shapeCasts_S4x256x1_S4x256 shapeCasts_S4x256_S1x4x256 r col
  have ea4 := ang_plane arg2 harg2 x1 4 inb_S4x256x28_S4x256x1_0_0_4 shapeCasts_S4x256x1_S4x256 shapeCasts_S4x256_S1x4x256 r col
  have ea5 := ang_plane arg2 harg2 x1 5 inb_S4x256x28_S4x256x1_0_0_5 shapeCasts_S4x256x1_S4x256 shapeCasts_S4x256_S1x4x256 r col
  have ea6 := ang_plane arg2 harg2 x1 6 inb_S4x256x28_S4x256x1_0_0_6 shapeCasts_S4x256x1_S4x256 shapeCasts_S4x256_S1x4x256 r col
  have ea7 := ang_plane arg2 harg2 x1 7 inb_S4x256x28_S4x256x1_0_0_7 shapeCasts_S4x256x1_S4x256 shapeCasts_S4x256_S1x4x256 r col
  have ea8 := ang_plane arg2 harg2 x1 8 inb_S4x256x28_S4x256x1_0_0_8 shapeCasts_S4x256x1_S4x256 shapeCasts_S4x256_S1x4x256 r col
  have ea9 := ang_plane arg2 harg2 x1 9 inb_S4x256x28_S4x256x1_0_0_9 shapeCasts_S4x256x1_S4x256 shapeCasts_S4x256_S1x4x256 r col
  have ea10 := ang_plane arg2 harg2 x1 10 inb_S4x256x28_S4x256x1_0_0_10 shapeCasts_S4x256x1_S4x256 shapeCasts_S4x256_S1x4x256 r col
  have ea11 := ang_plane arg2 harg2 x1 11 inb_S4x256x28_S4x256x1_0_0_11 shapeCasts_S4x256x1_S4x256 shapeCasts_S4x256_S1x4x256 r col
  have ea12 := ang_plane arg2 harg2 x1 12 inb_S4x256x28_S4x256x1_0_0_12 shapeCasts_S4x256x1_S4x256 shapeCasts_S4x256_S1x4x256 r col
  have ea13 := ang_plane arg2 harg2 x1 13 inb_S4x256x28_S4x256x1_0_0_13 shapeCasts_S4x256x1_S4x256 shapeCasts_S4x256_S1x4x256 r col
  have ea14 := ang_plane arg2 harg2 x1 14 inb_S4x256x28_S4x256x1_0_0_14 shapeCasts_S4x256x1_S4x256 shapeCasts_S4x256_S1x4x256 r col
  have ea15 := ang_plane arg2 harg2 x1 15 inb_S4x256x28_S4x256x1_0_0_15 shapeCasts_S4x256x1_S4x256 shapeCasts_S4x256_S1x4x256 r col
  have ea16 := ang_plane arg2 harg2 x1 16 inb_S4x256x28_S4x256x1_0_0_16 shapeCasts_S4x256x1_S4x256 shapeCasts_S4x256_S1x4x256 r col
  have ea17 := ang_plane arg2 harg2 x1 17 inb_S4x256x28_S4x256x1_0_0_17 shapeCasts_S4x256x1_S4x256 shapeCasts_S4x256_S1x4x256 r col
  have ea18 := ang_plane arg2 harg2 x1 18 inb_S4x256x28_S4x256x1_0_0_18 shapeCasts_S4x256x1_S4x256 shapeCasts_S4x256_S1x4x256 r col
  have ea19 := ang_plane arg2 harg2 x1 19 inb_S4x256x28_S4x256x1_0_0_19 shapeCasts_S4x256x1_S4x256 shapeCasts_S4x256_S1x4x256 r col
  have ea20 := ang_plane arg2 harg2 x1 20 inb_S4x256x28_S4x256x1_0_0_20 shapeCasts_S4x256x1_S4x256 shapeCasts_S4x256_S1x4x256 r col
  have ea21 := ang_plane arg2 harg2 x1 21 inb_S4x256x28_S4x256x1_0_0_21 shapeCasts_S4x256x1_S4x256 shapeCasts_S4x256_S1x4x256 r col
  have ea22 := ang_plane arg2 harg2 x1 22 inb_S4x256x28_S4x256x1_0_0_22 shapeCasts_S4x256x1_S4x256 shapeCasts_S4x256_S1x4x256 r col
  have ea23 := ang_plane arg2 harg2 x1 23 inb_S4x256x28_S4x256x1_0_0_23 shapeCasts_S4x256x1_S4x256 shapeCasts_S4x256_S1x4x256 r col
  have ea24 := ang_plane arg2 harg2 x1 24 inb_S4x256x28_S4x256x1_0_0_24 shapeCasts_S4x256x1_S4x256 shapeCasts_S4x256_S1x4x256 r col
  have ea25 := ang_plane arg2 harg2 x1 25 inb_S4x256x28_S4x256x1_0_0_25 shapeCasts_S4x256x1_S4x256 shapeCasts_S4x256_S1x4x256 r col
  have ea26 := ang_plane arg2 harg2 x1 26 inb_S4x256x28_S4x256x1_0_0_26 shapeCasts_S4x256x1_S4x256 shapeCasts_S4x256_S1x4x256 r col
  have ea27 := ang_plane arg2 harg2 x1 27 inb_S4x256x28_S4x256x1_0_0_27 shapeCasts_S4x256x1_S4x256 shapeCasts_S4x256_S1x4x256 r col
  have em0 := mu_plane arg3 harg3 x2 0 inb_S4x256x8_S4x256x1_0_0_0 shapeCasts_S4x256x1_S4x256 shapeCasts_S4x256_S1x4x256 r col
  have em1 := mu_plane arg3 harg3 x2 1 inb_S4x256x8_S4x256x1_0_0_1 shapeCasts_S4x256x1_S4x256 shapeCasts_S4x256_S1x4x256 r col
  have em2 := mu_plane arg3 harg3 x2 2 inb_S4x256x8_S4x256x1_0_0_2 shapeCasts_S4x256x1_S4x256 shapeCasts_S4x256_S1x4x256 r col
  have em3 := mu_plane arg3 harg3 x2 3 inb_S4x256x8_S4x256x1_0_0_3 shapeCasts_S4x256x1_S4x256 shapeCasts_S4x256_S1x4x256 r col
  have em4 := mu_plane arg3 harg3 x2 4 inb_S4x256x8_S4x256x1_0_0_4 shapeCasts_S4x256x1_S4x256 shapeCasts_S4x256_S1x4x256 r col
  have em5 := mu_plane arg3 harg3 x2 5 inb_S4x256x8_S4x256x1_0_0_5 shapeCasts_S4x256x1_S4x256 shapeCasts_S4x256_S1x4x256 r col
  have em6 := mu_plane arg3 harg3 x2 6 inb_S4x256x8_S4x256x1_0_0_6 shapeCasts_S4x256x1_S4x256 shapeCasts_S4x256_S1x4x256 r col
  have em7 := mu_plane arg3 harg3 x2 7 inb_S4x256x8_S4x256x1_0_0_7 shapeCasts_S4x256x1_S4x256 shapeCasts_S4x256_S1x4x256 r col
  have ex8 := x_slab arg1 harg1 x0 8 inb_S64x4x256x16_S64x4x256x1_0_0_0_8 shapeCasts_S64x4x256x1_S64x4x256 n r col
  have ex9 := x_slab arg1 harg1 x0 9 inb_S64x4x256x16_S64x4x256x1_0_0_0_9 shapeCasts_S64x4x256x1_S64x4x256 n r col
  have ex10 := x_slab arg1 harg1 x0 10 inb_S64x4x256x16_S64x4x256x1_0_0_0_10 shapeCasts_S64x4x256x1_S64x4x256 n r col
  have ex11 := x_slab arg1 harg1 x0 11 inb_S64x4x256x16_S64x4x256x1_0_0_0_11 shapeCasts_S64x4x256x1_S64x4x256 n r col
  have ex12 := x_slab arg1 harg1 x0 12 inb_S64x4x256x16_S64x4x256x1_0_0_0_12 shapeCasts_S64x4x256x1_S64x4x256 n r col
  have ex13 := x_slab arg1 harg1 x0 13 inb_S64x4x256x16_S64x4x256x1_0_0_0_13 shapeCasts_S64x4x256x1_S64x4x256 n r col
  have ex14 := x_slab arg1 harg1 x0 14 inb_S64x4x256x16_S64x4x256x1_0_0_0_14 shapeCasts_S64x4x256x1_S64x4x256 n r col
  have ex15 := x_slab arg1 harg1 x0 15 inb_S64x4x256x16_S64x4x256x1_0_0_0_15 shapeCasts_S64x4x256x1_S64x4x256 n r col
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, sc_add, bc_plane, mulf_apply, addf_apply, subf_apply, cos_apply', sin_apply', broadcast_apply, Ideal.ofBits_def, Ideal.ofBits_zero_f32, ea0, ea1, ea2, ea3, ea4, ea5, ea6, ea7, ea8, ea9, ea10, ea11, ea12, ea13, ea14, ea15, ea16, ea17, ea18, ea19, ea20, ea21, ea22, ea23, ea24, ea25, ea26, ea27, em0, em1, em2, em3, em4, em5, em6, em7, ex8, ex9, ex10, ex11, ex12, ex13, ex14, ex15]
  rfl

/-! ## The block -/

/-- The vector the rotations start from, spelt with the lane readers or with the blocks' own indices. -/
theorem start_eq (x0 : Vec Ideal S64x4x256x16 .f32) (x2 : Vec Ideal S4x256x8 .f32) (n : Fin 64) (r : Fin 4) (col : Fin 256) :
    (fun j : Fin 8 => muB x2 r col j.val * xB x0 n r col (8 + j.val))
      = fun j : Fin 8 => x2 (ix3 r col j) * x0 (ix4 n r col (up j)) := by
  funext j
  have h1 : j.val < 8 := j.isLt
  have h2 : 8 + j.val < 16 := by omega
  rw [muB, dif_pos h1, xB, dif_pos h2]
  rfl

/-- Channel `8 + j` of the block function is entry `j` of the rotated vector. -/
theorem Bat_hi (x0 : Vec Ideal S64x4x256x16 .f32) (x1 : Vec Ideal S4x256x28 .f32) (x2 : Vec Ideal S4x256x8 .f32)
    (n : Fin 64) (r : Fin 4) (col : Fin 256) (j : Fin 8) (ch : Fin 16) (hch : ch.val = 8 + j.val) :
    Bat x0 x1 x2 n r col ch
      = Wd (fun k => Ideal.cos (angB x1 r col k)) (fun k => Ideal.sin (angB x1 r col k))
          (fun j : Fin 8 => muB x2 r col j.val * xB x0 n r col (8 + j.val)) 28 j := by
  have hn : ¬ ch.val < 8 := by omega
  rw [start_eq, Bat, cell, dif_neg hn]
  congr 1
  exact Fin.ext (by show ch.val - 8 = j.val; omega)

/-- A channel below 8 of the block function is the data block itself. -/
theorem Bat_lo (x0 : Vec Ideal S64x4x256x16 .f32) (x1 : Vec Ideal S4x256x28 .f32) (x2 : Vec Ideal S4x256x8 .f32)
    (n : Fin 64) (r : Fin 4) (col : Fin 256) (ch : Fin 16) (hch : ch.val < 8) :
    Bat x0 x1 x2 n r col ch = x0 (ix4 n r col ch) := by
  rw [Bat, cell, dif_pos hch]

/-- The block function of a block index. -/
def Gb (x0 : Vec Ideal S64x4x256x16 .f32) (x1 : Vec Ideal S4x256x28 .f32) (x2 : Vec Ideal S4x256x8 .f32) :
    S64x4x256x16.Idx → EReal := fun y => Bat x0 x1 x2 (y 0) (y 1) (y 2) (y 3)

/-- A one-channel store's rectangle sends `(n, r, col, 0)` to `(n, r, col, k)`. -/
theorem emb_lane (k : Nat) (hk : k < 16) (inb : ∀ a, (![0, 0, 0, k] : Fin 4 → Nat) a + S64x4x256x1.size a ≤ S64x4x256x16.size a)
    (n : Fin 64) (r : Fin 4) (col : Fin 256) :
    (Rect.unit (s := S64x4x256x16) ![0, 0, 0, k] S64x4x256x1.size inb).emb (ix4 n r col 0) = ix4 n r col ⟨k, hk⟩ := by
  funext a
  apply Fin.ext
  match a with
  | ⟨0, _⟩ => show 0 + 1 * n.val = n.val; omega
  | ⟨1, _⟩ => show 0 + 1 * r.val = r.val; omega
  | ⟨2, _⟩ => show 0 + 1 * col.val = col.val; omega
  | ⟨3, _⟩ => show k + 1 * 0 = k; omega

/-- The eight-channel store's rectangle sends `(n, r, col, ch)` to itself. -/
theorem emb_low (n : Fin 64) (r : Fin 4) (col : Fin 256) (ch : Fin 8) :
    (Rect.unit (s := S64x4x256x16) ![0, 0, 0, 0] S64x4x256x8.size inb_S64x4x256x16_S64x4x256x8_0_0_0_0).emb (ix4 n r col ch)
      = ix4 n r col ⟨ch.val, by omega⟩ := by
  funext a
  apply Fin.ext
  match a with
  | ⟨0, _⟩ => show 0 + 1 * n.val = n.val; omega
  | ⟨1, _⟩ => show 0 + 1 * r.val = r.val; omega
  | ⟨2, _⟩ => show 0 + 1 * col.val = col.val; omega
  | ⟨3, _⟩ => show 0 + 1 * ch.val = ch.val; omega

/-- An index of a one-channel slab is `(n, r, col, 0)`. -/
theorem slab_idx (x : S64x4x256x1.Idx) : x = ix4 (x 0) (x 1) (x 2) 0 := by
  have h3 : x 3 = (0 : Fin 1) := Fin.ext (by have h : (x 3).val < 1 := (x 3).isLt; show (x 3).val = 0; omega)
  refine (eq_ix4 x).trans ?_
  rw [h3]
  rfl

/-- A one-channel store whose value at `(n, r, col, 0)` is entry `j` of the rotated vector writes the block function on
    its rectangle, channel `k = 8 + j`. -/
theorem piece_hi (x0 : Vec Ideal S64x4x256x16 .f32) (x1 : Vec Ideal S4x256x28 .f32) (x2 : Vec Ideal S4x256x8 .f32)
    (k : Nat) (hk : k < 16) (j : Fin 8) (hkj : k = 8 + j.val)
    (inb : ∀ a, (![0, 0, 0, k] : Fin 4 → Nat) a + S64x4x256x1.size a ≤ S64x4x256x16.size a) (v : S64x4x256x1.Idx → EReal)
    (hv : ∀ (n : Fin 64) (r : Fin 4) (col : Fin 256), v (ix4 n r col 0)
      = Wd (fun k => Ideal.cos (angB x1 r col k)) (fun k => Ideal.sin (angB x1 r col k))
          (fun j : Fin 8 => muB x2 r col j.val * xB x0 n r col (8 + j.val)) 28 j) :
    ∀ x : S64x4x256x1.Idx, v x = Gb x0 x1 x2 ((Rect.unit (s := S64x4x256x16) ![0, 0, 0, k] S64x4x256x1.size inb).emb x) := by
  intro x
  obtain ⟨n, r, col, rfl⟩ : ∃ (n : Fin 64) (r : Fin 4) (col : Fin 256), x = ix4 n r col 0 := ⟨x 0, x 1, x 2, slab_idx x⟩
  rw [emb_lane k hk inb n r col, hv n r col]
  exact (Bat_hi x0 x1 x2 n r col j ⟨k, hk⟩ hkj).symm

/-- The copy of the first eight channels writes the block function on its rectangle. -/
theorem piece_lo {κ : Kind} (arg1 : Memref sig κ .vmem S64x4x256x16 .f32) (harg1 : arg1.IsWhole)
    (x0 : Vec Ideal S64x4x256x16 .f32) (x1 : Vec Ideal S4x256x28 .f32) (x2 : Vec Ideal S4x256x8 .f32) :
    ∀ x : S64x4x256x8.Idx,
      View.readAt (Elt Ideal) arg1.view
          (Rect.unit (s := S64x4x256x16) ![0, 0, 0, 0] S64x4x256x8.size inb_S64x4x256x16_S64x4x256x8_0_0_0_0).toLoadRect (harg1.unread x0) x
        = Gb x0 x1 x2 ((Rect.unit (s := S64x4x256x16) ![0, 0, 0, 0] S64x4x256x8.size inb_S64x4x256x16_S64x4x256x8_0_0_0_0).emb x) := by
  intro x
  obtain ⟨n, r, col, ch, rfl⟩ : ∃ (n : Fin 64) (r : Fin 4) (col : Fin 256) (ch : Fin 8), x = ix4 n r col ch := ⟨x 0, x 1, x 2, x 3, eq_ix4 x⟩
  rw [View.readAt_eq_ld, harg1.read_unread]
  show x0 ((Rect.unit (s := S64x4x256x16) ![0, 0, 0, 0] S64x4x256x8.size inb_S64x4x256x16_S64x4x256x8_0_0_0_0).emb (ix4 n r col ch)) = _
  rw [emb_low n r col ch]
  exact (Bat_lo x0 x1 x2 n r col ⟨ch.val, by omega⟩ ch.isLt).symm

/-- Each of the body's nine stores writes the block function's values on its rectangle. -/
theorem pieces_eq (c : Dev nD) (i : grid0.Coords)
    (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole) (arg4 : Memref sig .tc .vmem S64x4x256x16 .f32) (harg4 : arg4.IsWhole)
    (x0 : Vec Ideal S64x4x256x16 .f32) (x1 : Vec Ideal S4x256x28 .f32) (x2 : Vec Ideal S4x256x8 .f32) :
    ∀ p ∈ (kernelRun0_A (F := Ideal) c i arg1 harg1 arg2 harg2 arg3 harg3 arg4 harg4 x0 x1 x2).1,
      ∀ x : p.1.shape.Idx, p.2 x = Gb x0 x1 x2 (p.1.emb x) := by
  unfold kernelRun0_A
  dsimp only
  intro p hp
  simp only [List.mem_cons, List.not_mem_nil, or_false] at hp
  rcases hp with rfl | rfl | rfl | rfl | rfl | rfl | rfl | rfl | rfl
  · exact piece_hi x0 x1 x2 15 (by omega) 7 rfl inb_S64x4x256x16_S64x4x256x1_0_0_0_15 _ (fun n r col => pay_ch15 c arg1 harg1 arg2 harg2 arg3 harg3 x0 x1 x2 n r col)
  · exact piece_hi x0 x1 x2 14 (by omega) 6 rfl inb_S64x4x256x16_S64x4x256x1_0_0_0_14 _ (fun n r col => pay_ch14 c arg1 harg1 arg2 harg2 arg3 harg3 x0 x1 x2 n r col)
  · exact piece_hi x0 x1 x2 13 (by omega) 5 rfl inb_S64x4x256x16_S64x4x256x1_0_0_0_13 _ (fun n r col => pay_ch13 c arg1 harg1 arg2 harg2 arg3 harg3 x0 x1 x2 n r col)
  · exact piece_hi x0 x1 x2 12 (by omega) 4 rfl inb_S64x4x256x16_S64x4x256x1_0_0_0_12 _ (fun n r col => pay_ch12 c arg1 harg1 arg2 harg2 arg3 harg3 x0 x1 x2 n r col)
  · exact piece_hi x0 x1 x2 11 (by omega) 3 rfl inb_S64x4x256x16_S64x4x256x1_0_0_0_11 _ (fun n r col => pay_ch11 c arg1 harg1 arg2 harg2 arg3 harg3 x0 x1 x2 n r col)
  · exact piece_hi x0 x1 x2 10 (by omega) 2 rfl inb_S64x4x256x16_S64x4x256x1_0_0_0_10 _ (fun n r col => pay_ch10 c arg1 harg1 arg2 harg2 arg3 harg3 x0 x1 x2 n r col)
  · exact piece_hi x0 x1 x2 9 (by omega) 1 rfl inb_S64x4x256x16_S64x4x256x1_0_0_0_9 _ (fun n r col => pay_ch9 c arg1 harg1 arg2 harg2 arg3 harg3 x0 x1 x2 n r col)
  · exact piece_hi x0 x1 x2 8 (by omega) 0 rfl inb_S64x4x256x16_S64x4x256x1_0_0_0_8 _ (fun n r col => pay_ch8 c arg1 harg1 arg2 harg2 arg3 harg3 x0 x1 x2 n r col)
  · exact piece_lo arg1 harg1 x0 x1 x2

/-- The output block after the body, at sample `n`, row `r` of the block, column `col`, channel `ch`. -/
theorem out_block (c : Dev nD) (i : grid0.Coords)
    (arg1 : Memref sig .tc .vmem S64x4x256x16 .f32) (harg1 : arg1.IsWhole) (arg2 : Memref sig .tc .vmem S4x256x28 .f32) (harg2 : arg2.IsWhole)
    (arg3 : Memref sig .tc .vmem S4x256x8 .f32) (harg3 : arg3.IsWhole) (arg4 : Memref sig .tc .vmem S64x4x256x16 .f32) (harg4 : arg4.IsWhole)
    (x0 : Vec Ideal S64x4x256x16 .f32) (x1 : Vec Ideal S4x256x28 .f32) (x2 : Vec Ideal S4x256x8 .f32)
    (n : Fin 64) (r : Fin 4) (col : Fin 256) (ch : Fin 16) :
    out0_A_3 (F := Ideal) c i arg1 harg1 arg2 harg2 arg3 harg3 arg4 harg4 x0 x1 x2 (ix4 n r col ch)
      = Bat x0 x1 x2 n r col ch := by
  unfold out0_A_3
  rw [View.read_writes_eq_canon _ _ _ (cover0_A_3 c i arg1 harg1 arg2 harg2 arg3 harg3 arg4 harg4 x0 x1 x2)]
  exact View.canon_apply_of_pieces (Gb x0 x1 x2) _ (pieces_eq c i arg1 harg1 arg2 harg2 arg3 harg3 arg4 harg4 x0 x1 x2) (ix4 n r col ch)
    (cover0_A_3 c i arg1 harg1 arg2 harg2 arg3 harg3 arg4 harg4 x0 x1 x2 (ix4 n r col ch))

end Cert.KernelIdeal.Blk

end
-- ==== Proof.KernelFinal.lean ====
/-
  From blocks to the array: grid point `t` of the kernel works on rows 4t … 4t + 3 of every sample; its output block is
  the function `Cert.Spec.Bat` of its three input blocks (KernelBlock.lean), which is the restriction of
  `Cert.Spec.G` of the whole argument arrays to those rows; the 64 blocks tile the array.  So after the run the
  result array is `G` of the arguments.
-/
import proofs.«109475_j41601053229316_1_alg».proof.Proof.Gen.KernelIdeal.Value
import proofs.«109475_j41601053229316_1_alg».proof.Proof.Spec
import proofs.«109475_j41601053229316_1_alg».proof.Proof.KernelBlock
import Idealize.ShloMosaic.Lib.ValueIdx
import Idealize.ShloMosaic.Lib.ValueLayout

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The printed index maps over the grid: every window's block moves along the row axis with the point and sits at
    block 0 on the other axes. -/
private theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 4) = 0 ∧ win0_3.index t (1 : Fin 4) = t.val ∧ win0_3.index t (2 : Fin 4) = 0 ∧ win0_3.index t (3 : Fin 4) = 0 :=
  (by decide +kernel : ∀ t : Fin grid0.N, _)

/-- A block of four rows computes at its row r what the whole arrays compute at the row R it is a copy of. -/
private theorem Bat_eq_Gat (X : (⟨4, ![64, 256, 256, 16]⟩ : Shape).Idx → EReal) (A : (⟨2, ![65536, 28]⟩ : Shape).Idx → EReal)
    (M : (⟨2, ![65536, 8]⟩ : Shape).Idx → EReal)
    (x0 : (⟨4, ![64, 4, 256, 16]⟩ : Shape).Idx → EReal) (x1 : (⟨3, ![4, 256, 28]⟩ : Shape).Idx → EReal)
    (x2 : (⟨3, ![4, 256, 8]⟩ : Shape).Idx → EReal) (n : Fin 64) (R : Fin 256) (r : Fin 4) (col : Fin 256)
    (h0 : ∀ ch' : Fin 16, x0 (ix4 n r col ch') = X (ix4 n R col ch'))
    (h1 : ∀ k : Fin 28, x1 (ix3 r col k) = A (ix2 (blkOf R col) k))
    (h2 : ∀ j : Fin 8, x2 (ix3 r col j) = M (ix2 (blkOf R col) j)) (ch : Fin 16) :
    Bat x0 x1 x2 n r col ch = Gat X A M n R col ch := by
  have e0 : (fun ch' => x0 (ix4 n r col ch')) = fun ch' => X (ix4 n R col ch') := funext h0
  have e1 : angB x1 r col = angAt A (blkOf R col) := by
    funext k
    unfold angB angAt
    split
    · exact h1 _
    · rfl
  have e2 : (fun j => x2 (ix3 r col j)) = fun j => M (ix2 (blkOf R col) j) := funext h2
  unfold Bat Gat
  rw [e0, e1, e2]

/-- Entry (n, r, col, ch) of the block of X at point t is X at row 4t + r. -/
private theorem blk0_apply (c : Dev nD) (t : Fin cfg0.N) (n : Fin 64) (r : Fin 4) (col : Fin 256) (ch : Fin 16) (R : Fin 256)
    (hR : R.val = 4 * t.val + r.val) :
    (iblk m c 0 t : Vec Ideal S64x4x256x16 .f32) (ix4 n r col ch)
      = (V m c main_arg0 : S64x256x256x16.Idx → EReal) (ix4 n R col ch) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 64 + 1 * n.val = n.val; omega
  | ⟨1, _⟩ => show win0_0.index t (1 : Fin 4) * 4 + 1 * r.val = R.val; omega
  | ⟨2, _⟩ => show win0_0.index t (2 : Fin 4) * 256 + 1 * col.val = col.val; omega
  | ⟨3, _⟩ => show win0_0.index t (3 : Fin 4) * 16 + 1 * ch.val = ch.val; omega

/-- Entry (r, col, k) of the block of the reshaped angles at point t is the reshaped array at row 4t + r. -/
private theorem blk1_apply (c : Dev nD) (t : Fin cfg0.N) (r : Fin 4) (col : Fin 256) (k : Fin 28) (R : Fin 256)
    (hR : R.val = 4 * t.val + r.val) :
    (iblk m c 1 t : Vec Ideal S4x256x28 .f32) (ix3 r col k)
      = (V m c main_v0 : S256x256x28.Idx → EReal) (ix3 R col k) := by
  obtain ⟨-, -, -, -, e0, e1, e2, -⟩ := idx_facts t
  unfold iblk
  rw [View.read_apply]
  show V m c main_v0 _ = V m c main_v0 _
  congr 1
  funext a
  apply Fin.ext
  match a with
  | ⟨0, _⟩ => show win0_1.index t (0 : Fin 3) * 4 + 1 * r.val = R.val; omega
  | ⟨1, _⟩ => show win0_1.index t (1 : Fin 3) * 256 + 1 * col.val = col.val; omega
  | ⟨2, _⟩ => show win0_1.index t (2 : Fin 3) * 28 + 1 * k.val = k.val; omega

/-- Entry (r, col, j) of the block of the reshaped sign factors at point t is the reshaped array at row 4t + r. -/
private theorem blk2_apply (c : Dev nD) (t : Fin cfg0.N) (r : Fin 4) (col : Fin 256) (j : Fin 8) (R : Fin 256)
    (hR : R.val = 4 * t.val + r.val) :
    (iblk m c 2 t : Vec Ideal S4x256x8 .f32) (ix3 r col j)
      = (V m c main_v1 : S256x256x8.Idx → EReal) (ix3 R col j) := by
  obtain ⟨-, -, -, -, -, -, -, e0, e1, e2, -⟩ := idx_facts t
  unfold iblk
  rw [View.read_apply]
  show V m c main_v1 _ = V m c main_v1 _
  congr 1
  funext a
  apply Fin.ext
  match a with
  | ⟨0, _⟩ => show win0_2.index t (0 : Fin 3) * 4 + 1 * r.val = R.val; omega
  | ⟨1, _⟩ => show win0_2.index t (1 : Fin 3) * 256 + 1 * col.val = col.val; omega
  | ⟨2, _⟩ => show win0_2.index t (2 : Fin 3) * 8 + 1 * j.val = j.val; omega

/-- The region finds the angles reshaped: [65536, 28] read in row-major order at [256, 256, 28]. -/
private theorem V_v0 (c : Dev nD) :
    (V m c main_v0 : S256x256x28.Idx → EReal)
      = shapeCast S256x256x28 (m ((c : Thread nD τ).loc main_arg1) : S65536x28.Idx → EReal) shapeCasts_S65536x28_S256x256x28 := by
  dsimp only [Gen.V, Gen.hostOps0]
  after_results
  rfl

/-- The region finds the sign factors reshaped: [65536, 8] read in row-major order at [256, 256, 8]. -/
private theorem V_v1 (c : Dev nD) :
    (V m c main_v1 : S256x256x8.Idx → EReal)
      = shapeCast S256x256x8 (m ((c : Thread nD τ).loc main_arg2) : S65536x8.Idx → EReal) shapeCasts_S65536x8_S256x256x8 := by
  dsimp only [Gen.V, Gen.hostOps0]
  after_results
  rfl

/-- The reshaped angles at (R, col, k) are the angles of position 256·R + col. -/
private theorem ang_apply (c : Dev nD) (R col : Fin 256) (k : Fin 28) :
    (V m c main_v0 : S256x256x28.Idx → EReal) (ix3 R col k)
      = (m ((c : Thread nD τ).loc main_arg1) : S65536x28.Idx → EReal) (ix2 (blkOf R col) k) := by
  rw [V_v0]
  refine shapeCast_apply _ _ _ _ ?_
  show (S65536x28.rowMajor (ix2 (blkOf R col) k)).val = (S256x256x28.rowMajor (ix3 R col k)).val
  rw [Shape.rowMajor_val_two, Shape.rowMajor_val_three]
  rfl

/-- The reshaped sign factors at (R, col, j) are those of position 256·R + col. -/
private theorem sgn_apply (c : Dev nD) (R col : Fin 256) (j : Fin 8) :
    (V m c main_v1 : S256x256x8.Idx → EReal) (ix3 R col j)
      = (m ((c : Thread nD τ).loc main_arg2) : S65536x8.Idx → EReal) (ix2 (blkOf R col) j) := by
  rw [V_v1]
  refine shapeCast_apply _ _ _ _ ?_
  show (S65536x8.rowMajor (ix2 (blkOf R col) j)).val = (S256x256x8.rowMajor (ix3 R col j)).val
  rw [Shape.rowMajor_val_two, Shape.rowMajor_val_three]
  rfl

/-- What point t writes back is block t (rows 4t … 4t + 3) of G of the argument arrays. -/
private theorem flushed_eq (c : Dev nD) (t : Fin cfg0.N) :
    (dats m 0 c).flushed 3 t = ((cfg0.win 3).blk t).view.read (Elt Ideal)
      (G (V m c main_arg0) (m ((c : Thread nD τ).loc main_arg1)) (m ((c : Thread nD τ).loc main_arg2))) := by
  rw [flushed3_A]
  obtain ⟨-, -, -, -, -, -, -, -, -, -, e0, e1, e2, e3⟩ := idx_facts t
  have hN : cfg0.N = 64 := N_0
  have ht : t.val < 64 := hN ▸ t.isLt
  refine funext fun (y : S64x4x256x16.Idx) => ?_
  obtain ⟨n, r, col, ch, rfl⟩ : ∃ (n : Fin 64) (r : Fin 4) (col : Fin 256) (ch : Fin 16), y = ix4 n r col ch :=
    ⟨y 0, y 1, y 2, y 3, eq_ix4 y⟩
  have hr : r.val < 4 := r.isLt
  have hemb : ((cfg0.win 3).blk t).view.emb (ix4 n r col ch) = ix4 n (⟨4 * t.val + r.val, by omega⟩ : Fin 256) col ch := by
    funext a
    apply Fin.ext
    match a with
    | ⟨0, _⟩ => show win0_3.index t (0 : Fin 4) * 64 + 1 * n.val = n.val; omega
    | ⟨1, _⟩ => show win0_3.index t (1 : Fin 4) * 4 + 1 * r.val = 4 * t.val + r.val; omega
    | ⟨2, _⟩ => show win0_3.index t (2 : Fin 4) * 256 + 1 * col.val = col.val; omega
    | ⟨3, _⟩ => show win0_3.index t (3 : Fin 4) * 16 + 1 * ch.val = ch.val; omega
  show out0_A_3 (F := Ideal) c (grid0.coords t) (ms0_0 t) (hs0_0 t) (ms0_1 t) (hs0_1 t) (ms0_2 t) (hs0_2 t) (ms0_3 t) (hs0_3 t)
      (iblk m c 0 t) (iblk m c 1 t) (iblk m c 2 t) (ix4 n r col ch)
    = G (V m c main_arg0) (m ((c : Thread nD τ).loc main_arg1)) (m ((c : Thread nD τ).loc main_arg2))
        (((cfg0.win 3).blk t).view.emb (ix4 n r col ch))
  rw [Blk.out_block, hemb]
  show Bat _ _ _ n r col ch = Gat _ _ _ n ⟨4 * t.val + r.val, by omega⟩ col ch
  refine Bat_eq_Gat _ _ _ _ _ _ n _ r col (fun ch' => ?_) (fun k => ?_) (fun j => ?_) ch
  · exact blk0_apply m c t n r col ch' _ rfl
  · exact (blk1_apply m c t r col k _ rfl).trans (ang_apply m c _ col k)
  · exact (blk2_apply m c t r col j _ rfl).trans (sgn_apply m c _ col j)

/-- An index of the array is in point t's block iff each coordinate is in the block's range on its axis. -/
private theorem mem_blk (t : Fin cfg0.N) (i : S64x256x256x16.Idx) :
    i ∈ ((cfg0.win 3).blk t).view.set ↔ ∀ a : Fin 4, win0_3.index t a * S64x4x256x16.size a ≤ (i a).val ∧ (i a).val < win0_3.index t a * S64x4x256x16.size a + S64x4x256x16.size a := by
  show i ∈ ((View.whole main_v2).slice (win0_3.rect t)).set ↔ _
  rw [View.set_slice_whole, Rect.mem_set_unit]
  exact Iff.rfl

/-- The 64 blocks of four rows cover the array: row R is in the block of point R / 4. -/
private theorem cover (i : S64x256x256x16.Idx) :
    ∃ t : Fin cfg0.N, (cfg0.win 3).flush t = true ∧ i ∈ ((cfg0.win 3).blk t).view.set := by
  have hN : cfg0.N = 64 := N_0
  have hi0 : (i 0).val < 64 := (i 0).isLt
  have hi1 : (i 1).val < 256 := (i 1).isLt
  have hi2 : (i 2).val < 256 := (i 2).isLt
  have hi3 : (i 3).val < 16 := (i 3).isLt
  let t : Fin cfg0.N := ⟨(i 1).val / 4, by rw [hN]; omega⟩
  have htv : t.val = (i 1).val / 4 := rfl
  obtain ⟨-, -, -, -, -, -, -, -, -, -, e0, e1, e2, e3⟩ := idx_facts t
  refine ⟨t, flush0_3 t, ?_⟩
  rw [mem_blk]
  intro a
  match a with
  | ⟨0, _⟩ => show win0_3.index t (0 : Fin 4) * 64 ≤ (i 0).val ∧ (i 0).val < win0_3.index t (0 : Fin 4) * 64 + 64; omega
  | ⟨1, _⟩ => show win0_3.index t (1 : Fin 4) * 4 ≤ (i 1).val ∧ (i 1).val < win0_3.index t (1 : Fin 4) * 4 + 4; omega
  | ⟨2, _⟩ => show win0_3.index t (2 : Fin 4) * 256 ≤ (i 2).val ∧ (i 2).val < win0_3.index t (2 : Fin 4) * 256 + 256; omega
  | ⟨3, _⟩ => show win0_3.index t (3 : Fin 4) * 16 ≤ (i 3).val ∧ (i 3).val < win0_3.index t (3 : Fin 4) * 16 + 16; omega

/-- The result array after the run is `G` of the three argument arrays. -/
theorem final (c : Dev nD) :
    (dats m 0 c).arrAt 3 cfg0.N
      = G (m ((c : Thread nD τ).loc main_arg0)) (m ((c : Thread nD τ).loc main_arg1)) (m ((c : Thread nD τ).loc main_arg2)) := by
  have h := (dats m 0 c).arrAt_eq_of_cover 3
    (G (V m c main_arg0) (m ((c : Thread nD τ).loc main_arg1)) (m ((c : Thread nD τ).loc main_arg2)))
    (fun t _ => flushed_eq m c t) cover
  rw [V_main_arg0 m c] at h
  exact h

/-- The kernel's run with its result named: `G` of the arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.ScatterRow.lean ====
/-
  Writing one row of every 8×8 matrix in a stack of 65536 of them: the scatter whose one index names a row `r`
  of axis 1 and whose updates are a `[65536, 8]` array replaces entry `(b, r, i)` by update `(b, i)` and keeps
  every other entry.
-/
import proofs.«109475_j41601053229316_1_alg».proof.Proof.Gen.ReferenceIdeal
import Idealize.ShloMosaic.Lib.ValueIdx

noncomputable section

namespace Cert.ReferenceIdeal.ScatterRow

open Cert.ReferenceIdeal Cert.ReferenceIdeal.Gen Idealize.ShloMosaic Idealize.ShloMosaic.ValueIdx

/-- A left fold of overwriting steps (step `n` writes `upd n` at position `g n` and keeps the rest), read at one position `k`:
    if every step that lands on `k` writes the value `v`, and either the start already holds `v` at `k` or some step
    lands on `k`, the fold holds `v` at `k`. -/
private theorem foldl_overwrite_hit {ι κ α : Type} [DecidableEq κ] (step : (κ → α) → ι → κ → α) (g : ι → κ)
    (upd : ι → α) (hstep : ∀ r n i', step r n i' = if i' = g n then upd n else r i') (k : κ) (v : α) :
    ∀ (L : List ι) (x : κ → α), (∀ n ∈ L, g n = k → upd n = v) → (x k = v ∨ ∃ n ∈ L, g n = k) →
      L.foldl step x k = v := by
  intro L
  induction L with
  | nil =>
    intro x _ h
    rcases h with h | ⟨n, hn, _⟩
    · exact h
    · exact absurd hn (List.not_mem_nil)
  | cons n L ih =>
    intro x hall h
    rw [List.foldl_cons]
    apply ih
    · intro m hm; exact hall m (List.mem_cons_of_mem _ hm)
    · by_cases hgn : g n = k
      · left
        rw [hstep, if_pos hgn.symm]
        exact hall n (List.mem_cons_self) hgn
      · have hkn : ¬ k = g n := fun e => hgn e.symm
        rcases h with h | ⟨m, hm, hgm⟩
        · left; rw [hstep, if_neg hkn]; exact h
        · right
          rcases List.mem_cons.1 hm with rfl | hm'
          · exact absurd hgm hgn
          · exact ⟨m, hm', hgm⟩

/-- The same fold read at a position no step lands on: the start's value there. -/
private theorem foldl_overwrite_miss {ι κ α : Type} [DecidableEq κ] (step : (κ → α) → ι → κ → α) (g : ι → κ)
    (upd : ι → α) (hstep : ∀ r n i', step r n i' = if i' = g n then upd n else r i') (k : κ) :
    ∀ (L : List ι) (x : κ → α), (∀ n ∈ L, g n ≠ k) → L.foldl step x k = x k := by
  intro L
  induction L with
  | nil => intro x _; rfl
  | cons n L ih =>
    intro x hall
    rw [List.foldl_cons, ih _ (fun m hm => hall m (List.mem_cons_of_mem _ hm))]
    have hkn : ¬ k = g n := fun e => hall n (List.mem_cons_self) e.symm
    rw [hstep, if_neg hkn]

/-- A scatter whose body returns the update and whose every update index `y` lands inside the operand, at `g y`, read
    at a position `k` that some update lands on, all the updates landing there carrying the value `v`: it reads `v`. -/
private theorem scatter_hit {s si u : Shape} {w : Nat} {α : Type} (d : ScatterDims s si u) (x : s.Idx → α)
    (idx : IVec si w) (upd : u.Idx → α) (g : u.Idx → s.Idx) (hg : ∀ y, d.resultIdx? y idx = some (g y))
    (k : s.Idx) (v : α) (hall : ∀ y, g y = k → upd y = v) (y₀ : u.Idx) (hy₀ : g y₀ = k) :
    Host.scatter d (fun _ b => b) x idx upd k = v := by
  unfold Host.scatter
  refine foldl_overwrite_hit _ (fun n => g (u.rowMajor.symm n)) (fun n => upd (u.rowMajor.symm n)) ?_ k v _ x ?_ ?_
  · intro r' n i'
    rw [hg]
  · intro n _ hn
    exact hall _ hn
  · right
    refine ⟨u.rowMajor y₀, List.mem_finRange _, ?_⟩
    show g (u.rowMajor.symm (u.rowMajor y₀)) = k
    rw [Equiv.symm_apply_apply]
    exact hy₀

/-- The same scatter read at a position no update lands on: the operand there. -/
private theorem scatter_miss {s si u : Shape} {w : Nat} {α : Type} (d : ScatterDims s si u) (x : s.Idx → α)
    (idx : IVec si w) (upd : u.Idx → α) (g : u.Idx → s.Idx) (hg : ∀ y, d.resultIdx? y idx = some (g y))
    (k : s.Idx) (hno : ∀ y, g y ≠ k) :
    Host.scatter d (fun _ b => b) x idx upd k = x k := by
  unfold Host.scatter
  refine foldl_overwrite_miss _ (fun n => g (u.rowMajor.symm n)) (fun n => upd (u.rowMajor.symm n)) ?_ k _ x ?_
  · intro r' n i'
    rw [hg]
  · intro n _
    exact hno _

/-- Where update index `y` lands at the one scatter index `r` (below 8): the start is `r` on axis 1 (read signed,
    which for a word below 8 is its value) and 0 on the window axes 0 and 2, the window coordinate is `y 0` on axis
    0, `y 1` on axis 2 and 0 on the inserted axis 1; the sum is inside the operand, at row `r` of matrix `y 0`,
    column `y 1`. -/
private theorem resultIdx_eq (r : BitVec 32) (hr : r.toNat < 8) (y : S65536x8.Idx) :
    scatter_S65536x8x8_S1_S65536x8_01_1_1_0.resultIdx? y (broadcastInDim S1 ![] bcast_S_S1 (constantI S_ 32 r))
      = some (ix3 (y 0) ⟨r.toNat, hr⟩ (y 1)) := by
  have hrI : r.toInt = (r.toNat : Int) := by
    unfold BitVec.toInt
    rw [if_pos (by omega)]
  have hs0 : scatter_S65536x8x8_S1_S65536x8_01_1_1_0.start y (broadcastInDim S1 ![] bcast_S_S1 (constantI S_ 32 r)) ⟨0, by decide⟩ = 0 := by
    unfold ScatterDims.start
    rw [dif_neg (by decide)]
  have hs1 : scatter_S65536x8x8_S1_S65536x8_01_1_1_0.start y (broadcastInDim S1 ![] bcast_S_S1 (constantI S_ 32 r)) ⟨1, by decide⟩ = (r.toNat : Int) := by
    unfold ScatterDims.start
    rw [dif_pos (by decide)]
    exact hrI
  have hs2 : scatter_S65536x8x8_S1_S65536x8_01_1_1_0.start y (broadcastInDim S1 ![] bcast_S_S1 (constantI S_ 32 r)) ⟨2, by decide⟩ = 0 := by
    unfold ScatterDims.start
    rw [dif_neg (by decide)]
  have hw0 : scatter_S65536x8x8_S1_S65536x8_01_1_1_0.window y ⟨0, by decide⟩ = (y 0).val := by
    unfold ScatterDims.window
    rw [dif_pos (by decide)]
    rfl
  have hw1 : scatter_S65536x8x8_S1_S65536x8_01_1_1_0.window y ⟨1, by decide⟩ = 0 := by
    unfold ScatterDims.window
    rw [dif_neg (by decide)]
  have hw2 : scatter_S65536x8x8_S1_S65536x8_01_1_1_0.window y ⟨2, by decide⟩ = (y 1).val := by
    unfold ScatterDims.window
    rw [dif_pos (by decide)]
    rfl
  have hy0 : (y 0).val < 65536 := idx2_lt0 y
  have hy1 : (y 1).val < 8 := idx2_lt1 y
  unfold ScatterDims.resultIdx?
  rw [dif_pos ?cond]
  case cond =>
    intro a
    match a with
    | ⟨0, _⟩ => rw [hs0, hw0]; show 0 ≤ (0 : Int) + ((y 0).val : Int) ∧ (0 : Int) + ((y 0).val : Int) < ((65536 : Nat) : Int); omega
    | ⟨1, _⟩ => rw [hs1, hw1]; show 0 ≤ (r.toNat : Int) + ((0 : Nat) : Int) ∧ (r.toNat : Int) + ((0 : Nat) : Int) < ((8 : Nat) : Int); omega
    | ⟨2, _⟩ => rw [hs2, hw2]; show 0 ≤ (0 : Int) + ((y 1).val : Int) ∧ (0 : Int) + ((y 1).val : Int) < ((8 : Nat) : Int); omega
  congr 1
  funext a
  apply Fin.ext
  match a with
  | ⟨0, h⟩ =>
    have h0' : (scatter_S65536x8x8_S1_S65536x8_01_1_1_0.start y (broadcastInDim S1 ![] bcast_S_S1 (constantI S_ 32 r)) ⟨0, h⟩
        + (scatter_S65536x8x8_S1_S65536x8_01_1_1_0.window y ⟨0, h⟩ : Int)).toNat = (y 0).val := by
      rw [hs0, hw0]; omega
    exact h0'
  | ⟨1, h⟩ =>
    have h1' : (scatter_S65536x8x8_S1_S65536x8_01_1_1_0.start y (broadcastInDim S1 ![] bcast_S_S1 (constantI S_ 32 r)) ⟨1, h⟩
        + (scatter_S65536x8x8_S1_S65536x8_01_1_1_0.window y ⟨1, h⟩ : Int)).toNat = r.toNat := by
      rw [hs1, hw1]; omega
    exact h1'
  | ⟨2, h⟩ =>
    have h2' : (scatter_S65536x8x8_S1_S65536x8_01_1_1_0.start y (broadcastInDim S1 ![] bcast_S_S1 (constantI S_ 32 r)) ⟨2, h⟩
        + (scatter_S65536x8x8_S1_S65536x8_01_1_1_0.window y ⟨2, h⟩ : Int)).toNat = (y 1).val := by
      rw [hs2, hw2]; omega
    exact h2'

/-- The scatter of a `[65536, 8]` update at the single row index `r < 8`, with the body that returns the update,
    read at `(b, j, i)`: the update at `(b, i)` on row `j = r`, the operand elsewhere. -/
theorem scatter_row {α : Type} (x : S65536x8x8.Idx → α) (r : BitVec 32) (hr : r.toNat < 8) (u : S65536x8.Idx → α)
    (b : Fin 65536) (j i : Fin 8) :
    Host.scatter scatter_S65536x8x8_S1_S65536x8_01_1_1_0 (fun _ b => b) x
        (broadcastInDim S1 ![] bcast_S_S1 (constantI S_ 32 r)) u (ix3 b j i)
      = if j.val = r.toNat then u (ix2 b i) else x (ix3 b j i) := by
  have h03 : 0 < 3 := by decide
  have h13 : 1 < 3 := by decide
  have h23 : 2 < 3 := by decide
  by_cases hj : j.val = r.toNat
  · rw [if_pos hj]
    -- the one update that lands on (b, r, i) is the update at (b, i)
    refine scatter_hit _ x _ u (fun y => (ix3 (y 0) ⟨r.toNat, hr⟩ (y 1) : S65536x8x8.Idx)) (resultIdx_eq r hr)
      (ix3 b j i) (u (ix2 b i)) ?_ (ix2 b i) ?_
    · intro y hy
      have h0 : y 0 = b := congrFun hy ⟨0, h03⟩
      have h2 : y 1 = i := congrFun hy ⟨2, h23⟩
      have hyy : y = ix2 b i := by
        funext a
        match a with
        | ⟨0, _⟩ => exact h0
        | ⟨1, _⟩ => exact h2
      rw [hyy]
    · have hjr : j = ⟨r.toNat, hr⟩ := Fin.ext hj
      rw [hjr]
  · rw [if_neg hj]
    -- every update lands on row r, none on row j
    refine scatter_miss _ x _ u (fun y => (ix3 (y 0) ⟨r.toNat, hr⟩ (y 1) : S65536x8x8.Idx)) (resultIdx_eq r hr)
      (ix3 b j i) ?_
    intro y hy
    have h1 : (⟨r.toNat, hr⟩ : Fin 8) = j := congrFun hy ⟨1, h13⟩
    exact hj (by rw [← h1])

end Cert.ReferenceIdeal.ScatterRow

end
-- ==== Proof.RefTail.lean ====
/-
  The last operations of the reference, read at one index.  With `Y[b, ch, n] = X[n, r, c, ch]` at position
  `b = 256·r + c` (a transpose and a reshape), the result is the transpose back of the concatenation, along the channel
  axis, of `Y`'s first 8 channels and the batched product `out[b, i, n] = ∑ⱼ (μ[b, j] · R[b, j, i]) · Y[b, 8 + j, n]`:
  channel `ch < 8` of the result is `X` itself, channel `8 + i` is that sum.
-/
import proofs.«109475_j41601053229316_1_alg».proof.Proof.Gen.ReferenceIdeal
import proofs.«109475_j41601053229316_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefTail

open Cert.ReferenceIdeal Cert.ReferenceIdeal.Gen Idealize.ShloMosaic Idealize.ShloMosaic.ValueIdx Cert.Spec

/-- `Y[256·r + c, ch, n] = X[n, r, c, ch]`. -/
theorem Y_apply (X : FVec Ideal S64x256x256x16 .f32) (n : Fin 64) (r c : Fin 256) (ch : Fin 16) :
    shapeCast S65536x16x64 (transpose S256x256x16x64 [1, 2, 3, 0] X transposes_S64x256x256x16_S256x256x16x64_1_2_3_0)
        shapeCasts_S256x256x16x64_S65536x16x64 (ix3 (blkOf r c) ch n)
      = X (ix4 n r c ch) := by
  refine (shapeCast_apply _ shapeCasts_S256x256x16x64_S65536x16x64 (ix3 (blkOf r c) ch n) (ix4 r c ch n) ?_).trans ?_
  · rw [Shape.rowMajor_val_four, Shape.rowMajor_val_three]
    rfl
  · refine transpose_apply [1, 2, 3, 0] X transposes_S64x256x256x16_S256x256x16x64_1_2_3_0 (ix4 r c ch n) (ix4 n r c ch) ?_
    intro b
    match b with
    | ⟨0, _⟩ => rfl
    | ⟨1, _⟩ => rfl
    | ⟨2, _⟩ => rfl
    | ⟨3, _⟩ => rfl

/-! The batched product's dimension numbers: batch axis 0 of both operands and of the result, contraction over axis 1 of
both, free axis 2 of each.  At result index `(b, i, n)` and contraction position `k` the left operand is read at
`(b, k, i)` and the right at `(b, k, n)`. -/

private abbrev D := dot_S65536x8x8_S65536x8x64_S65536x8x64_1_1_2_2_0_0

private theorem lhs_0 (j : S65536x8x64.Idx) (k : D.contr.Idx) : (D.lhsIdx j k 0 : ℕ) = j 0 := by
  simp [DotDims.lhsIdx, D, dot_S65536x8x8_S65536x8x64_S65536x8x64_1_1_2_2_0_0]; rfl
private theorem lhs_1 (j : S65536x8x64.Idx) (k : D.contr.Idx) : (D.lhsIdx j k 1 : ℕ) = k ⟨0, by decide⟩ := by
  simp [DotDims.lhsIdx, D, dot_S65536x8x8_S65536x8x64_S65536x8x64_1_1_2_2_0_0]; rfl
private theorem lhs_2 (j : S65536x8x64.Idx) (k : D.contr.Idx) : (D.lhsIdx j k 2 : ℕ) = j 1 := by
  simp [DotDims.lhsIdx, D, dot_S65536x8x8_S65536x8x64_S65536x8x64_1_1_2_2_0_0]; rfl
private theorem rhs_0 (j : S65536x8x64.Idx) (k : D.contr.Idx) : (D.rhsIdx j k 0 : ℕ) = j 0 := by
  simp [DotDims.rhsIdx, D, dot_S65536x8x8_S65536x8x64_S65536x8x64_1_1_2_2_0_0]; rfl
private theorem rhs_1 (j : S65536x8x64.Idx) (k : D.contr.Idx) : (D.rhsIdx j k 1 : ℕ) = k ⟨0, by decide⟩ := by
  simp [DotDims.rhsIdx, D, dot_S65536x8x8_S65536x8x64_S65536x8x64_1_1_2_2_0_0]; rfl
private theorem rhs_2 (j : S65536x8x64.Idx) (k : D.contr.Idx) : (D.rhsIdx j k 2 : ℕ) = j 2 := by
  simp [DotDims.rhsIdx, D, dot_S65536x8x8_S65536x8x64_S65536x8x64_1_1_2_2_0_0]; rfl

/-- The batched product at `(b, i, n)` is `∑ⱼ L[b, j, i] · Rr[b, j, n]`. -/
private theorem dot_apply (L : FVec Ideal S65536x8x8 .f32) (Rr : FVec Ideal S65536x8x64 .f32)
    (b : Fin 65536) (i : Fin 8) (n : Fin 64) :
    Host.dotGeneral (F := Ideal) D none L Rr (ix3 b i n) = ∑ j : Fin 8, L (ix3 b j i) * Rr (ix3 b j n) := by
  show FloatOps.dotGeneral D none .single L Rr (ix3 b i n) = _
  rw [Ideal.dotGeneral_apply, ← Equiv.sum_comp (contrEquiv1 D 8 rfl rfl).symm]
  refine Finset.sum_congr rfl fun j _ => ?_
  have hl : D.lhsIdx (ix3 b i n) ((contrEquiv1 D 8 rfl rfl).symm j) = ix3 b j i := by
    funext a
    apply Fin.ext
    match a with
    | ⟨0, _⟩ => exact lhs_0 _ _
    | ⟨1, _⟩ => exact (lhs_1 _ _).trans (contrEquiv1_symm_val D 8 rfl rfl j)
    | ⟨2, _⟩ => exact lhs_2 _ _
  have hr : D.rhsIdx (ix3 b i n) ((contrEquiv1 D 8 rfl rfl).symm j) = ix3 b j n := by
    funext a
    apply Fin.ext
    match a with
    | ⟨0, _⟩ => exact rhs_0 _ _
    | ⟨1, _⟩ => exact (rhs_1 _ _).trans (contrEquiv1_symm_val D 8 rfl rfl j)
    | ⟨2, _⟩ => exact rhs_2 _ _
  rw [hl, hr]

/-- The reference's last operations at `(n, r, c, ch)`: `X` on the first 8 channels, the batched product on the last 8. -/
theorem tail_apply (X : FVec Ideal S64x256x256x16 .f32) (Mu : FVec Ideal S65536x8 .f32) (R : FVec Ideal S65536x8x8 .f32)
    (n : Fin 64) (r c : Fin 256) (ch : Fin 16) :
    transpose S64x256x256x16 [3, 0, 1, 2]
      (shapeCast S256x256x16x64
        (concatenate S65536x16x64 1
          [⟨S65536x8x64, (extractStridedSlice S65536x8x64 ![0, 0, 0]
              (shapeCast S65536x16x64 (transpose S256x256x16x64 [1, 2, 3, 0] X transposes_S64x256x256x16_S256x256x16x64_1_2_3_0)
                shapeCasts_S256x256x16x64_S65536x16x64) slices_S65536x16x64_S65536x8x64_0_0_0)⟩,
           ⟨S65536x8x64, (Host.dotGeneral dot_S65536x8x8_S65536x8x64_S65536x8x64_1_1_2_2_0_0 none
              (mulf (broadcastInDim S65536x8x8 ![0, 1, 2] bcast_S65536x8x1_S65536x8x8_0_1_2
                (broadcastInDim S65536x8x1 ![0, 1] bcast_S65536x8_S65536x8x1_0_1 Mu)) R)
              (extractStridedSlice S65536x8x64 ![0, 8, 0]
                (shapeCast S65536x16x64 (transpose S256x256x16x64 [1, 2, 3, 0] X transposes_S64x256x256x16_S256x256x16x64_1_2_3_0)
                  shapeCasts_S256x256x16x64_S65536x16x64) slices_S65536x16x64_S65536x8x64_0_8_0))⟩]
          concatenates_S65536x8x64_S65536x8x64_S65536x16x64_d1)
        shapeCasts_S65536x16x64_S256x256x16x64)
      transposes_S256x256x16x64_S64x256x256x16_3_0_1_2 (ix4 n r c ch)
    = if h : ch.val < 8 then X (ix4 n r c ch)
      else ∑ j : Fin 8, (Mu (ix2 (blkOf r c) j) * R (ix3 (blkOf r c) j ⟨ch.val - 8, by omega⟩)) * X (ix4 n r c (up j)) := by
  -- the transpose back and the reshape: position `(n, r, c, ch)` reads the concatenation at `(256·r + c, ch, n)`
  refine (transpose_apply [3, 0, 1, 2] _ transposes_S256x256x16x64_S64x256x256x16_3_0_1_2 (ix4 n r c ch) (ix4 r c ch n) ?_).trans ?_
  · intro b
    match b with
    | ⟨0, _⟩ => rfl
    | ⟨1, _⟩ => rfl
    | ⟨2, _⟩ => rfl
    | ⟨3, _⟩ => rfl
  refine (shapeCast_apply _ shapeCasts_S65536x16x64_S256x256x16x64 (ix4 r c ch n) (ix3 (blkOf r c) ch n) ?_).trans ?_
  · rw [Shape.rowMajor_val_four, Shape.rowMajor_val_three]
    rfl
  by_cases h : ch.val < 8
  · -- a channel below 8 falls in the first piece: the slice of `Y` from channel 0
    rw [dif_pos h]
    refine (concatenate_pair_apply_left (t := S65536x16x64) (s₁ := S65536x8x64) (s₂ := S65536x8x64) (1 : Fin 3) _ _ concatenates_S65536x8x64_S65536x8x64_S65536x16x64_d1
      (ix3 (blkOf r c) ch n) rfl (ix3 (blkOf r c) (⟨ch.val, h⟩ : Fin 8) n) ?_).trans ?_
    · intro b
      match b with
      | ⟨0, _⟩ => rfl
      | ⟨1, _⟩ => rfl
      | ⟨2, _⟩ => rfl
    refine (slice3_axis1_apply 0 _ slices_S65536x16x64_S65536x8x64_0_0_0 (blkOf r c) (⟨ch.val, h⟩ : Fin 8) n ch
      (Nat.zero_add _).symm).trans ?_
    exact Y_apply X n r c ch
  · -- a channel `8 + i` falls in the second piece, at `i`: the batched product
    rw [dif_neg h]
    have hi : ch.val - 8 < 8 := by omega
    refine (concatenate_pair_apply_right (t := S65536x16x64) (s₁ := S65536x8x64) (s₂ := S65536x8x64) (1 : Fin 3) _ _ concatenates_S65536x8x64_S65536x8x64_S65536x16x64_d1
      (ix3 (blkOf r c) ch n) rfl rfl (ix3 (blkOf r c) (⟨ch.val - 8, hi⟩ : Fin 8) n) ?_ ?_).trans ?_
    · intro b hb
      match b with
      | ⟨0, _⟩ => rfl
      | ⟨1, _⟩ => exact absurd rfl hb
      | ⟨2, _⟩ => rfl
    · show ch.val - 8 + 8 = ch.val
      omega
    refine (dot_apply _ _ (blkOf r c) ⟨ch.val - 8, hi⟩ n).trans ?_
    refine Finset.sum_congr rfl fun j _ => ?_
    -- the left factor: `μ` broadcast along the last axis, times `R`
    have hL : mulf (broadcastInDim S65536x8x8 ![0, 1, 2] bcast_S65536x8x1_S65536x8x8_0_1_2
          (broadcastInDim S65536x8x1 ![0, 1] bcast_S65536x8_S65536x8x1_0_1 Mu)) R (ix3 (blkOf r c) j ⟨ch.val - 8, hi⟩)
        = Mu (ix2 (blkOf r c) j) * R (ix3 (blkOf r c) j ⟨ch.val - 8, hi⟩) := by
      rw [mulf_apply]
      congr 1
      refine (broadcastInDim_apply _ bcast_S65536x8x1_S65536x8x8_0_1_2 _ (ix3 (blkOf r c) j ⟨ch.val - 8, hi⟩)
        (ix3 (blkOf r c) j (0 : Fin 1)) ?_).trans ?_
      · intro a
        match a with
        | ⟨0, _⟩ => rfl
        | ⟨1, _⟩ => rfl
        | ⟨2, _⟩ => rfl
      refine broadcastInDim_apply _ bcast_S65536x8_S65536x8x1_0_1 Mu (ix3 (blkOf r c) j (0 : Fin 1)) (ix2 (blkOf r c) j) ?_
      intro a
      match a with
      | ⟨0, _⟩ => rfl
      | ⟨1, _⟩ => rfl
    -- the right factor: the slice of `Y` from channel 8
    have hR : extractStridedSlice S65536x8x64 ![0, 8, 0]
          (shapeCast S65536x16x64 (transpose S256x256x16x64 [1, 2, 3, 0] X transposes_S64x256x256x16_S256x256x16x64_1_2_3_0)
            shapeCasts_S256x256x16x64_S65536x16x64) slices_S65536x16x64_S65536x8x64_0_8_0 (ix3 (blkOf r c) j n)
        = X (ix4 n r c (up j)) :=
      (slice3_axis1_apply 8 _ slices_S65536x16x64_S65536x8x64_0_8_0 (blkOf r c) j n (up j) rfl).trans (Y_apply X n r c (up j))
    rw [hL, hR]

end Cert.ReferenceIdeal.RefTail

end
-- ==== Proof.RefSteps.lean ====
/-
  The reference's matrix, step by step.  The reference starts from the identity in every one of the 65536 positions and, for
  each pair (t, b) in order, replaces rows t and b by `c·R_t − s·R_b` and `s·R_t + c·R_b` (two row scatters), `c` and `s`
  the cosine and sine of that position's k-th angle.  Here: after step k the stack read at `(position, j, i)` is
  `Cert.Rot.Rk` at k + 1 steps; then the last operations (RefTail.lean) and, for real inputs, the identity of Rot.lean
  give the reference's result as `Cert.Spec.G` of the arguments.
-/
import proofs.«109475_j41601053229316_1_alg».proof.Proof.RefRun
import proofs.«109475_j41601053229316_1_alg».proof.Proof.ScatterRow
import proofs.«109475_j41601053229316_1_alg».proof.Proof.RefTail
import proofs.«109475_j41601053229316_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 8192

noncomputable section

namespace Cert.ReferenceIdeal.Steps

open Cert.ReferenceIdeal Cert.ReferenceIdeal.Gen Cert.ReferenceIdeal.Value Idealize.ShloMosaic Idealize.ShloMosaic.TcCoe
open Idealize.ShloMosaic.StableHlo Idealize.ShloMosaic.ValueIdx Cert.Spec Cert.Rot Cert.ReferenceIdeal.ScatterRow

/-- The cosines of one position's angles. -/
def cosA (A : FVec Ideal S65536x28 .f32) (b : Fin 65536) : ℕ → EReal := fun n => Ideal.cos (angAt A b n)
/-- The sines of one position's angles. -/
def sinA (A : FVec Ideal S65536x28 .f32) (b : Fin 65536) : ℕ → EReal := fun n => Ideal.sin (angAt A b n)

/-! ## The pieces of one step, read at an index -/

/-- Column `k` of the angles, as a vector over the positions. -/
theorem col_apply (A : FVec Ideal S65536x28 .f32) (k : ℕ) (hk : k < 28) (h : S65536x28.Slices ![0, k] S65536x1)
    (h' : S65536x1.ShapeCasts S65536) (b : Fin 65536) :
    shapeCast S65536 (extractStridedSlice S65536x1 ![0, k] A h) h' (ix1 b) = angAt A b k := by
  rw [angAt, dif_pos hk]
  rw [shapeCast_apply _ h' (ix1 b) (ix2 b 0) (by rw [Shape.rowMajor_val_two, Shape.rowMajor_val_one]; show b.val * 1 + 0 = b.val; omega)]
  exact extractStridedSlice_apply _ _ h (ix2 b 0) (ix2 b ⟨k, hk⟩) (fun a => by
    match a with
    | ⟨0, _⟩ => show b.val = 0 + b.val; omega
    | ⟨1, _⟩ => show k = k + 0; omega)

theorem cos_col (A : FVec Ideal S65536x28 .f32) (k : ℕ) (hk : k < 28) (h : S65536x28.Slices ![0, k] S65536x1)
    (h' : S65536x1.ShapeCasts S65536) (b : Fin 65536) :
    Host.cos (F := Ideal) (shapeCast S65536 (extractStridedSlice S65536x1 ![0, k] A h) h') (ix1 b) = Ideal.cos (angAt A b k) := by
  show FloatOps.hostUnary .cos (shapeCast S65536 (extractStridedSlice S65536x1 ![0, k] A h) h' (ix1 b)) = _
  rw [Ideal.hostUnary_cos_def, col_apply A k hk h h' b]

theorem sin_col (A : FVec Ideal S65536x28 .f32) (k : ℕ) (hk : k < 28) (h : S65536x28.Slices ![0, k] S65536x1)
    (h' : S65536x1.ShapeCasts S65536) (b : Fin 65536) :
    Host.sin (F := Ideal) (shapeCast S65536 (extractStridedSlice S65536x1 ![0, k] A h) h') (ix1 b) = Ideal.sin (angAt A b k) := by
  show FloatOps.hostUnary .sin (shapeCast S65536 (extractStridedSlice S65536x1 ![0, k] A h) h' (ix1 b)) = _
  rw [Ideal.hostUnary_sin_def, col_apply A k hk h h' b]

/-- A per-position scalar repeated along a row of 8. -/
theorem bc_col (v : FVec Ideal S65536 .f32) (b : Fin 65536) (i : Fin 8) :
    broadcastInDim S65536x8 ![0, 1] bcast_S65536x1_S65536x8_0_1 (broadcastInDim S65536x1 ![0] bcast_S65536_S65536x1_0 v) (ix2 b i)
      = v (ix1 b) := by
  rw [broadcastInDim_apply _ _ _ (ix2 b i) (ix2 b 0) (fun a => by
    match a with
    | ⟨0, _⟩ => rfl
    | ⟨1, _⟩ => rfl)]
  exact broadcastInDim_apply _ _ _ (ix2 b 0) (ix1 b) (fun a => by
    match a with
    | ⟨0, _⟩ => rfl)

/-- Row `t` of every matrix of the stack. -/
theorem row_of (R : FVec Ideal S65536x8x8 .f32) (t : ℕ) (ht : t < 8) (h : S65536x8x8.Slices ![0, t, 0] S65536x1x8)
    (h' : S65536x1x8.ShapeCasts S65536x8) (b : Fin 65536) (i : Fin 8) :
    shapeCast S65536x8 (extractStridedSlice S65536x1x8 ![0, t, 0] R h) h' (ix2 b i) = R (ix3 b ⟨t, ht⟩ i) := by
  rw [shapeCast_apply _ h' (ix2 b i) (ix3 b 0 i) (by rw [Shape.rowMajor_val_two, Shape.rowMajor_val_three]; show (b.val * 1 + 0) * 8 + i.val = b.val * 8 + i.val; omega)]
  exact slice3_axis1_apply t R h b 0 i ⟨t, ht⟩ (by show t = t + 0; omega)

/-- The two row scatters of one step, read at `(b, j, i)`. -/
theorem step_apply (R : FVec Ideal S65536x8x8 .f32) (cv sv : FVec Ideal S65536 .f32) (rt rb : FVec Ideal S65536x8 .f32)
    (t b' : BitVec 32) (ht : t.toNat < 8) (hb : b'.toNat < 8) (b : Fin 65536) (j i : Fin 8) :
    (Host.scatter scatter_S65536x8x8_S1_S65536x8_01_1_1_0 (fun _ b => b) (Host.scatter scatter_S65536x8x8_S1_S65536x8_01_1_1_0 (fun _ b => b) R (broadcastInDim S1 ![] bcast_S_S1 (constantI S_ 32 t)) (subf (mulf (broadcastInDim S65536x8 ![0, 1] bcast_S65536x1_S65536x8_0_1 (broadcastInDim S65536x1 ![0] bcast_S65536_S65536x1_0 cv)) rt) (mulf (broadcastInDim S65536x8 ![0, 1] bcast_S65536x1_S65536x8_0_1 (broadcastInDim S65536x1 ![0] bcast_S65536_S65536x1_0 sv)) rb))) (broadcastInDim S1 ![] bcast_S_S1 (constantI S_ 32 b')) (addf (mulf (broadcastInDim S65536x8 ![0, 1] bcast_S65536x1_S65536x8_0_1 (broadcastInDim S65536x1 ![0] bcast_S65536_S65536x1_0 sv)) rt) (mulf (broadcastInDim S65536x8 ![0, 1] bcast_S65536x1_S65536x8_0_1 (broadcastInDim S65536x1 ![0] bcast_S65536_S65536x1_0 cv)) rb))) (ix3 b j i)
      = if j.val = b'.toNat then sv (ix1 b) * rt (ix2 b i) + cv (ix1 b) * rb (ix2 b i)
        else if j.val = t.toNat then cv (ix1 b) * rt (ix2 b i) - sv (ix1 b) * rb (ix2 b i)
        else R (ix3 b j i) := by
  rw [scatter_row _ b' hb, scatter_row _ t ht]
  simp only [subf_apply, addf_apply, mulf_apply]
  rw [bc_col sv b i, bc_col cv b i]

/-- One step: the stack after k steps, the k-th cosines and sines, and rows t and b of the stack go to the stack after k + 1 steps. -/
theorem step_generic (A : FVec Ideal S65536x28 .f32) (k : ℕ) (hk : k < 28) (t b' : BitVec 32) (ht : t.toNat < 8) (hb : b'.toNat < 8)
    (htk : (pT k).val = t.toNat) (hbk : (pB k).val = b'.toNat)
    (prev : FVec Ideal S65536x8x8 .f32) (hprev : ∀ b j i, prev (ix3 b j i) = Rk (cosA A b) (sinA A b) k j i)
    (cv sv : FVec Ideal S65536 .f32) (hcv : ∀ b, cv (ix1 b) = Ideal.cos (angAt A b k)) (hsv : ∀ b, sv (ix1 b) = Ideal.sin (angAt A b k))
    (rt rb : FVec Ideal S65536x8 .f32) (hrt : ∀ b i, rt (ix2 b i) = prev (ix3 b (pT k) i)) (hrb : ∀ b i, rb (ix2 b i) = prev (ix3 b (pB k) i))
    (b : Fin 65536) (j i : Fin 8) :
    (Host.scatter scatter_S65536x8x8_S1_S65536x8_01_1_1_0 (fun _ b => b) (Host.scatter scatter_S65536x8x8_S1_S65536x8_01_1_1_0 (fun _ b => b) prev (broadcastInDim S1 ![] bcast_S_S1 (constantI S_ 32 t)) (subf (mulf (broadcastInDim S65536x8 ![0, 1] bcast_S65536x1_S65536x8_0_1 (broadcastInDim S65536x1 ![0] bcast_S65536_S65536x1_0 cv)) rt) (mulf (broadcastInDim S65536x8 ![0, 1] bcast_S65536x1_S65536x8_0_1 (broadcastInDim S65536x1 ![0] bcast_S65536_S65536x1_0 sv)) rb))) (broadcastInDim S1 ![] bcast_S_S1 (constantI S_ 32 b')) (addf (mulf (broadcastInDim S65536x8 ![0, 1] bcast_S65536x1_S65536x8_0_1 (broadcastInDim S65536x1 ![0] bcast_S65536_S65536x1_0 sv)) rt) (mulf (broadcastInDim S65536x8 ![0, 1] bcast_S65536x1_S65536x8_0_1 (broadcastInDim S65536x1 ![0] bcast_S65536_S65536x1_0 cv)) rb))) (ix3 b j i)
      = Rk (cosA A b) (sinA A b) (k + 1) j i := by
  rw [step_apply prev cv sv rt rb t b' ht hb b j i, hcv, hsv, hrt, hrb, hprev, hprev, hprev]
  show _ = rotRows (cosA A b k) (sinA A b k) (pT k) (pB k) (Rk (cosA A b) (sinA A b) k) j i
  unfold rotRows
  have hne : pT k ≠ pB k := pT_ne_pB k
  by_cases h1 : j = pB k
  · have h2 : ¬ j = pT k := fun h => hne (h.symm.trans h1)
    rw [if_pos (by rw [h1]; exact hbk), if_neg h2, if_pos h1]
    rfl
  · have h1' : ¬ j.val = b'.toNat := fun h => h1 (Fin.ext (h.trans hbk.symm))
    rw [if_neg h1']
    by_cases h2 : j = pT k
    · rw [if_pos (by rw [h2]; exact htk), if_pos h2]
      rfl
    · have h2' : ¬ j.val = t.toNat := fun h => h2 (Fin.ext (h.trans htk.symm))
      rw [if_neg h2', if_neg h2, if_neg h1]

/-! ## The identity the reference starts from -/

/-- The comparison bit of the two iotas. -/
theorem eye_bit : ∀ j i : Fin 8,
    (IntOp.cmpi .eq (BitVec.ofNat 32 j.val + 0#32) (BitVec.ofNat 32 i.val)).toNat = if j = i then 1 else 0 := by
  decide

variable (V0 : Valuation τ sig (Elt Ideal))

/-- The angles, as the valuation holds them. -/
abbrev Aof : FVec Ideal S65536x28 .f32 := V0 (Proc.devRef .tc main_arg1)
/-- The data, as the valuation holds them. -/
abbrev Xof : FVec Ideal S64x256x256x16 .f32 := V0 (Proc.devRef .tc main_arg0)
/-- The sign factors, as the valuation holds them. -/
abbrev Mof : FVec Ideal S65536x8 .f32 := V0 (Proc.devRef .tc main_arg2)
/-- The data with the sample axis last and the two spatial axes merged. -/
abbrev Yof : FVec Ideal S65536x16x64 .f32 := res_main_v1 (F := Ideal) V0
/-- The stack after 27 steps, and the last step's cosines, sines and two rows. -/
abbrev P26 : FVec Ideal S65536x8x8 .f32 := res_main_v773 (F := Ideal) V0
abbrev C27 : FVec Ideal S65536 .f32 := res_main_v776 (F := Ideal) V0
abbrev S27 : FVec Ideal S65536 .f32 := res_main_v779 (F := Ideal) V0
abbrev T27 : FVec Ideal S65536x8 .f32 := res_main_v781 (F := Ideal) V0
abbrev B27 : FVec Ideal S65536x8 .f32 := res_main_v783 (F := Ideal) V0

/-- The 8×8 identity the reference builds from two iotas. -/
theorem eye_apply (j i : Fin 8) : res_main_v8 (F := Ideal) V0 (ix2 j i) = (idm j i : EReal) := by
  show FloatOps.uitofp (F := Ideal) .f32 (IntOp.cmpi .eq (BitVec.ofNat 32 j.val + 0#32) (BitVec.ofNat 32 i.val)) = _
  show (((IntOp.cmpi .eq (BitVec.ofNat 32 j.val + 0#32) (BitVec.ofNat 32 i.val)).toNat : ℝ) : EReal) = _
  rw [eye_bit j i, idm]
  by_cases h : j = i
  · rw [if_pos h, if_pos h]; simp
  · rw [if_neg h, if_neg h]; simp

/-- The stack before the first step: the identity in every position. -/
theorem Rinit (b : Fin 65536) (j i : Fin 8) :
    (broadcastInDim S65536x8x8 ![1, 2] bcast_S8x8_S65536x8x8_1_2 (res_main_v8 (F := Ideal) V0)) (ix3 b j i) = Rk (cosA (Aof V0) b) (sinA (Aof V0) b) 0 j i := by
  rw [broadcastInDim_apply _ _ _ (ix3 b j i) (ix2 j i) (fun a => by
    match a with
    | ⟨0, _⟩ => rfl
    | ⟨1, _⟩ => rfl)]
  exact eye_apply V0 j i

/-- Row `t` of the identity, repeated over the positions. -/
theorem eye_row (t : ℕ) (ht : t < 8) (h : S8x8.Slices ![t, 0] S1x8) (h' : S1x8.ShapeCasts S8) (b : Fin 65536) (i : Fin 8) :
    (broadcastInDim S65536x8 ![0, 1] bcast_S1x8_S65536x8_0_1 (broadcastInDim S1x8 ![1] bcast_S8_S1x8_1 (shapeCast S8 (extractStridedSlice S1x8 ![t, 0] (res_main_v8 (F := Ideal) V0) h) h'))) (ix2 b i)
      = (broadcastInDim S65536x8x8 ![1, 2] bcast_S8x8_S65536x8x8_1_2 (res_main_v8 (F := Ideal) V0)) (ix3 b ⟨t, ht⟩ i) := by
  rw [broadcastInDim_apply _ _ _ (ix2 b i) (ix2 0 i) (fun a => by
    match a with
    | ⟨0, _⟩ => rfl
    | ⟨1, _⟩ => rfl)]
  rw [broadcastInDim_apply _ _ _ (ix2 0 i) (ix1 i) (fun a => by
    match a with
    | ⟨0, _⟩ => rfl)]
  rw [shapeCast_apply _ h' (ix1 i) (ix2 0 i) (by rw [Shape.rowMajor_val_two, Shape.rowMajor_val_one]; show 0 * 8 + i.val = i.val; omega)]
  rw [extractStridedSlice_apply _ _ h (ix2 0 i) (ix2 ⟨t, ht⟩ i) (fun a => by
    match a with
    | ⟨0, _⟩ => show t = t + 0; omega
    | ⟨1, _⟩ => show i.val = 0 + i.val; omega)]
  rw [broadcastInDim_apply _ _ _ (ix3 b ⟨t, ht⟩ i) (ix2 ⟨t, ht⟩ i) (fun a => by
    match a with
    | ⟨0, _⟩ => rfl
    | ⟨1, _⟩ => rfl)]

/-! ## The 28 steps -/

/-- After step 0 (pair (0, 1)). -/
theorem R0 (b : Fin 65536) (j i : Fin 8) :
    res_main_v45 (F := Ideal) V0 (ix3 b j i) = Rk (cosA (Aof V0) b) (sinA (Aof V0) b) 1 j i := by
  unfold res_main_v45
  have hprev : ∀ b j i, (broadcastInDim S65536x8x8 ![1, 2] bcast_S8x8_S65536x8x8_1_2 (res_main_v8 (F := Ideal) V0)) (ix3 b j i) = Rk (cosA (Aof V0) b) (sinA (Aof V0) b) 0 j i := Rinit V0
  have hcv : ∀ b, res_main_v11 (F := Ideal) V0 (ix1 b) = Ideal.cos (angAt (Aof V0) b 0) := fun b => by
    unfold res_main_v11; exact cos_col (Aof V0) 0 (by decide) _ _ b
  have hsv : ∀ b, res_main_v14 (F := Ideal) V0 (ix1 b) = Ideal.sin (angAt (Aof V0) b 0) := fun b => by
    unfold res_main_v14; exact sin_col (Aof V0) 0 (by decide) _ _ b
  have hrt : ∀ b i, (broadcastInDim S65536x8 ![0, 1] bcast_S1x8_S65536x8_0_1 (broadcastInDim S1x8 ![1] bcast_S8_S1x8_1 (res_main_v16 (F := Ideal) V0))) (ix2 b i) = (broadcastInDim S65536x8x8 ![1, 2] bcast_S8x8_S65536x8x8_1_2 (res_main_v8 (F := Ideal) V0)) (ix3 b (pT 0) i) := fun b i => by
    unfold res_main_v16; exact eye_row V0 0 (by decide) _ _ b i
  have hrb : ∀ b i, (broadcastInDim S65536x8 ![0, 1] bcast_S1x8_S65536x8_0_1 (broadcastInDim S1x8 ![1] bcast_S8_S1x8_1 (res_main_v18 (F := Ideal) V0))) (ix2 b i) = (broadcastInDim S65536x8x8 ![1, 2] bcast_S8x8_S65536x8x8_1_2 (res_main_v8 (F := Ideal) V0)) (ix3 b (pB 0) i) := fun b i => by
    unfold res_main_v18; exact eye_row V0 1 (by decide) _ _ b i
  exact step_generic (Aof V0) 0 (by decide) 0#32 1#32 (by decide) (by decide) rfl rfl _ hprev _ _ hcv hsv _ _ hrt hrb b j i

/-- After step 1 (pair (0, 2)). -/
theorem R1 (b : Fin 65536) (j i : Fin 8) :
    res_main_v73 (F := Ideal) V0 (ix3 b j i) = Rk (cosA (Aof V0) b) (sinA (Aof V0) b) 2 j i := by
  unfold res_main_v73
  have hprev : ∀ b j i, (res_main_v45 (F := Ideal) V0) (ix3 b j i) = Rk (cosA (Aof V0) b) (sinA (Aof V0) b) 1 j i := R0 V0
  have hcv : ∀ b, res_main_v48 (F := Ideal) V0 (ix1 b) = Ideal.cos (angAt (Aof V0) b 1) := fun b => by
    unfold res_main_v48; exact cos_col (Aof V0) 1 (by decide) _ _ b
  have hsv : ∀ b, res_main_v51 (F := Ideal) V0 (ix1 b) = Ideal.sin (angAt (Aof V0) b 1) := fun b => by
    unfold res_main_v51; exact sin_col (Aof V0) 1 (by decide) _ _ b
  have hrt : ∀ b i, (res_main_v53 (F := Ideal) V0) (ix2 b i) = (res_main_v45 (F := Ideal) V0) (ix3 b (pT 1) i) := fun b i => by
    unfold res_main_v53; exact row_of (res_main_v45 (F := Ideal) V0) 0 (by decide) _ _ b i
  have hrb : ∀ b i, (res_main_v55 (F := Ideal) V0) (ix2 b i) = (res_main_v45 (F := Ideal) V0) (ix3 b (pB 1) i) := fun b i => by
    unfold res_main_v55; exact row_of (res_main_v45 (F := Ideal) V0) 2 (by decide) _ _ b i
  exact step_generic (Aof V0) 1 (by decide) 0#32 2#32 (by decide) (by decide) rfl rfl _ hprev _ _ hcv hsv _ _ hrt hrb b j i

/-- After step 2 (pair (0, 3)). -/
theorem R2 (b : Fin 65536) (j i : Fin 8) :
    res_main_v101 (F := Ideal) V0 (ix3 b j i) = Rk (cosA (Aof V0) b) (sinA (Aof V0) b) 3 j i := by
  unfold res_main_v101
  have hprev : ∀ b j i, (res_main_v73 (F := Ideal) V0) (ix3 b j i) = Rk (cosA (Aof V0) b) (sinA (Aof V0) b) 2 j i := R1 V0
  have hcv : ∀ b, res_main_v76 (F := Ideal) V0 (ix1 b) = Ideal.cos (angAt (Aof V0) b 2) := fun b => by
    unfold res_main_v76; exact cos_col (Aof V0) 2 (by decide) _ _ b
  have hsv : ∀ b, res_main_v79 (F := Ideal) V0 (ix1 b) = Ideal.sin (angAt (Aof V0) b 2) := fun b => by
    unfold res_main_v79; exact sin_col (Aof V0) 2 (by decide) _ _ b
  have hrt : ∀ b i, (res_main_v81 (F := Ideal) V0) (ix2 b i) = (res_main_v73 (F := Ideal) V0) (ix3 b (pT 2) i) := fun b i => by
    unfold res_main_v81; exact row_of (res_main_v73 (F := Ideal) V0) 0 (by decide) _ _ b i
  have hrb : ∀ b i, (res_main_v83 (F := Ideal) V0) (ix2 b i) = (res_main_v73 (F := Ideal) V0) (ix3 b (pB 2) i) := fun b i => by
    unfold res_main_v83; exact row_of (res_main_v73 (F := Ideal) V0) 3 (by decide) _ _ b i
  exact step_generic (Aof V0) 2 (by decide) 0#32 3#32 (by decide) (by decide) rfl rfl _ hprev _ _ hcv hsv _ _ hrt hrb b j i

/-- After step 3 (pair (0, 4)). -/
theorem R3 (b : Fin 65536) (j i : Fin 8) :
    res_main_v129 (F := Ideal) V0 (ix3 b j i) = Rk (cosA (Aof V0) b) (sinA (Aof V0) b) 4 j i := by
  unfold res_main_v129
  have hprev : ∀ b j i, (res_main_v101 (F := Ideal) V0) (ix3 b j i) = Rk (cosA (Aof V0) b) (sinA (Aof V0) b) 3 j i := R2 V0
  have hcv : ∀ b, res_main_v104 (F := Ideal) V0 (ix1 b) = Ideal.cos (angAt (Aof V0) b 3) := fun b => by
    unfold res_main_v104; exact cos_col (Aof V0) 3 (by decide) _ _ b
  have hsv : ∀ b, res_main_v107 (F := Ideal) V0 (ix1 b) = Ideal.sin (angAt (Aof V0) b 3) := fun b => by
    unfold res_main_v107; exact sin_col (Aof V0) 3 (by decide) _ _ b
  have hrt : ∀ b i, (res_main_v109 (F := Ideal) V0) (ix2 b i) = (res_main_v101 (F := Ideal) V0) (ix3 b (pT 3) i) := fun b i => by
    unfold res_main_v109; exact row_of (res_main_v101 (F := Ideal) V0) 0 (by decide) _ _ b i
  have hrb : ∀ b i, (res_main_v111 (F := Ideal) V0) (ix2 b i) = (res_main_v101 (F := Ideal) V0) (ix3 b (pB 3) i) := fun b i => by
    unfold res_main_v111; exact row_of (res_main_v101 (F := Ideal) V0) 4 (by decide) _ _ b i
  exact step_generic (Aof V0) 3 (by decide) 0#32 4#32 (by decide) (by decide) rfl rfl _ hprev _ _ hcv hsv _ _ hrt hrb b j i

/-- After step 4 (pair (0, 5)). -/
theorem R4 (b : Fin 65536) (j i : Fin 8) :
    res_main_v157 (F := Ideal) V0 (ix3 b j i) = Rk (cosA (Aof V0) b) (sinA (Aof V0) b) 5 j i := by
  unfold res_main_v157
  have hprev : ∀ b j i, (res_main_v129 (F := Ideal) V0) (ix3 b j i) = Rk (cosA (Aof V0) b) (sinA (Aof V0) b) 4 j i := R3 V0
  have hcv : ∀ b, res_main_v132 (F := Ideal) V0 (ix1 b) = Ideal.cos (angAt (Aof V0) b 4) := fun b => by
    unfold res_main_v132; exact cos_col (Aof V0) 4 (by decide) _ _ b
  have hsv : ∀ b, res_main_v135 (F := Ideal) V0 (ix1 b) = Ideal.sin (angAt (Aof V0) b 4) := fun b => by
    unfold res_main_v135; exact sin_col (Aof V0) 4 (by decide) _ _ b
  have hrt : ∀ b i, (res_main_v137 (F := Ideal) V0) (ix2 b i) = (res_main_v129 (F := Ideal) V0) (ix3 b (pT 4) i) := fun b i => by
    unfold res_main_v137; exact row_of (res_main_v129 (F := Ideal) V0) 0 (by decide) _ _ b i
  have hrb : ∀ b i, (res_main_v139 (F := Ideal) V0) (ix2 b i) = (res_main_v129 (F := Ideal) V0) (ix3 b (pB 4) i) := fun b i => by
    unfold res_main_v139; exact row_of (res_main_v129 (F := Ideal) V0) 5 (by decide) _ _ b i
  exact step_generic (Aof V0) 4 (by decide) 0#32 5#32 (by decide) (by decide) rfl rfl _ hprev _ _ hcv hsv _ _ hrt hrb b j i

/-- After step 5 (pair (0, 6)). -/
theorem R5 (b : Fin 65536) (j i : Fin 8) :
    res_main_v185 (F := Ideal) V0 (ix3 b j i) = Rk (cosA (Aof V0) b) (sinA (Aof V0) b) 6 j i := by
  unfold res_main_v185
  have hprev : ∀ b j i, (res_main_v157 (F := Ideal) V0) (ix3 b j i) = Rk (cosA (Aof V0) b) (sinA (Aof V0) b) 5 j i := R4 V0
  have hcv : ∀ b, res_main_v160 (F := Ideal) V0 (ix1 b) = Ideal.cos (angAt (Aof V0) b 5) := fun b => by
    unfold res_main_v160; exact cos_col (Aof V0) 5 (by decide) _ _ b
  have hsv : ∀ b, res_main_v163 (F := Ideal) V0 (ix1 b) = Ideal.sin (angAt (Aof V0) b 5) := fun b => by
    unfold res_main_v163; exact sin_col (Aof V0) 5 (by decide) _ _ b
  have hrt : ∀ b i, (res_main_v165 (F := Ideal) V0) (ix2 b i) = (res_main_v157 (F := Ideal) V0) (ix3 b (pT 5) i) := fun b i => by
    unfold res_main_v165; exact row_of (res_main_v157 (F := Ideal) V0) 0 (by decide) _ _ b i
  have hrb : ∀ b i, (res_main_v167 (F := Ideal) V0) (ix2 b i) = (res_main_v157 (F := Ideal) V0) (ix3 b (pB 5) i) := fun b i => by
    unfold res_main_v167; exact row_of (res_main_v157 (F := Ideal) V0) 6 (by decide) _ _ b i
  exact step_generic (Aof V0) 5 (by decide) 0#32 6#32 (by decide) (by decide) rfl rfl _ hprev _ _ hcv hsv _ _ hrt hrb b j i

/-- After step 6 (pair (0, 7)). -/
theorem R6 (b : Fin 65536) (j i : Fin 8) :
    res_main_v213 (F := Ideal) V0 (ix3 b j i) = Rk (cosA (Aof V0) b) (sinA (Aof V0) b) 7 j i := by
  unfold res_main_v213
  have hprev : ∀ b j i, (res_main_v185 (F := Ideal) V0) (ix3 b j i) = Rk (cosA (Aof V0) b) (sinA (Aof V0) b) 6 j i := R5 V0
  have hcv : ∀ b, res_main_v188 (F := Ideal) V0 (ix1 b) = Ideal.cos (angAt (Aof V0) b 6) := fun b => by
    unfold res_main_v188; exact cos_col (Aof V0) 6 (by decide) _ _ b
  have hsv : ∀ b, res_main_v191 (F := Ideal) V0 (ix1 b) = Ideal.sin (angAt (Aof V0) b 6) := fun b => by
    unfold res_main_v191; exact sin_col (Aof V0) 6 (by decide) _ _ b
  have hrt : ∀ b i, (res_main_v193 (F := Ideal) V0) (ix2 b i) = (res_main_v185 (F := Ideal) V0) (ix3 b (pT 6) i) := fun b i => by
    unfold res_main_v193; exact row_of (res_main_v185 (F := Ideal) V0) 0 (by decide) _ _ b i
  have hrb : ∀ b i, (res_main_v195 (F := Ideal) V0) (ix2 b i) = (res_main_v185 (F := Ideal) V0) (ix3 b (pB 6) i) := fun b i => by
    unfold res_main_v195; exact row_of (res_main_v185 (F := Ideal) V0) 7 (by decide) _ _ b i
  exact step_generic (Aof V0) 6 (by decide) 0#32 7#32 (by decide) (by decide) rfl rfl _ hprev _ _ hcv hsv _ _ hrt hrb b j i

/-- After step 7 (pair (1, 2)). -/
theorem R7 (b : Fin 65536) (j i : Fin 8) :
    res_main_v241 (F := Ideal) V0 (ix3 b j i) = Rk (cosA (Aof V0) b) (sinA (Aof V0) b) 8 j i := by
  unfold res_main_v241
  have hprev : ∀ b j i, (res_main_v213 (F := Ideal) V0) (ix3 b j i) = Rk (cosA (Aof V0) b) (sinA (Aof V0) b) 7 j i := R6 V0
  have hcv : ∀ b, res_main_v216 (F := Ideal) V0 (ix1 b) = Ideal.cos (angAt (Aof V0) b 7) := fun b => by
    unfold res_main_v216; exact cos_col (Aof V0) 7 (by decide) _ _ b
  have hsv : ∀ b, res_main_v219 (F := Ideal) V0 (ix1 b) = Ideal.sin (angAt (Aof V0) b 7) := fun b => by
    unfold res_main_v219; exact sin_col (Aof V0) 7 (by decide) _ _ b
  have hrt : ∀ b i, (res_main_v221 (F := Ideal) V0) (ix2 b i) = (res_main_v213 (F := Ideal) V0) (ix3 b (pT 7) i) := fun b i => by
    unfold res_main_v221; exact row_of (res_main_v213 (F := Ideal) V0) 1 (by decide) _ _ b i
  have hrb : ∀ b i, (res_main_v223 (F := Ideal) V0) (ix2 b i) = (res_main_v213 (F := Ideal) V0) (ix3 b (pB 7) i) := fun b i => by
    unfold res_main_v223; exact row_of (res_main_v213 (F := Ideal) V0) 2 (by decide) _ _ b i
  exact step_generic (Aof V0) 7 (by decide) 1#32 2#32 (by decide) (by decide) rfl rfl _ hprev _ _ hcv hsv _ _ hrt hrb b j i

/-- After step 8 (pair (1, 3)). -/
theorem R8 (b : Fin 65536) (j i : Fin 8) :
    res_main_v269 (F := Ideal) V0 (ix3 b j i) = Rk (cosA (Aof V0) b) (sinA (Aof V0) b) 9 j i := by
  unfold res_main_v269
  have hprev : ∀ b j i, (res_main_v241 (F := Ideal) V0) (ix3 b j i) = Rk (cosA (Aof V0) b) (sinA (Aof V0) b) 8 j i := R7 V0
  have hcv : ∀ b, res_main_v244 (F := Ideal) V0 (ix1 b) = Ideal.cos (angAt (Aof V0) b 8) := fun b => by
    unfold res_main_v244; exact cos_col (Aof V0) 8 (by decide) _ _ b
  have hsv : ∀ b, res_main_v247 (F := Ideal) V0 (ix1 b) = Ideal.sin (angAt (Aof V0) b 8) := fun b => by
    unfold res_main_v247; exact sin_col (Aof V0) 8 (by decide) _ _ b
  have hrt : ∀ b i, (res_main_v249 (F := Ideal) V0) (ix2 b i) = (res_main_v241 (F := Ideal) V0) (ix3 b (pT 8) i) := fun b i => by
    unfold res_main_v249; exact row_of (res_main_v241 (F := Ideal) V0) 1 (by decide) _ _ b i
  have hrb : ∀ b i, (res_main_v251 (F := Ideal) V0) (ix2 b i) = (res_main_v241 (F := Ideal) V0) (ix3 b (pB 8) i) := fun b i => by
    unfold res_main_v251; exact row_of (res_main_v241 (F := Ideal) V0) 3 (by decide) _ _ b i
  exact step_generic (Aof V0) 8 (by decide) 1#32 3#32 (by decide) (by decide) rfl rfl _ hprev _ _ hcv hsv _ _ hrt hrb b j i

/-- After step 9 (pair (1, 4)). -/
theorem R9 (b : Fin 65536) (j i : Fin 8) :
    res_main_v297 (F := Ideal) V0 (ix3 b j i) = Rk (cosA (Aof V0) b) (sinA (Aof V0) b) 10 j i := by
  unfold res_main_v297
  have hprev : ∀ b j i, (res_main_v269 (F := Ideal) V0) (ix3 b j i) = Rk (cosA (Aof V0) b) (sinA (Aof V0) b) 9 j i := R8 V0
  have hcv : ∀ b, res_main_v272 (F := Ideal) V0 (ix1 b) = Ideal.cos (angAt (Aof V0) b 9) := fun b => by
    unfold res_main_v272; exact cos_col (Aof V0) 9 (by decide) _ _ b
  have hsv : ∀ b, res_main_v275 (F := Ideal) V0 (ix1 b) = Ideal.sin (angAt (Aof V0) b 9) := fun b => by
    unfold res_main_v275; exact sin_col (Aof V0) 9 (by decide) _ _ b
  have hrt : ∀ b i, (res_main_v277 (F := Ideal) V0) (ix2 b i) = (res_main_v269 (F := Ideal) V0) (ix3 b (pT 9) i) := fun b i => by
    unfold res_main_v277; exact row_of (res_main_v269 (F := Ideal) V0) 1 (by decide) _ _ b i
  have hrb : ∀ b i, (res_main_v279 (F := Ideal) V0) (ix2 b i) = (res_main_v269 (F := Ideal) V0) (ix3 b (pB 9) i) := fun b i => by
    unfold res_main_v279; exact row_of (res_main_v269 (F := Ideal) V0) 4 (by decide) _ _ b i
  exact step_generic (Aof V0) 9 (by decide) 1#32 4#32 (by decide) (by decide) rfl rfl _ hprev _ _ hcv hsv _ _ hrt hrb b j i

/-- After step 10 (pair (1, 5)). -/
theorem R10 (b : Fin 65536) (j i : Fin 8) :
    res_main_v325 (F := Ideal) V0 (ix3 b j i) = Rk (cosA (Aof V0) b) (sinA (Aof V0) b) 11 j i := by
  unfold res_main_v325
  have hprev : ∀ b j i, (res_main_v297 (F := Ideal) V0) (ix3 b j i) = Rk (cosA (Aof V0) b) (sinA (Aof V0) b) 10 j i := R9 V0
  have hcv : ∀ b, res_main_v300 (F := Ideal) V0 (ix1 b) = Ideal.cos (angAt (Aof V0) b 10) := fun b => by
    unfold res_main_v300; exact cos_col (Aof V0) 10 (by decide) _ _ b
  have hsv : ∀ b, res_main_v303 (F := Ideal) V0 (ix1 b) = Ideal.sin (angAt (Aof V0) b 10) := fun b => by
    unfold res_main_v303; exact sin_col (Aof V0) 10 (by decide) _ _ b
  have hrt : ∀ b i, (res_main_v305 (F := Ideal) V0) (ix2 b i) = (res_main_v297 (F := Ideal) V0) (ix3 b (pT 10) i) := fun b i => by
    unfold res_main_v305; exact row_of (res_main_v297 (F := Ideal) V0) 1 (by decide) _ _ b i
  have hrb : ∀ b i, (res_main_v307 (F := Ideal) V0) (ix2 b i) = (res_main_v297 (F := Ideal) V0) (ix3 b (pB 10) i) := fun b i => by
    unfold res_main_v307; exact row_of (res_main_v297 (F := Ideal) V0) 5 (by decide) _ _ b i
  exact step_generic (Aof V0) 10 (by decide) 1#32 5#32 (by decide) (by decide) rfl rfl _ hprev _ _ hcv hsv _ _ hrt hrb b j i

/-- After step 11 (pair (1, 6)). -/
theorem R11 (b : Fin 65536) (j i : Fin 8) :
    res_main_v353 (F := Ideal) V0 (ix3 b j i) = Rk (cosA (Aof V0) b) (sinA (Aof V0) b) 12 j i := by
  unfold res_main_v353
  have hprev : ∀ b j i, (res_main_v325 (F := Ideal) V0) (ix3 b j i) = Rk (cosA (Aof V0) b) (sinA (Aof V0) b) 11 j i := R10 V0
  have hcv : ∀ b, res_main_v328 (F := Ideal) V0 (ix1 b) = Ideal.cos (angAt (Aof V0) b 11) := fun b => by
    unfold res_main_v328; exact cos_col (Aof V0) 11 (by decide) _ _ b
  have hsv : ∀ b, res_main_v331 (F := Ideal) V0 (ix1 b) = Ideal.sin (angAt (Aof V0) b 11) := fun b => by
    unfold res_main_v331; exact sin_col (Aof V0) 11 (by decide) _ _ b
  have hrt : ∀ b i, (res_main_v333 (F := Ideal) V0) (ix2 b i) = (res_main_v325 (F := Ideal) V0) (ix3 b (pT 11) i) := fun b i => by
    unfold res_main_v333; exact row_of (res_main_v325 (F := Ideal) V0) 1 (by decide) _ _ b i
  have hrb : ∀ b i, (res_main_v335 (F := Ideal) V0) (ix2 b i) = (res_main_v325 (F := Ideal) V0) (ix3 b (pB 11) i) := fun b i => by
    unfold res_main_v335; exact row_of (res_main_v325 (F := Ideal) V0) 6 (by decide) _ _ b i
  exact step_generic (Aof V0) 11 (by decide) 1#32 6#32 (by decide) (by decide) rfl rfl _ hprev _ _ hcv hsv _ _ hrt hrb b j i

/-- After step 12 (pair (1, 7)). -/
theorem R12 (b : Fin 65536) (j i : Fin 8) :
    res_main_v381 (F := Ideal) V0 (ix3 b j i) = Rk (cosA (Aof V0) b) (sinA (Aof V0) b) 13 j i := by
  unfold res_main_v381
  have hprev : ∀ b j i, (res_main_v353 (F := Ideal) V0) (ix3 b j i) = Rk (cosA (Aof V0) b) (sinA (Aof V0) b) 12 j i := R11 V0
  have hcv : ∀ b, res_main_v356 (F := Ideal) V0 (ix1 b) = Ideal.cos (angAt (Aof V0) b 12) := fun b => by
    unfold res_main_v356; exact cos_col (Aof V0) 12 (by decide) _ _ b
  have hsv : ∀ b, res_main_v359 (F := Ideal) V0 (ix1 b) = Ideal.sin (angAt (Aof V0) b 12) := fun b => by
    unfold res_main_v359; exact sin_col (Aof V0) 12 (by decide) _ _ b
  have hrt : ∀ b i, (res_main_v361 (F := Ideal) V0) (ix2 b i) = (res_main_v353 (F := Ideal) V0) (ix3 b (pT 12) i) := fun b i => by
    unfold res_main_v361; exact row_of (res_main_v353 (F := Ideal) V0) 1 (by decide) _ _ b i
  have hrb : ∀ b i, (res_main_v363 (F := Ideal) V0) (ix2 b i) = (res_main_v353 (F := Ideal) V0) (ix3 b (pB 12) i) := fun b i => by
    unfold res_main_v363; exact row_of (res_main_v353 (F := Ideal) V0) 7 (by decide) _ _ b i
  exact step_generic (Aof V0) 12 (by decide) 1#32 7#32 (by decide) (by decide) rfl rfl _ hprev _ _ hcv hsv _ _ hrt hrb b j i

/-- After step 13 (pair (2, 3)). -/
theorem R13 (b : Fin 65536) (j i : Fin 8) :
    res_main_v409 (F := Ideal) V0 (ix3 b j i) = Rk (cosA (Aof V0) b) (sinA (Aof V0) b) 14 j i := by
  unfold res_main_v409
  have hprev : ∀ b j i, (res_main_v381 (F := Ideal) V0) (ix3 b j i) = Rk (cosA (Aof V0) b) (sinA (Aof V0) b) 13 j i := R12 V0
  have hcv : ∀ b, res_main_v384 (F := Ideal) V0 (ix1 b) = Ideal.cos (angAt (Aof V0) b 13) := fun b => by
    unfold res_main_v384; exact cos_col (Aof V0) 13 (by decide) _ _ b
  have hsv : ∀ b, res_main_v387 (F := Ideal) V0 (ix1 b) = Ideal.sin (angAt (Aof V0) b 13) := fun b => by
    unfold res_main_v387; exact sin_col (Aof V0) 13 (by decide) _ _ b
  have hrt : ∀ b i, (res_main_v389 (F := Ideal) V0) (ix2 b i) = (res_main_v381 (F := Ideal) V0) (ix3 b (pT 13) i) := fun b i => by
    unfold res_main_v389; exact row_of (res_main_v381 (F := Ideal) V0) 2 (by decide) _ _ b i
  have hrb : ∀ b i, (res_main_v391 (F := Ideal) V0) (ix2 b i) = (res_main_v381 (F := Ideal) V0) (ix3 b (pB 13) i) := fun b i => by
    unfold res_main_v391; exact row_of (res_main_v381 (F := Ideal) V0) 3 (by decide) _ _ b i
  exact step_generic (Aof V0) 13 (by decide) 2#32 3#32 (by decide) (by decide) rfl rfl _ hprev _ _ hcv hsv _ _ hrt hrb b j i

/-- After step 14 (pair (2, 4)). -/
theorem R14 (b : Fin 65536) (j i : Fin 8) :
    res_main_v437 (F := Ideal) V0 (ix3 b j i) = Rk (cosA (Aof V0) b) (sinA (Aof V0) b) 15 j i := by
  unfold res_main_v437
  have hprev : ∀ b j i, (res_main_v409 (F := Ideal) V0) (ix3 b j i) = Rk (cosA (Aof V0) b) (sinA (Aof V0) b) 14 j i := R13 V0
  have hcv : ∀ b, res_main_v412 (F := Ideal) V0 (ix1 b) = Ideal.cos (angAt (Aof V0) b 14) := fun b => by
    unfold res_main_v412; exact cos_col (Aof V0) 14 (by decide) _ _ b
  have hsv : ∀ b, res_main_v415 (F := Ideal) V0 (ix1 b) = Ideal.sin (angAt (Aof V0) b 14) := fun b => by
    unfold res_main_v415; exact sin_col (Aof V0) 14 (by decide) _ _ b
  have hrt : ∀ b i, (res_main_v417 (F := Ideal) V0) (ix2 b i) = (res_main_v409 (F := Ideal) V0) (ix3 b (pT 14) i) := fun b i => by
    unfold res_main_v417; exact row_of (res_main_v409 (F := Ideal) V0) 2 (by decide) _ _ b i
  have hrb : ∀ b i, (res_main_v419 (F := Ideal) V0) (ix2 b i) = (res_main_v409 (F := Ideal) V0) (ix3 b (pB 14) i) := fun b i => by
    unfold res_main_v419; exact row_of (res_main_v409 (F := Ideal) V0) 4 (by decide) _ _ b i
  exact step_generic (Aof V0) 14 (by decide) 2#32 4#32 (by decide) (by decide) rfl rfl _ hprev _ _ hcv hsv _ _ hrt hrb b j i

/-- After step 15 (pair (2, 5)). -/
theorem R15 (b : Fin 65536) (j i : Fin 8) :
    res_main_v465 (F := Ideal) V0 (ix3 b j i) = Rk (cosA (Aof V0) b) (sinA (Aof V0) b) 16 j i := by
  unfold res_main_v465
  have hprev : ∀ b j i, (res_main_v437 (F := Ideal) V0) (ix3 b j i) = Rk (cosA (Aof V0) b) (sinA (Aof V0) b) 15 j i := R14 V0
  have hcv : ∀ b, res_main_v440 (F := Ideal) V0 (ix1 b) = Ideal.cos (angAt (Aof V0) b 15) := fun b => by
    unfold res_main_v440; exact cos_col (Aof V0) 15 (by decide) _ _ b
  have hsv : ∀ b, res_main_v443 (F := Ideal) V0 (ix1 b) = Ideal.sin (angAt (Aof V0) b 15) := fun b => by
    unfold res_main_v443; exact sin_col (Aof V0) 15 (by decide) _ _ b
  have hrt : ∀ b i, (res_main_v445 (F := Ideal) V0) (ix2 b i) = (res_main_v437 (F := Ideal) V0) (ix3 b (pT 15) i) := fun b i => by
    unfold res_main_v445; exact row_of (res_main_v437 (F := Ideal) V0) 2 (by decide) _ _ b i
  have hrb : ∀ b i, (res_main_v447 (F := Ideal) V0) (ix2 b i) = (res_main_v437 (F := Ideal) V0) (ix3 b (pB 15) i) := fun b i => by
    unfold res_main_v447; exact row_of (res_main_v437 (F := Ideal) V0) 5 (by decide) _ _ b i
  exact step_generic (Aof V0) 15 (by decide) 2#32 5#32 (by decide) (by decide) rfl rfl _ hprev _ _ hcv hsv _ _ hrt hrb b j i

/-- After step 16 (pair (2, 6)). -/
theorem R16 (b : Fin 65536) (j i : Fin 8) :
    res_main_v493 (F := Ideal) V0 (ix3 b j i) = Rk (cosA (Aof V0) b) (sinA (Aof V0) b) 17 j i := by
  unfold res_main_v493
  have hprev : ∀ b j i, (res_main_v465 (F := Ideal) V0) (ix3 b j i) = Rk (cosA (Aof V0) b) (sinA (Aof V0) b) 16 j i := R15 V0
  have hcv : ∀ b, res_main_v468 (F := Ideal) V0 (ix1 b) = Ideal.cos (angAt (Aof V0) b 16) := fun b => by
    unfold res_main_v468; exact cos_col (Aof V0) 16 (by decide) _ _ b
  have hsv : ∀ b, res_main_v471 (F := Ideal) V0 (ix1 b) = Ideal.sin (angAt (Aof V0) b 16) := fun b => by
    unfold res_main_v471; exact sin_col (Aof V0) 16 (by decide) _ _ b
  have hrt : ∀ b i, (res_main_v473 (F := Ideal) V0) (ix2 b i) = (res_main_v465 (F := Ideal) V0) (ix3 b (pT 16) i) := fun b i => by
    unfold res_main_v473; exact row_of (res_main_v465 (F := Ideal) V0) 2 (by decide) _ _ b i
  have hrb : ∀ b i, (res_main_v475 (F := Ideal) V0) (ix2 b i) = (res_main_v465 (F := Ideal) V0) (ix3 b (pB 16) i) := fun b i => by
    unfold res_main_v475; exact row_of (res_main_v465 (F := Ideal) V0) 6 (by decide) _ _ b i
  exact step_generic (Aof V0) 16 (by decide) 2#32 6#32 (by decide) (by decide) rfl rfl _ hprev _ _ hcv hsv _ _ hrt hrb b j i

/-- After step 17 (pair (2, 7)). -/
theorem R17 (b : Fin 65536) (j i : Fin 8) :
    res_main_v521 (F := Ideal) V0 (ix3 b j i) = Rk (cosA (Aof V0) b) (sinA (Aof V0) b) 18 j i := by
  unfold res_main_v521
  have hprev : ∀ b j i, (res_main_v493 (F := Ideal) V0) (ix3 b j i) = Rk (cosA (Aof V0) b) (sinA (Aof V0) b) 17 j i := R16 V0
  have hcv : ∀ b, res_main_v496 (F := Ideal) V0 (ix1 b) = Ideal.cos (angAt (Aof V0) b 17) := fun b => by
    unfold res_main_v496; exact cos_col (Aof V0) 17 (by decide) _ _ b
  have hsv : ∀ b, res_main_v499 (F := Ideal) V0 (ix1 b) = Ideal.sin (angAt (Aof V0) b 17) := fun b => by
    unfold res_main_v499; exact sin_col (Aof V0) 17 (by decide) _ _ b
  have hrt : ∀ b i, (res_main_v501 (F := Ideal) V0) (ix2 b i) = (res_main_v493 (F := Ideal) V0) (ix3 b (pT 17) i) := fun b i => by
    unfold res_main_v501; exact row_of (res_main_v493 (F := Ideal) V0) 2 (by decide) _ _ b i
  have hrb : ∀ b i, (res_main_v503 (F := Ideal) V0) (ix2 b i) = (res_main_v493 (F := Ideal) V0) (ix3 b (pB 17) i) := fun b i => by
    unfold res_main_v503; exact row_of (res_main_v493 (F := Ideal) V0) 7 (by decide) _ _ b i
  exact step_generic (Aof V0) 17 (by decide) 2#32 7#32 (by decide) (by decide) rfl rfl _ hprev _ _ hcv hsv _ _ hrt hrb b j i

/-- After step 18 (pair (3, 4)). -/
theorem R18 (b : Fin 65536) (j i : Fin 8) :
    res_main_v549 (F := Ideal) V0 (ix3 b j i) = Rk (cosA (Aof V0) b) (sinA (Aof V0) b) 19 j i := by
  unfold res_main_v549
  have hprev : ∀ b j i, (res_main_v521 (F := Ideal) V0) (ix3 b j i) = Rk (cosA (Aof V0) b) (sinA (Aof V0) b) 18 j i := R17 V0
  have hcv : ∀ b, res_main_v524 (F := Ideal) V0 (ix1 b) = Ideal.cos (angAt (Aof V0) b 18) := fun b => by
    unfold res_main_v524; exact cos_col (Aof V0) 18 (by decide) _ _ b
  have hsv : ∀ b, res_main_v527 (F := Ideal) V0 (ix1 b) = Ideal.sin (angAt (Aof V0) b 18) := fun b => by
    unfold res_main_v527; exact sin_col (Aof V0) 18 (by decide) _ _ b
  have hrt : ∀ b i, (res_main_v529 (F := Ideal) V0) (ix2 b i) = (res_main_v521 (F := Ideal) V0) (ix3 b (pT 18) i) := fun b i => by
    unfold res_main_v529; exact row_of (res_main_v521 (F := Ideal) V0) 3 (by decide) _ _ b i
  have hrb : ∀ b i, (res_main_v531 (F := Ideal) V0) (ix2 b i) = (res_main_v521 (F := Ideal) V0) (ix3 b (pB 18) i) := fun b i => by
    unfold res_main_v531; exact row_of (res_main_v521 (F := Ideal) V0) 4 (by decide) _ _ b i
  exact step_generic (Aof V0) 18 (by decide) 3#32 4#32 (by decide) (by decide) rfl rfl _ hprev _ _ hcv hsv _ _ hrt hrb b j i

/-- After step 19 (pair (3, 5)). -/
theorem R19 (b : Fin 65536) (j i : Fin 8) :
    res_main_v577 (F := Ideal) V0 (ix3 b j i) = Rk (cosA (Aof V0) b) (sinA (Aof V0) b) 20 j i := by
  unfold res_main_v577
  have hprev : ∀ b j i, (res_main_v549 (F := Ideal) V0) (ix3 b j i) = Rk (cosA (Aof V0) b) (sinA (Aof V0) b) 19 j i := R18 V0
  have hcv : ∀ b, res_main_v552 (F := Ideal) V0 (ix1 b) = Ideal.cos (angAt (Aof V0) b 19) := fun b => by
    unfold res_main_v552; exact cos_col (Aof V0) 19 (by decide) _ _ b
  have hsv : ∀ b, res_main_v555 (F := Ideal) V0 (ix1 b) = Ideal.sin (angAt (Aof V0) b 19) := fun b => by
    unfold res_main_v555; exact sin_col (Aof V0) 19 (by decide) _ _ b
  have hrt : ∀ b i, (res_main_v557 (F := Ideal) V0) (ix2 b i) = (res_main_v549 (F := Ideal) V0) (ix3 b (pT 19) i) := fun b i => by
    unfold res_main_v557; exact row_of (res_main_v549 (F := Ideal) V0) 3 (by decide) _ _ b i
  have hrb : ∀ b i, (res_main_v559 (F := Ideal) V0) (ix2 b i) = (res_main_v549 (F := Ideal) V0) (ix3 b (pB 19) i) := fun b i => by
    unfold res_main_v559; exact row_of (res_main_v549 (F := Ideal) V0) 5 (by decide) _ _ b i
  exact step_generic (Aof V0) 19 (by decide) 3#32 5#32 (by decide) (by decide) rfl rfl _ hprev _ _ hcv hsv _ _ hrt hrb b j i

/-- After step 20 (pair (3, 6)). -/
theorem R20 (b : Fin 65536) (j i : Fin 8) :
    res_main_v605 (F := Ideal) V0 (ix3 b j i) = Rk (cosA (Aof V0) b) (sinA (Aof V0) b) 21 j i := by
  unfold res_main_v605
  have hprev : ∀ b j i, (res_main_v577 (F := Ideal) V0) (ix3 b j i) = Rk (cosA (Aof V0) b) (sinA (Aof V0) b) 20 j i := R19 V0
  have hcv : ∀ b, res_main_v580 (F := Ideal) V0 (ix1 b) = Ideal.cos (angAt (Aof V0) b 20) := fun b => by
    unfold res_main_v580; exact cos_col (Aof V0) 20 (by decide) _ _ b
  have hsv : ∀ b, res_main_v583 (F := Ideal) V0 (ix1 b) = Ideal.sin (angAt (Aof V0) b 20) := fun b => by
    unfold res_main_v583; exact sin_col (Aof V0) 20 (by decide) _ _ b
  have hrt : ∀ b i, (res_main_v585 (F := Ideal) V0) (ix2 b i) = (res_main_v577 (F := Ideal) V0) (ix3 b (pT 20) i) := fun b i => by
    unfold res_main_v585; exact row_of (res_main_v577 (F := Ideal) V0) 3 (by decide) _ _ b i
  have hrb : ∀ b i, (res_main_v587 (F := Ideal) V0) (ix2 b i) = (res_main_v577 (F := Ideal) V0) (ix3 b (pB 20) i) := fun b i => by
    unfold res_main_v587; exact row_of (res_main_v577 (F := Ideal) V0) 6 (by decide) _ _ b i
  exact step_generic (Aof V0) 20 (by decide) 3#32 6#32 (by decide) (by decide) rfl rfl _ hprev _ _ hcv hsv _ _ hrt hrb b j i

/-- After step 21 (pair (3, 7)). -/
theorem R21 (b : Fin 65536) (j i : Fin 8) :
    res_main_v633 (F := Ideal) V0 (ix3 b j i) = Rk (cosA (Aof V0) b) (sinA (Aof V0) b) 22 j i := by
  unfold res_main_v633
  have hprev : ∀ b j i, (res_main_v605 (F := Ideal) V0) (ix3 b j i) = Rk (cosA (Aof V0) b) (sinA (Aof V0) b) 21 j i := R20 V0
  have hcv : ∀ b, res_main_v608 (F := Ideal) V0 (ix1 b) = Ideal.cos (angAt (Aof V0) b 21) := fun b => by
    unfold res_main_v608; exact cos_col (Aof V0) 21 (by decide) _ _ b
  have hsv : ∀ b, res_main_v611 (F := Ideal) V0 (ix1 b) = Ideal.sin (angAt (Aof V0) b 21) := fun b => by
    unfold res_main_v611; exact sin_col (Aof V0) 21 (by decide) _ _ b
  have hrt : ∀ b i, (res_main_v613 (F := Ideal) V0) (ix2 b i) = (res_main_v605 (F := Ideal) V0) (ix3 b (pT 21) i) := fun b i => by
    unfold res_main_v613; exact row_of (res_main_v605 (F := Ideal) V0) 3 (by decide) _ _ b i
  have hrb : ∀ b i, (res_main_v615 (F := Ideal) V0) (ix2 b i) = (res_main_v605 (F := Ideal) V0) (ix3 b (pB 21) i) := fun b i => by
    unfold res_main_v615; exact row_of (res_main_v605 (F := Ideal) V0) 7 (by decide) _ _ b i
  exact step_generic (Aof V0) 21 (by decide) 3#32 7#32 (by decide) (by decide) rfl rfl _ hprev _ _ hcv hsv _ _ hrt hrb b j i

/-- After step 22 (pair (4, 5)). -/
theorem R22 (b : Fin 65536) (j i : Fin 8) :
    res_main_v661 (F := Ideal) V0 (ix3 b j i) = Rk (cosA (Aof V0) b) (sinA (Aof V0) b) 23 j i := by
  unfold res_main_v661
  have hprev : ∀ b j i, (res_main_v633 (F := Ideal) V0) (ix3 b j i) = Rk (cosA (Aof V0) b) (sinA (Aof V0) b) 22 j i := R21 V0
  have hcv : ∀ b, res_main_v636 (F := Ideal) V0 (ix1 b) = Ideal.cos (angAt (Aof V0) b 22) := fun b => by
    unfold res_main_v636; exact cos_col (Aof V0) 22 (by decide) _ _ b
  have hsv : ∀ b, res_main_v639 (F := Ideal) V0 (ix1 b) = Ideal.sin (angAt (Aof V0) b 22) := fun b => by
    unfold res_main_v639; exact sin_col (Aof V0) 22 (by decide) _ _ b
  have hrt : ∀ b i, (res_main_v641 (F := Ideal) V0) (ix2 b i) = (res_main_v633 (F := Ideal) V0) (ix3 b (pT 22) i) := fun b i => by
    unfold res_main_v641; exact row_of (res_main_v633 (F := Ideal) V0) 4 (by decide) _ _ b i
  have hrb : ∀ b i, (res_main_v643 (F := Ideal) V0) (ix2 b i) = (res_main_v633 (F := Ideal) V0) (ix3 b (pB 22) i) := fun b i => by
    unfold res_main_v643; exact row_of (res_main_v633 (F := Ideal) V0) 5 (by decide) _ _ b i
  exact step_generic (Aof V0) 22 (by decide) 4#32 5#32 (by decide) (by decide) rfl rfl _ hprev _ _ hcv hsv _ _ hrt hrb b j i

/-- After step 23 (pair (4, 6)). -/
theorem R23 (b : Fin 65536) (j i : Fin 8) :
    res_main_v689 (F := Ideal) V0 (ix3 b j i) = Rk (cosA (Aof V0) b) (sinA (Aof V0) b) 24 j i := by
  unfold res_main_v689
  have hprev : ∀ b j i, (res_main_v661 (F := Ideal) V0) (ix3 b j i) = Rk (cosA (Aof V0) b) (sinA (Aof V0) b) 23 j i := R22 V0
  have hcv : ∀ b, res_main_v664 (F := Ideal) V0 (ix1 b) = Ideal.cos (angAt (Aof V0) b 23) := fun b => by
    unfold res_main_v664; exact cos_col (Aof V0) 23 (by decide) _ _ b
  have hsv : ∀ b, res_main_v667 (F := Ideal) V0 (ix1 b) = Ideal.sin (angAt (Aof V0) b 23) := fun b => by
    unfold res_main_v667; exact sin_col (Aof V0) 23 (by decide) _ _ b
  have hrt : ∀ b i, (res_main_v669 (F := Ideal) V0) (ix2 b i) = (res_main_v661 (F := Ideal) V0) (ix3 b (pT 23) i) := fun b i => by
    unfold res_main_v669; exact row_of (res_main_v661 (F := Ideal) V0) 4 (by decide) _ _ b i
  have hrb : ∀ b i, (res_main_v671 (F := Ideal) V0) (ix2 b i) = (res_main_v661 (F := Ideal) V0) (ix3 b (pB 23) i) := fun b i => by
    unfold res_main_v671; exact row_of (res_main_v661 (F := Ideal) V0) 6 (by decide) _ _ b i
  exact step_generic (Aof V0) 23 (by decide) 4#32 6#32 (by decide) (by decide) rfl rfl _ hprev _ _ hcv hsv _ _ hrt hrb b j i

/-- After step 24 (pair (4, 7)). -/
theorem R24 (b : Fin 65536) (j i : Fin 8) :
    res_main_v717 (F := Ideal) V0 (ix3 b j i) = Rk (cosA (Aof V0) b) (sinA (Aof V0) b) 25 j i := by
  unfold res_main_v717
  have hprev : ∀ b j i, (res_main_v689 (F := Ideal) V0) (ix3 b j i) = Rk (cosA (Aof V0) b) (sinA (Aof V0) b) 24 j i := R23 V0
  have hcv : ∀ b, res_main_v692 (F := Ideal) V0 (ix1 b) = Ideal.cos (angAt (Aof V0) b 24) := fun b => by
    unfold res_main_v692; exact cos_col (Aof V0) 24 (by decide) _ _ b
  have hsv : ∀ b, res_main_v695 (F := Ideal) V0 (ix1 b) = Ideal.sin (angAt (Aof V0) b 24) := fun b => by
    unfold res_main_v695; exact sin_col (Aof V0) 24 (by decide) _ _ b
  have hrt : ∀ b i, (res_main_v697 (F := Ideal) V0) (ix2 b i) = (res_main_v689 (F := Ideal) V0) (ix3 b (pT 24) i) := fun b i => by
    unfold res_main_v697; exact row_of (res_main_v689 (F := Ideal) V0) 4 (by decide) _ _ b i
  have hrb : ∀ b i, (res_main_v699 (F := Ideal) V0) (ix2 b i) = (res_main_v689 (F := Ideal) V0) (ix3 b (pB 24) i) := fun b i => by
    unfold res_main_v699; exact row_of (res_main_v689 (F := Ideal) V0) 7 (by decide) _ _ b i
  exact step_generic (Aof V0) 24 (by decide) 4#32 7#32 (by decide) (by decide) rfl rfl _ hprev _ _ hcv hsv _ _ hrt hrb b j i

/-- After step 25 (pair (5, 6)). -/
theorem R25 (b : Fin 65536) (j i : Fin 8) :
    res_main_v745 (F := Ideal) V0 (ix3 b j i) = Rk (cosA (Aof V0) b) (sinA (Aof V0) b) 26 j i := by
  unfold res_main_v745
  have hprev : ∀ b j i, (res_main_v717 (F := Ideal) V0) (ix3 b j i) = Rk (cosA (Aof V0) b) (sinA (Aof V0) b) 25 j i := R24 V0
  have hcv : ∀ b, res_main_v720 (F := Ideal) V0 (ix1 b) = Ideal.cos (angAt (Aof V0) b 25) := fun b => by
    unfold res_main_v720; exact cos_col (Aof V0) 25 (by decide) _ _ b
  have hsv : ∀ b, res_main_v723 (F := Ideal) V0 (ix1 b) = Ideal.sin (angAt (Aof V0) b 25) := fun b => by
    unfold res_main_v723; exact sin_col (Aof V0) 25 (by decide) _ _ b
  have hrt : ∀ b i, (res_main_v725 (F := Ideal) V0) (ix2 b i) = (res_main_v717 (F := Ideal) V0) (ix3 b (pT 25) i) := fun b i => by
    unfold res_main_v725; exact row_of (res_main_v717 (F := Ideal) V0) 5 (by decide) _ _ b i
  have hrb : ∀ b i, (res_main_v727 (F := Ideal) V0) (ix2 b i) = (res_main_v717 (F := Ideal) V0) (ix3 b (pB 25) i) := fun b i => by
    unfold res_main_v727; exact row_of (res_main_v717 (F := Ideal) V0) 6 (by decide) _ _ b i
  exact step_generic (Aof V0) 25 (by decide) 5#32 6#32 (by decide) (by decide) rfl rfl _ hprev _ _ hcv hsv _ _ hrt hrb b j i

/-- After step 26 (pair (5, 7)). -/
theorem R26 (b : Fin 65536) (j i : Fin 8) :
    res_main_v773 (F := Ideal) V0 (ix3 b j i) = Rk (cosA (Aof V0) b) (sinA (Aof V0) b) 27 j i := by
  unfold res_main_v773
  have hprev : ∀ b j i, (res_main_v745 (F := Ideal) V0) (ix3 b j i) = Rk (cosA (Aof V0) b) (sinA (Aof V0) b) 26 j i := R25 V0
  have hcv : ∀ b, res_main_v748 (F := Ideal) V0 (ix1 b) = Ideal.cos (angAt (Aof V0) b 26) := fun b => by
    unfold res_main_v748; exact cos_col (Aof V0) 26 (by decide) _ _ b
  have hsv : ∀ b, res_main_v751 (F := Ideal) V0 (ix1 b) = Ideal.sin (angAt (Aof V0) b 26) := fun b => by
    unfold res_main_v751; exact sin_col (Aof V0) 26 (by decide) _ _ b
  have hrt : ∀ b i, (res_main_v753 (F := Ideal) V0) (ix2 b i) = (res_main_v745 (F := Ideal) V0) (ix3 b (pT 26) i) := fun b i => by
    unfold res_main_v753; exact row_of (res_main_v745 (F := Ideal) V0) 5 (by decide) _ _ b i
  have hrb : ∀ b i, (res_main_v755 (F := Ideal) V0) (ix2 b i) = (res_main_v745 (F := Ideal) V0) (ix3 b (pB 26) i) := fun b i => by
    unfold res_main_v755; exact row_of (res_main_v745 (F := Ideal) V0) 7 (by decide) _ _ b i
  exact step_generic (Aof V0) 26 (by decide) 5#32 7#32 (by decide) (by decide) rfl rfl _ hprev _ _ hcv hsv _ _ hrt hrb b j i

/-- After step 27 (pair (6, 7)). -/
theorem R27 (b : Fin 65536) (j i : Fin 8) :
    (Host.scatter scatter_S65536x8x8_S1_S65536x8_01_1_1_0 (fun _ b => b) (Host.scatter scatter_S65536x8x8_S1_S65536x8_01_1_1_0 (fun _ b => b) (P26 V0) (broadcastInDim S1 ![] bcast_S_S1 (constantI S_ 32 6#32)) (subf (mulf (broadcastInDim S65536x8 ![0, 1] bcast_S65536x1_S65536x8_0_1 (broadcastInDim S65536x1 ![0] bcast_S65536_S65536x1_0 (C27 V0))) (T27 V0)) (mulf (broadcastInDim S65536x8 ![0, 1] bcast_S65536x1_S65536x8_0_1 (broadcastInDim S65536x1 ![0] bcast_S65536_S65536x1_0 (S27 V0))) (B27 V0)))) (broadcastInDim S1 ![] bcast_S_S1 (constantI S_ 32 7#32)) (addf (mulf (broadcastInDim S65536x8 ![0, 1] bcast_S65536x1_S65536x8_0_1 (broadcastInDim S65536x1 ![0] bcast_S65536_S65536x1_0 (S27 V0))) (T27 V0)) (mulf (broadcastInDim S65536x8 ![0, 1] bcast_S65536x1_S65536x8_0_1 (broadcastInDim S65536x1 ![0] bcast_S65536_S65536x1_0 (C27 V0))) (B27 V0)))) (ix3 b j i) = Rk (cosA (Aof V0) b) (sinA (Aof V0) b) 28 j i := by
  have hprev : ∀ b j i, (res_main_v773 (F := Ideal) V0) (ix3 b j i) = Rk (cosA (Aof V0) b) (sinA (Aof V0) b) 27 j i := R26 V0
  have hcv : ∀ b, res_main_v776 (F := Ideal) V0 (ix1 b) = Ideal.cos (angAt (Aof V0) b 27) := fun b => by
    unfold res_main_v776; exact cos_col (Aof V0) 27 (by decide) _ _ b
  have hsv : ∀ b, res_main_v779 (F := Ideal) V0 (ix1 b) = Ideal.sin (angAt (Aof V0) b 27) := fun b => by
    unfold res_main_v779; exact sin_col (Aof V0) 27 (by decide) _ _ b
  have hrt : ∀ b i, (res_main_v781 (F := Ideal) V0) (ix2 b i) = (res_main_v773 (F := Ideal) V0) (ix3 b (pT 27) i) := fun b i => by
    unfold res_main_v781; exact row_of (res_main_v773 (F := Ideal) V0) 6 (by decide) _ _ b i
  have hrb : ∀ b i, (res_main_v783 (F := Ideal) V0) (ix2 b i) = (res_main_v773 (F := Ideal) V0) (ix3 b (pB 27) i) := fun b i => by
    unfold res_main_v783; exact row_of (res_main_v773 (F := Ideal) V0) 7 (by decide) _ _ b i
  exact step_generic (Aof V0) 27 (by decide) 6#32 7#32 (by decide) (by decide) rfl rfl _ hprev _ _ hcv hsv _ _ hrt hrb b j i

/-! ## The reference's result -/

theorem Rk_congr {c c' s s' : ℕ → EReal} (hc : ∀ n, c n = c' n) (hs : ∀ n, s n = s' n) (k : ℕ) (j i : Fin 8) :
    Rk c s k j i = Rk c' s' k j i := by
  rw [funext hc, funext hs]

theorem Wd_congr {c c' s s' : ℕ → EReal} {w w' : Fin 8 → EReal} (hc : ∀ n, c n = c' n) (hs : ∀ n, s n = s' n)
    (hw : ∀ j, w j = w' j) (n : ℕ) (i : Fin 8) : Wd c s w n i = Wd c' s' w' n i := by
  rw [funext hc, funext hs, funext hw]

/-- The reference's result term is `G` of the arguments, when every entry of the arguments is a real number:
    channel `ch < 8` is `X` itself; channel `8 + i` is `∑ⱼ (μⱼ · R₂₈[j, i]) · vⱼ`, which for real cosines, sines, signs
    and data is the rotated vector's entry `i`. -/
theorem ref_value
    (hX : ∀ i, ∃ x : ℝ, Xof V0 i = (x : EReal))
    (hA : ∀ i, ∃ a : ℝ, Aof V0 i = (a : EReal))
    (hM : ∀ i, ∃ u : ℝ, Mof V0 i = (u : EReal)) :
    transpose S64x256x256x16 [3, 0, 1, 2]
      (shapeCast S256x256x16x64
        (concatenate S65536x16x64 1
          [⟨S65536x8x64, (extractStridedSlice S65536x8x64 ![0, 0, 0] (Yof V0) slices_S65536x16x64_S65536x8x64_0_0_0)⟩,
           ⟨S65536x8x64, (Host.dotGeneral dot_S65536x8x8_S65536x8x64_S65536x8x64_1_1_2_2_0_0 none
              (mulf (broadcastInDim S65536x8x8 ![0, 1, 2] bcast_S65536x8x1_S65536x8x8_0_1_2
                (broadcastInDim S65536x8x1 ![0, 1] bcast_S65536x8_S65536x8x1_0_1 (Mof V0)))
                (Host.scatter scatter_S65536x8x8_S1_S65536x8_01_1_1_0 (fun _ b => b) (Host.scatter scatter_S65536x8x8_S1_S65536x8_01_1_1_0 (fun _ b => b) (P26 V0) (broadcastInDim S1 ![] bcast_S_S1 (constantI S_ 32 6#32)) (subf (mulf (broadcastInDim S65536x8 ![0, 1] bcast_S65536x1_S65536x8_0_1 (broadcastInDim S65536x1 ![0] bcast_S65536_S65536x1_0 (C27 V0))) (T27 V0)) (mulf (broadcastInDim S65536x8 ![0, 1] bcast_S65536x1_S65536x8_0_1 (broadcastInDim S65536x1 ![0] bcast_S65536_S65536x1_0 (S27 V0))) (B27 V0)))) (broadcastInDim S1 ![] bcast_S_S1 (constantI S_ 32 7#32)) (addf (mulf (broadcastInDim S65536x8 ![0, 1] bcast_S65536x1_S65536x8_0_1 (broadcastInDim S65536x1 ![0] bcast_S65536_S65536x1_0 (S27 V0))) (T27 V0)) (mulf (broadcastInDim S65536x8 ![0, 1] bcast_S65536x1_S65536x8_0_1 (broadcastInDim S65536x1 ![0] bcast_S65536_S65536x1_0 (C27 V0))) (B27 V0)))))
              (extractStridedSlice S65536x8x64 ![0, 8, 0] (Yof V0) slices_S65536x16x64_S65536x8x64_0_8_0))⟩]
          concatenates_S65536x8x64_S65536x8x64_S65536x16x64_d1)
        shapeCasts_S65536x16x64_S256x256x16x64)
      transposes_S256x256x16x64_S64x256x256x16_3_0_1_2
      = G (Xof V0) (Aof V0) (Mof V0) := by
  choose xr hxr using hX
  choose ar har using hA
  choose mr hmr using hM
  have hxr' : ∀ i : S64x256x256x16.Idx, V0 (Proc.devRef .tc main_arg0) i = ((xr i : ℝ) : EReal) := hxr
  have hmr' : ∀ i : S65536x8.Idx, V0 (Proc.devRef .tc main_arg2) i = ((mr i : ℝ) : EReal) := hmr
  funext idx
  obtain ⟨n, r, c, ch, rfl⟩ : ∃ (n : Fin 64) (r c : Fin 256) (ch : Fin 16), idx = ix4 n r c ch :=
    ⟨idx 0, idx 1, idx 2, idx 3, eq_ix4 idx⟩
  refine (RefTail.tail_apply _ _ _ n r c ch).trans ?_
  show _ = Gat _ _ _ n r c ch
  unfold Gat cell
  by_cases h : ch.val < 8
  · rw [dif_pos h, dif_pos h]
  · rw [dif_neg h, dif_neg h]
    have hang : ∀ k, ∃ a : ℝ, angAt (Aof V0) (blkOf r c) k = (a : EReal) := by
      intro k
      unfold angAt
      by_cases hk : k < 28
      · rw [dif_pos hk]; exact ⟨_, har _⟩
      · rw [dif_neg hk]; exact ⟨0, EReal.coe_zero.symm⟩
    choose aR haR using hang
    have hcos : ∀ k, cosA (Aof V0) (blkOf r c) k = ((Real.cos (aR k) : ℝ) : EReal) := by
      intro k; show Ideal.cos (angAt (Aof V0) (blkOf r c) k) = _; rw [haR k]; rfl
    have hsin : ∀ k, sinA (Aof V0) (blkOf r c) k = ((Real.sin (aR k) : ℝ) : EReal) := by
      intro k; show Ideal.sin (angAt (Aof V0) (blkOf r c) k) = _; rw [haR k]; rfl
    rw [Finset.sum_congr rfl (fun j _ => by
      rw [R27 V0 (blkOf r c) j _, Rk_congr hcos hsin, hmr, hxr'])]
    rw [ereal_identity (fun k => Real.cos (aR k)) (fun k => Real.sin (aR k)) (fun j => mr (ix2 (blkOf r c) j))
      (fun j => xr (ix4 n r c (up j)))]
    exact (Wd_congr (fun k => hcos k) (fun k => hsin k) (fun j => by
      dsimp only
      first | rw [hmr, hxr] | rw [hmr', hxr'] | rw [hmr, hxr'] | rw [hmr', hxr]) 28 _).symm

end Cert.ReferenceIdeal.Steps

end
-- ==== Proof.Finite.lean ====
/-
  The precondition, read: when the printed predicate `finite_inputs` is all ones at the extended reals, every entry of
  each of the three argument arrays is a real number (its absolute value is below +∞).
-/
import proofs.«109475_j41601053229316_1_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs Cert.Pre_finite_inputs.Gen

/-- One entry: if the bit of `|x| < +∞` is 1 then `x` is a real. The pattern 0x7F800000 denotes `⊤`; `|x| = max x (-x)`
    is `⊤` at both infinities (`-⊥ = ⊤`), so only a real passes the strict comparison. -/
private theorem real_of_bit (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- The scalar result shape has exactly one index. -/
private instance subsingleton_idx : Subsingleton S_.Idx := ⟨fun a b => funext fun d => d.elim0⟩

/-- Under the precondition every entry of every argument is (the coercion of) a real number. -/
theorem real_of_pre (X : FVec Ideal S64x256x256x16 .f32) (A : FVec Ideal S65536x28 .f32) (M : FVec Ideal S65536x8 .f32)
    (h : Cert.Pre_finite_inputs.fn (F := Ideal) X A M = fun _ => 1#1) :
    (∀ i, ∃ x : ℝ, X i = (x : EReal)) ∧ (∀ i, ∃ a : ℝ, A i = (a : EReal)) ∧ (∀ i, ∃ u : ℝ, M i = (u : EReal)) := by
  -- the predicate's one value: the conjunction of the three `all`s
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- each `all` is 1, so each entry's comparison bit is 1, so each entry is a real
  refine ⟨fun i => ?_, fun i => ?_, fun i => ?_⟩
  · exact real_of_bit (X i) (Host.reduce_andi_all _ _ _ _ _ h1 i)
  · exact real_of_bit (A i) (Host.reduce_andi_all _ _ _ _ _ h2 i)
  · exact real_of_bit (M i) (Host.reduce_andi_all _ _ _ _ _ h3 i)

end Cert.Finite

end
-- ==== Proof.lean ====
/-
  The certificate.  Both idealized programs compute the function `Cert.Spec.G` of the three argument arrays: sample by
  sample and position by position the first 8 channels pass through, and the last 8 channels `v` become
  `G₀ᵀ ⋯ G₂₇ᵀ (μ ⊙ v)`, the 28 plane rotations `G_k` built from the position's angles.  The kernel applies the transposed
  rotations to the vector, last pair first (KernelBlock.lean, KernelFinal.lean); the reference builds the matrix
  `R = diag μ · G₂₇ ⋯ G₀` row by row and applies `Rᵀ` (RefSteps.lean, RefTail.lean); the two agree because
  `(G R)ᵀ w = Rᵀ (Gᵀ w)` (Rot.lean), a law that needs distributivity and so real entries: the precondition says every
  input entry is finite (Finite.lean), and cosines and sines of reals are real.  The frames are the generated ones; the
  idealization changed no operation.
-/
import proofs.«109475_j41601053229316_1_alg».proof.Defs
import proofs.«109475_j41601053229316_1_alg».proof.Proof.Gen.Kernel
import proofs.«109475_j41601053229316_1_alg».proof.Proof.Gen.Kernel.Skeleton
import proofs.«109475_j41601053229316_1_alg».proof.Proof.Gen.Kernel.Launch
import proofs.«109475_j41601053229316_1_alg».proof.Proof.Gen.Kernel.Points
import proofs.«109475_j41601053229316_1_alg».proof.Proof.Gen.Kernel.Frame
import proofs.«109475_j41601053229316_1_alg».proof.Proof.Gen.KernelIdeal
import proofs.«109475_j41601053229316_1_alg».proof.Proof.Gen.KernelIdeal.Skeleton
import proofs.«109475_j41601053229316_1_alg».proof.Proof.Gen.KernelIdeal.Launch
import proofs.«109475_j41601053229316_1_alg».proof.Proof.Gen.KernelIdeal.Points
import proofs.«109475_j41601053229316_1_alg».proof.Proof.Gen.KernelIdeal.Frame
import proofs.«109475_j41601053229316_1_alg».proof.Proof.Gen.ReferenceIdeal
import proofs.«109475_j41601053229316_1_alg».proof.Proof.Gen.Pre_finite_inputs
import proofs.«109475_j41601053229316_1_alg».proof.Proof.Gen.KernelIdeal.Value
import proofs.«109475_j41601053229316_1_alg».proof.Proof.RefRun
import proofs.«109475_j41601053229316_1_alg».proof.Proof.KernelFinal
import proofs.«109475_j41601053229316_1_alg».proof.Proof.RefSteps
import proofs.«109475_j41601053229316_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of the arguments: the kernel's whatever the inputs, the reference's because the
    precondition makes every input entry real. -/
theorem algebraic : Cert.algebraic_KernelIdeal_ReferenceIdeal := by
  intro m ρ m' ρ' hpre hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hM⟩ := Cert.Finite.real_of_pre
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (hpre c)
  have e0 := (hagree c).1
  have e1 := (hagree c).2.1
  have e2 := (hagree c).2.2
  have hX' : ∀ i, ∃ x : ℝ, m' ((c.tc : Thread Cert.ReferenceIdeal.nD Cert.ReferenceIdeal.τ).loc Cert.ReferenceIdeal.main_arg0) i = (x : EReal) := by
    rw [e0]; exact hX
  have hA' : ∀ i, ∃ a : ℝ, m' ((c.tc : Thread Cert.ReferenceIdeal.nD Cert.ReferenceIdeal.τ).loc Cert.ReferenceIdeal.main_arg1) i = (a : EReal) := by
    rw [e1]; exact hA
  have hM' : ∀ i, ∃ u : ℝ, m' ((c.tc : Thread Cert.ReferenceIdeal.nD Cert.ReferenceIdeal.τ).loc Cert.ReferenceIdeal.main_arg2) i = (u : EReal) := by
    rw [e2]; exact hM
  exact (Cert.ReferenceIdeal.Steps.ref_value (StableHlo.launchContents m' c) hX' hA' hM').trans
    (congr (congr (congrArg Cert.Spec.G e0) e1) e2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
